-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16 : Shape := ⟨1, ![16]⟩
abbrev S256x256 : Shape := ⟨2, ![256, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S16x4096x256 .f32) (main_arg1 : FVec F S16x4096x256 .f32) (main_arg2 : FVec F S16x4096x256 .f32) (main_arg3 : IVec S16 32) (main_arg4 : FVec F S256x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S16x4096x256 .f32 := Host.absf main_arg2
  let main_cst_2 : FVec F S_ .f32 := constant S_ .f32 0x7F800000#32
  let main_v10 : FVec F S16x4096x256 .f32 := broadcastInDim S16x4096x256 ![] bcast_S_S16x4096x256 main_cst_2
  let main_v11 : IVec S16x4096x256 1 := cmpf .olt main_v9 main_v10
  let main_c_3 : IVec S_ 1 := constantI S_ 1 1#1
  let main_v12 : IVec S_ 1 := (fun x v => Host.reduce IntOp.andi x v reducesTo_S16x4096x256_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S16x4096x256 : Shape := ⟨3, ![16, 4096, 256]⟩
abbrev S16 : Shape := ⟨1, ![16]⟩
abbrev S256x256 : Shape := ⟨2, ![256, 256]⟩
abbrev S16x256x256 : Shape := ⟨3, ![16, 256, 256]⟩
abbrev S16x1x256 : Shape := ⟨3, ![16, 1, 256]⟩
abbrev S1x1024x256 : Shape := ⟨3, ![1, 1024, 256]⟩
abbrev S1x256x256 : Shape := ⟨3, ![1, 256, 256]⟩
abbrev S1x1x256 : Shape := ⟨3, ![1, 1, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S256 : Shape := ⟨1, ![256]⟩

abbrev nBuf : Space → Nat
  | .hbm => 8
  | .vmem => 20
  | .smem => 1
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S256x256, .f32⟩
  | .hbm, ⟨4, _⟩ => ⟨S256x256, .f32⟩
  | .hbm, ⟨5, _⟩ => ⟨S16x256x256, .f32⟩
  | .hbm, ⟨6, _⟩ => ⟨S16x1x256, .f32⟩
  | .hbm, ⟨7, _⟩ => ⟨S16x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S1x256x256, .f32⟩
  | .local _ .vmem, ⟨6, _⟩ => ⟨S1x256x256, .f32⟩
  | .local _ .vmem, ⟨7, _⟩ => ⟨S1x1x256, .f32⟩
  | .local _ .vmem, ⟨8, _⟩ => ⟨S1x1x256, .f32⟩
  | .local _ .vmem, ⟨9, _⟩ => ⟨S256x256, .f32⟩
  | .local _ .vmem, ⟨10, _⟩ => ⟨S1x256, .f32⟩
  | .local _ .vmem, ⟨11, _⟩ => ⟨S1x1024x256, .f32⟩
  | .local _ .vmem, ⟨12, _⟩ => ⟨S1x1024x256, .f32⟩
  | .local _ .vmem, ⟨13, _⟩ => ⟨S256x256, .f32⟩
  | .local _ .vmem, ⟨14, _⟩ => ⟨S1x256x256, .f32⟩
  | .local _ .vmem, ⟨15, _⟩ => ⟨S1x256x256, .f32⟩
  | .local _ .vmem, ⟨16, _⟩ => ⟨S1x1x256, .f32⟩
  | .local _ .vmem, ⟨17, _⟩ => ⟨S1x1x256, .f32⟩
  | .local _ .vmem, ⟨18, _⟩ => ⟨S1x1024x256, .f32⟩
  | .local _ .vmem, ⟨19, _⟩ => ⟨S1x1024x256, .f32⟩
  | .local _ .smem, ⟨0, _⟩ => ⟨S16, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v29 : Index := Scalar.indexCast arg0
  ![v29.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  broadcasts_S1024x1_S1024x256 : S1024x1.Broadcasts S1024x256
  iota_S1024x1_d0_w32 : S1024x1.Iotas .tc 32 [0]
  numel1_S1 : S1.numel = 1
  natLt_1_32 : 1 < 32
  reduces_S1024x256_S256 : S1024x256.Reduces [0] S256
  shapeCasts_S256_S1x256 : S256.ShapeCasts S1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  broadcasts_S1x256_S1024x256 : S1x256.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S1024x256_S256x256_0_0_1_1_n_n_wf : DotDims.WF S1024x256 S1024x256 S256x256 [0] [0] [1] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x4096x256.size a
  hwx0_0 : ∀ i : grid0.Coords, EltTy.bits .f32 = 32 ∨ (Rect.block (s := S16x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x4096x256.size a
  hwx0_1 : ∀ i : grid0.Coords, EltTy.bits .f32 = 32 ∨ (Rect.block (s := S16x4096x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S16x256x256.size a
  hwx0_3 : ∀ i : grid0.Coords, EltTy.bits .f32 = 32 ∨ (Rect.block (s := S16x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x256.size a
  hwx0_4 : ∀ i : grid0.Coords, EltTy.bits .f32 = 32 ∨ (Rect.block (s := S16x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S16x4096x256.size a
  hwx1_0 : ∀ i : grid1.Coords, EltTy.bits .f32 = 32 ∨ (Rect.block (s := S16x4096x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S16x256x256.size a
  hwx1_2 : ∀ i : grid1.Coords, EltTy.bits .f32 = 32 ∨ (Rect.block (s := S16x256x256) S1x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S16x1x256.size a
  hwx1_3 : ∀ i : grid1.Coords, EltTy.bits .f32 = 32 ∨ (Rect.block (s := S16x1x256) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S16x4096x256.size a
  hwx1_4 : ∀ i : grid1.Coords, EltTy.bits .f32 = 32 ∨ (Rect.block (s := S16x4096x256) S1x1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev spec0_0 : Pipeline.WinSpec sig grid0.rank :=
  Pipeline.WinSpec.ofSpec (Memref.whole main_arg1) S1x1024x256.size reads0_0 false false 2 stage0_0 sem0_0 nbuf0_0 hstage0_0

abbrev spec0_1 : Pipeline.WinSpec sig grid0.rank :=
  Pipeline.WinSpec.ofSpec (Memref.whole main_arg2) S1x1024x256.size reads0_1 false false 2 stage0_1 sem0_1 nbuf0_1 hstage0_1

abbrev spec0_2 : Pipeline.WinSpec sig grid0.rank :=
  Pipeline.WinSpec.ofSpec (Memref.whole main_v0) S256x256.size reads0_2 false true 1 stage0_2 sem0_2 nbuf0_2 hstage0_2

abbrev spec0_3 : Pipeline.WinSpec sig grid0.rank :=
  Pipeline.WinSpec.ofSpec (Memref.whole main_v1_0) S1x256x256.size reads0_3 true false 2 stage0_3 sem0_3 nbuf0_3 hstage0_3

abbrev spec0_4 : Pipeline.WinSpec sig grid0.rank :=
  Pipeline.WinSpec.ofSpec (Memref.whole main_v1_1) S1x1x256.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  harr0 : ∀ w, (spec0 w).arr.IsWhole

variable [Facts]
-- ==== ReferenceIdeal.lean ====
abbrev S16x4096x256 : Shape := ⟨3, ![16, 4096, 256]⟩
abbrev S16 : Shape := ⟨1, ![16]⟩
abbrev S256x256 : Shape := ⟨2, ![256, 256]⟩
abbrev S_ : Shape := ⟨0, ![]⟩
abbrev S16x4096 : Shape := ⟨2, ![16, 4096]⟩
abbrev S16x4096x1 : Shape := ⟨3, ![16, 4096, 1]⟩
abbrev S4096 : Shape := ⟨1, ![4096]⟩
abbrev S16x1 : Shape := ⟨2, ![16, 1]⟩
abbrev S1x4096 : Shape := ⟨2, ![1, 4096]⟩
abbrev S16x4096x257 : Shape := ⟨3, ![16, 4096, 257]⟩
abbrev S16x256x257 : Shape := ⟨3, ![16, 256, 257]⟩

abbrev nBuf : Space → Nat
  | .hbm => 62
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S16, .i32⟩
  | .hbm, ⟨4, _⟩ => ⟨S256x256, .f32⟩
  | .hbm, ⟨5, _⟩ => ⟨S_, .f32⟩
  | .hbm, ⟨6, _⟩ => ⟨S16x4096x256, .f32⟩
  | .hbm, ⟨7, _⟩ => ⟨S16x4096x256, .f32⟩
  | .hbm, ⟨8, _⟩ => ⟨S16x4096x256, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S_, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x256, .f32⟩
  | .hbm, ⟨21, _⟩ => ⟨S16x4096x256, .f32⟩
  | .hbm, ⟨22, _⟩ => ⟨S16x4096x256, .f32⟩
  | .hbm, ⟨23, _⟩ => ⟨S16x4096x256, .f32⟩
  | .hbm, ⟨24, _⟩ => ⟨S_, .f32⟩
  | .hbm, ⟨25, _⟩ => ⟨S16x4096x256, .f32⟩
  | .hbm, ⟨26, _⟩ => ⟨S16x4096x256, .f32⟩
  | .hbm, ⟨27, _⟩ => ⟨S16x4096x256, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S_, .f32⟩
  | .hbm, ⟨32, _⟩ => ⟨S16x4096x1, .f32⟩
  | .hbm, ⟨33, _⟩ => ⟨S16x4096x1, .f32⟩
  | .hbm, ⟨34, _⟩ => ⟨S16x4096x1, .f32⟩
  | .hbm, ⟨35, _⟩ => ⟨S_, .f32⟩
  | .hbm, ⟨36, _⟩ => ⟨S_, .f32⟩
  | .hbm, ⟨37, _⟩ => ⟨S16x4096x1, .f32⟩
  | .hbm, ⟨38, _⟩ => ⟨S16x4096x1, .f32⟩
  | .hbm, ⟨39, _⟩ => ⟨S16x4096x256, .f32⟩
  | .hbm, ⟨40, _⟩ => ⟨S16x4096x256, .f32⟩
  | .hbm, ⟨41, _⟩ => ⟨S16x4096x256, .f32⟩
  | .hbm, ⟨42, _⟩ => ⟨S16x4096x256, .f32⟩
  | .hbm, ⟨43, _⟩ => ⟨S4096, .i32⟩
  | .hbm, ⟨44, _⟩ => ⟨S16x1, .i32⟩
  | .hbm, ⟨45, _⟩ => ⟨S1x4096, .i32⟩
  | .hbm, ⟨46, _⟩ => ⟨S16x4096, .i32⟩
  | .hbm, ⟨47, _⟩ => ⟨S16x4096, .i32⟩
  | .hbm, ⟨48, _⟩ => ⟨S16x4096, .i1⟩
  | .hbm, ⟨49, _⟩ => ⟨S16x4096x1, .i1⟩
  | .hbm, ⟨50, _⟩ => ⟨S16x4096x1, .f32⟩
  | .hbm, ⟨51, _⟩ => ⟨S16x4096x256, .f32⟩
  | .hbm, ⟨52, _⟩ => ⟨S16x4096x256, .f32⟩
  | .hbm, ⟨53, _⟩ => ⟨S_, .f32⟩
  | .hbm, ⟨54, _⟩ => ⟨S16x4096x1, .f32⟩
  | .hbm, ⟨55, _⟩ => ⟨S16x4096x257, .f32⟩
  | .hbm, ⟨56, _⟩ => ⟨S16x256x257, .f32⟩
  | .hbm, ⟨57, _⟩ => ⟨S16x4096x257, .f32⟩
  | .hbm, ⟨58, _⟩ => ⟨S16x4096x256, .f32⟩
  | .hbm, ⟨59, _⟩ => ⟨S16x4096x1, .f32⟩
  | .hbm, ⟨60, _⟩ => ⟨S16x4096x256, .f32⟩
  | .hbm, ⟨61, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  bcast_S_S16x4096x256 : S_.BroadcastsInDim S16x4096x256 (![] : Fin 0 → Fin S16x4096x256.rank)
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)
  bcast_S16_S16x1_0 : S16.BroadcastsInDim S16x1 (![0] : Fin 1 → Fin S16x1.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  concatenates_S16x4096x256_S16x4096x1_S16x4096x257_d2 : Shape.Concatenates [S16x4096x256, S16x4096x1] S16x4096x257 2
  slices_S16x4096x257_S16x4096x256_0_0_0 : S16x4096x257.Slices ![0, 0, 0] S16x4096x256
  slices_S16x4096x257_S16x4096x1_0_0_256 : S16x4096x257.Slices ![0, 0, 256] S16x4096x1
  dot_S16x4096x256_S256x256_S16x4096x256_2_1_01_0_n_n_wf : DotDims.WF S16x4096x256 S256x256 S16x4096x256 [2] [1] [0, 1] [0] [] []
  dot_S16x4096x256_S16x4096x257_S16x256x257_1_1_2_2_0_0_wf : DotDims.WF S16x4096x256 S16x4096x257 S16x256x257 [1] [1] [2] [2] [0] [0]
  dot_S16x4096x256_S16x256x257_S16x4096x257_2_1_1_2_0_0_wf : DotDims.WF S16x4096x256 S16x256x257 S16x4096x257 [2] [1] [1] [2] [0] [0]

variable [Facts₀]

def dot_S16x4096x256_S256x256_S16x4096x256_2_1_01_0_n_n : DotDims S16x4096x256 S256x256 S16x4096x256 where
  lhsContracting := [2]
  rhsContracting := [1]
  lhsNonContracting := [0, 1]
  rhsNonContracting := [0]
  lhsBatch := []
  rhsBatch := []
  wf := dot_S16x4096x256_S256x256_S16x4096x256_2_1_01_0_n_n_wf
def dot_S16x4096x256_S16x4096x257_S16x256x257_1_1_2_2_0_0 : DotDims S16x4096x256 S16x4096x257 S16x256x257 where
  lhsContracting := [1]
  rhsContracting := [1]
  lhsNonContracting := [2]
  rhsNonContracting := [2]
  lhsBatch := [0]
  rhsBatch := [0]
  wf := dot_S16x4096x256_S16x4096x257_S16x256x257_1_1_2_2_0_0_wf
def dot_S16x4096x256_S16x256x257_S16x4096x257_2_1_1_2_0_0 : DotDims S16x4096x256 S16x256x257 S16x4096x257 where
  lhsContracting := [2]
  rhsContracting := [1]
  lhsNonContracting := [1]
  rhsNonContracting := [2]
  lhsBatch := [0]
  rhsBatch := [0]
  wf := dot_S16x4096x256_S16x256x257_S16x4096x257_2_1_1_2_0_0_wf

class Facts : Prop extends Facts₀ where

variable [Facts]
-- ==== Proof.KB.Body0.lean ====
import proofs.«416983_j21775484191371_1_alg».proof.Proof.Gen.Kernel.Launch
import proofs.«416983_j21775484191371_1_alg».proof.Proof.Gen.Kernel.Skeleton
import proofs.«416983_j21775484191371_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched scalar table, and the two accumulators the kernel carries from one grid point to the next,
    as whole buffers. -/
abbrev tbM : Memref sig .tc .smem S16 .i32 := Memref.whole main_arg3
abbrev scM0 : Memref sig .tc .vmem S256x256 .f32 := Memref.whole cc0_scratch0
abbrev scM1 : Memref sig .tc .vmem S1x256 .f32 := Memref.whole cc0_scratch1

/-- the condition of the body's scf.if: the second grid coordinate is 0 -/
abbrev cond0 (i : grid0.Coords) : Prop := (Scalar.cmpi .ne (Scalar.extui (Scalar.cmpi .eq (BitVec.ofNat 32 (i 1).val) 0#32)) 0#32) = 1#1

/-- It holds at the points whose number is a multiple of 4 (the grid is 16 x 4, the second coordinate the fast one). -/
theorem hcond0 : ∀ t : Fin grid0.N, cond0 (grid0.coords t) ↔ t.val % 4 = 0 := by decide +kernel

/-! ## Whole-buffer loads and stores, read back

Every store of the body writes a whole buffer (the unit-stride rectangle of the buffer's own extents at the
origin) and every load reads one whole: whatever a buffer held, after such a store it reads as the payload; a
load after it reads the payload; a load of untouched contents reads the contents. -/

theorem b0_hz2 : (![0, 0] : Fin 2 → Nat) = fun _ => 0 := funext fun a => by fin_cases a <;> rfl
theorem b0_hz3 : (![0, 0, 0] : Fin 3 → Nat) = fun _ => 0 := funext fun a => by fin_cases a <;> rfl

section Reads
variable {Val : EltTy → Type} [∀ e, Nonempty (Val e)] {sg : RefSig} {κ : Kind} {sp : Space} {S : Shape} {e : EltTy}

/-- A whole-buffer store, last: the buffer reads as its payload, whatever was stored before. -/
theorem b0_read_cons (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-buffer load after it reads the payload. -/
theorem b0_readCov_cons (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A whole-buffer load of contents nothing stored into reads the contents. -/
theorem b0_load (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Reads

/-! ## The word of the table -/

/-- the word the body loads from the table at point `i`: the one-element rectangle at the first grid coordinate -/
def word0 (i : grid0.Coords) (T : (⟨S16, .i32⟩ : BufTy).Contents (Elt F)) : Elt F .i32 :=
  View.readAt (Elt F) tbM.view (Rect.unit (s := S16) (k0_off1 i) S1.size (Gen.k0_off1_inb i)).toLoadRect T
    (Shape.Idx.first (Gen.numel1_S1.symm ▸ Nat.one_pos))

theorem b0_word_at (T : (⟨S16, .i32⟩ : BufTy).Contents (Elt F)) (off : Fin 1 → Nat) (inb : ∀ a, off a + S1.size a ≤ S16.size a)
    (n : Fin 16) (h : off = ![n.val]) (h0 : 0 < (Rect.unit (s := S16) off S1.size inb).toLoadRect.shape.numel) :
    View.readAt (Elt F) tbM.view (Rect.unit (s := S16) off S1.size inb).toLoadRect T (Shape.Idx.first h0) = T (ValueIdx.ix1 n) := by
  subst h
  show T _ = T _
  congr 1
  funext a
  match a with
  | ⟨0, _⟩ => exact Fin.ext (by show n.val + 1 * 0 = n.val; omega)

/-- It is the table read at the first grid coordinate. -/
theorem word0_eq (i : grid0.Coords) (T : (⟨S16, .i32⟩ : BufTy).Contents (Elt F)) :
    word0 i T = T (ValueIdx.ix1 (n := 16) (i 0)) :=
  b0_word_at T _ _ (i 0) (k0_off1_eq i) _

/-! ## What one grid point leaves in the accumulators -/

/-- The matrix accumulator after the point: what it held plus the point's contribution (the masked, weighted keys
    contracted with the values). -/
def newV (i : grid0.Coords) (x0 x1 : Vec F S1x1024x256 .f32) (x2 : Vec F S256x256 .f32) (w : Elt F .i32) (s0 : Vec F S256x256 .f32) : Vec F S256x256 .f32 :=
  k0_pay1 (k0_pay8 i x0 x1 x2 w) s0
/-- The row accumulator after the point: what it held plus the column sums of the point's weights. -/
def newS (i : grid0.Coords) (x0 : Vec F S1x1024x256 .f32) (x2 : Vec F S256x256 .f32) (w : Elt F .i32) (s1 : Vec F S1x256 .f32) : Vec F S1x256 .f32 :=
  k0_pay2 (k0_pay7 i x0 x2 w) s1

/-- The reading lemmas at the body's five shapes. -/
local macro "b0_reads" : tactic => `(tactic| simp only [
  b0_read_cons (S := S1x256x256) _ _ b0_hz3, b0_read_cons (S := S1x1x256) _ _ b0_hz3,
  b0_read_cons (S := S256x256) _ _ b0_hz2, b0_read_cons (S := S1x256) _ _ b0_hz2,
  b0_readCov_cons (S := S256x256) _ b0_hz2, b0_readCov_cons (S := S1x256) _ b0_hz2,
  b0_load (S := S256x256) _ _ b0_hz2, b0_load (S := S1x256) _ _ b0_hz2, b0_load (S := S1x1024x256) _ _ b0_hz3,
  Memref.IsWhole.read_unread])

/-! ## The body's two runs

At a point whose second coordinate is not 0 the body finds the accumulators as the point before left them
(`s0`, `s1`), adds the point's contribution to each, and copies the two sums to the output blocks. At a point
whose second coordinate is 0 it first resets both accumulators to zero, whatever they held. The inputs and the
table are read only. -/

set_option maxHeartbeats 4000000 in
/-- A point inside a row (second coordinate not 0): the accumulators `s0`, `s1` become `newV … s0`, `newS … s1`,
    and the output blocks hold the same two values, reshaped. -/
theorem run0_B (c : Dev nD) (i : grid0.Coords) (hc : ¬ cond0 i)
    (arg3 : Memref sig .tc .vmem S1x1024x256 .f32) (harg3 : arg3.IsWhole) (arg4 : Memref sig .tc .vmem S1x1024x256 .f32) (harg4 : arg4.IsWhole)
    (arg5 : Memref sig .tc .vmem S256x256 .f32) (harg5 : arg5.IsWhole) (arg6 : Memref sig .tc .vmem S1x256x256 .f32) (harg6 : arg6.IsWhole)
    (arg7 : Memref sig .tc .vmem S1x1x256 .f32) (harg7 : arg7.IsWhole)
    (T : (⟨S16, .i32⟩ : BufTy).Contents (Elt F)) (x0 x1 : Vec F S1x1024x256 .f32) (x2 : Vec F S256x256 .f32) (s0 : Vec F S256x256 .f32) (s1 : Vec F S1x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ owns (c : Thread nD τ) scM0 fullShare s0 ∗ owns (c : Thread nD τ) scM1 fullShare s1
        ∗ (tbM.view.loc (c : Thread nD τ) ↦{fullShare} T)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (newV i x0 x1 x2 (word0 i T) s0)) ∗ owns (c : Thread nD τ) arg7 fullShare (k0_pay4 (newS i x0 x2 (word0 i T) s1))
            ∗ owns (c : Thread nD τ) scM0 fullShare (newV i x0 x1 x2 (word0 i T) s0) ∗ owns (c : Thread nD τ) scM1 fullShare (newS i x0 x2 (word0 i T) s1)
            ∗ (tbM.view.loc (c : Thread nD τ) ↦{fullShare} T)) -∗ K ⟨⟩))
      ⊢ wp frame (wpE (defs₀ (F := F)) Variants.none c none) Set.univ
          (cc0__kernel_a i tbM (Memref.isWhole_whole _) arg3 harg3 arg4 harg4 arg5 harg5 arg6 harg6 arg7 harg7 scM0 (Memref.isWhole_whole _) scM1 (Memref.isWhole_whole _)) K := by
  rw [cc0__kernel_a_eq_skeleton]; unfold cc0__kernel_a_skel
  unfold owns
  iintro ⟨⟨%f0, %hf0, H0⟩, ⟨%f1, %hf1, H1⟩, ⟨%f2, %hf2, H2⟩, ⟨%d6, %f6, -, H6⟩, ⟨%d7, %f7, -, H7⟩, ⟨%fs0, %hfs0, HS0⟩, ⟨%fs1, %hfs1, HS1⟩, HT, Hk⟩
  obtain rfl := harg3.eq_unread hf0; obtain rfl := harg4.eq_unread hf1; obtain rfl := harg5.eq_unread hf2
  subst hfs0 hfs1
  have hS0 : scM0.IsWhole := Memref.isWhole_whole _
  have hS1 : scM1.IsWhole := Memref.isWhole_whole _
  have hT0 : tbM.IsWhole := Memref.isWhole_whole _
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; swap; iexact H6
    ipureintro; sl_unfold_run_names
    b0_reads
    rfl
  isplitl [H7]
  · iexists _; isplitr; swap; iexact H7
    ipureintro; sl_unfold_run_names
    b0_reads
    rfl
  isplitl [HS0]
  · iexists _; isplitr; swap; iexact HS0
    ipureintro; sl_unfold_run_names
    b0_reads
    rfl
  isplitl [HS1]
  · iexists _; isplitr; swap; iexact HS1
    ipureintro; sl_unfold_run_names
    b0_reads
    rfl
  iexact HT

set_option maxHeartbeats 4000000 in
/-- A row's first point (second coordinate 0): the accumulators, whatever they held, are reset to zero and then
    accumulated into as at any other point. -/
theorem run0_A (c : Dev nD) (i : grid0.Coords) (hc : cond0 i)
    (arg3 : Memref sig .tc .vmem S1x1024x256 .f32) (harg3 : arg3.IsWhole) (arg4 : Memref sig .tc .vmem S1x1024x256 .f32) (harg4 : arg4.IsWhole)
    (arg5 : Memref sig .tc .vmem S256x256 .f32) (harg5 : arg5.IsWhole) (arg6 : Memref sig .tc .vmem S1x256x256 .f32) (harg6 : arg6.IsWhole)
    (arg7 : Memref sig .tc .vmem S1x1x256 .f32) (harg7 : arg7.IsWhole)
    (T : (⟨S16, .i32⟩ : BufTy).Contents (Elt F)) (x0 x1 : Vec F S1x1024x256 .f32) (x2 : Vec F S256x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) scM0 fullShare d) ∗ (∃ d, owns (c : Thread nD τ) scM1 fullShare d)
        ∗ (tbM.view.loc (c : Thread nD τ) ↦{fullShare} T)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (newV i x0 x1 x2 (word0 i T) (k0_pay5 (F := F)))) ∗ owns (c : Thread nD τ) arg7 fullShare (k0_pay4 (newS i x0 x2 (word0 i T) (k0_pay6 (F := F))))
            ∗ owns (c : Thread nD τ) scM0 fullShare (newV i x0 x1 x2 (word0 i T) (k0_pay5 (F := F))) ∗ owns (c : Thread nD τ) scM1 fullShare (newS i x0 x2 (word0 i T) (k0_pay6 (F := F)))
            ∗ (tbM.view.loc (c : Thread nD τ) ↦{fullShare} T)) -∗ K ⟨⟩))
      ⊢ wp frame (wpE (defs₀ (F := F)) Variants.none c none) Set.univ
          (cc0__kernel_a i tbM (Memref.isWhole_whole _) arg3 harg3 arg4 harg4 arg5 harg5 arg6 harg6 arg7 harg7 scM0 (Memref.isWhole_whole _) scM1 (Memref.isWhole_whole _)) K := by
  rw [cc0__kernel_a_eq_skeleton]; unfold cc0__kernel_a_skel
  unfold owns
  iintro ⟨⟨%f0, %hf0, H0⟩, ⟨%f1, %hf1, H1⟩, ⟨%f2, %hf2, H2⟩, ⟨%d6, %f6, -, H6⟩, ⟨%d7, %f7, -, H7⟩, ⟨%ds0, %fs0, -, HS0⟩, ⟨%ds1, %fs1, -, HS1⟩, HT, Hk⟩
  obtain rfl := harg3.eq_unread hf0; obtain rfl := harg4.eq_unread hf1; obtain rfl := harg5.eq_unread hf2
  have hS0 : scM0.IsWhole := Memref.isWhole_whole _
  have hS1 : scM1.IsWhole := Memref.isWhole_whole _
  have hT0 : tbM.IsWhole := Memref.isWhole_whole _
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; swap; iexact H6
    ipureintro; sl_unfold_run_names
    b0_reads
    rfl
  isplitl [H7]
  · iexists _; isplitr; swap; iexact H7
    ipureintro; sl_unfold_run_names
    b0_reads
    rfl
  isplitl [HS0]
  · iexists _; isplitr; swap; iexact HS0
    ipureintro; sl_unfold_run_names
    b0_reads
    rfl
  isplitl [HS1]
  · iexists _; isplitr; swap; iexact HS1
    ipureintro; sl_unfold_run_names
    b0_reads
    rfl
  iexact HT

end Cert.Kernel.Hand

end
-- ==== Proof.KB.Region0.lean ====
/-
  The first pallas_call (the key pass) as a pipeline: what its five windows hold at each grid point.

  The grid is 16 × 4: point `t` is batch `t / 4`, key tile `t % 4` (1024 keys each). Windows 0, 1, 2 are the inputs
  (the key tile, the value tile, the transposed projection); windows 3 and 4 are the two summaries, whose blocks
  are indexed by the batch only. The body keeps the running sums in two scratch buffers that it zeroes at tile 0
  of every batch and copies to the output windows at every point, so after point `t` the scratch — and the output
  windows' staging buffers — hold the sums over the tiles `0 … t % 4` of batch `t / 4` (`outsAt0`, by recursion on
  the point: a reset point starts from zero, any other from what the point before left).
-/
import proofs.«416983_j21775484191371_1_alg».proof.Proof.KB.Body0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## The windows' blocks -/

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The key-length table the region was entered with. -/
abbrev tblOf : (⟨S16, .i32⟩ : BufTy).Contents (Elt F) := a.1 0

/-- The grid point's coordinates. -/
abbrev pt0 (t : Fin (cfg0 a).N) : grid0.Coords := (cfg0 a).grid.coords t

/-! ## The running sums -/

/-- One point's update of the two running sums `s` (the key-value summary and the key summary): the tile's
    contribution added. -/
def step0 (c : Dev nD) (t : Fin (cfg0 a).N) (s : Vec F S256x256 .f32 × Vec F S1x256 .f32) : Vec F S256x256 .f32 × Vec F S1x256 .f32 :=
  (newV (pt0 a t) (iblk0 a V c 0 t) (iblk0 a V c 1 t) (iblk0 a V c 2 t) (word0 (pt0 a t) (tblOf a)) s.1,
   newS (pt0 a t) (iblk0 a V c 0 t) (iblk0 a V c 2 t) (word0 (pt0 a t) (tblOf a)) s.2)

/-- The zero sums a batch starts from. -/
abbrev zero0 : Vec F S256x256 .f32 × Vec F S1x256 .f32 := (k0_pay5 (F := F), k0_pay6 (F := F))

/-- The running sums after point `n`: a batch's first tile starts from zero, every other tile from what the
    point before left. -/
def outsAt0 (c : Dev nD) : (n : ℕ) → n < (cfg0 a).N → Vec F S256x256 .f32 × Vec F S1x256 .f32
  | 0, hn => step0 a V c ⟨0, hn⟩ zero0
  | n + 1, hn =>
    if (n + 1) % 4 = 0 then step0 a V c ⟨n + 1, hn⟩ zero0
    else step0 a V c ⟨n + 1, hn⟩ (outsAt0 c n (Nat.lt_of_succ_lt hn))

theorem outsAt0_A (c : Dev nD) (t : Fin (cfg0 a).N) (h : t.val % 4 = 0) :
    outsAt0 a V c t.val t.isLt = step0 a V c t zero0 := by
  obtain ⟨n, hn⟩ := t
  cases n with
  | zero => rfl
  | succ n => exact (if_pos h)

theorem outsAt0_B (c : Dev nD) (t : Fin (cfg0 a).N) (h : ¬ t.val % 4 = 0) :
    outsAt0 a V c t.val t.isLt = step0 a V c t (outsAt0 a V c (t.val - 1) (Nat.lt_of_le_of_lt (Nat.sub_le _ _) t.isLt)) := by
  obtain ⟨n, hn⟩ := t
  cases n with
  | zero => exact absurd (Nat.zero_mod _) h
  | succ n => exact (if_neg h)

/-! ## The invariant between points -/

/-- The scoped buffers the body never touches (the second call's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The key-length table, held whole at the contents the region was entered with. -/
def tblPt (c : Dev nD) : sProp 𝕄 := iprop(tbM.view.loc (c : Thread nD τ) ↦{fullShare} tblOf a)

/-- The invariant before point `n`: the table; the two scratch buffers at anything before the first point and at
    the running sums the point before left afterwards; the untouched scoped buffers. -/
def PhiS (c : Dev nD) : (n : ℕ) → n ≤ (cfg0 a).N → sProp 𝕄
  | 0, _ => iprop(tblPt a c ∗ (∃ d, owns (c : Thread nD τ) scM0 fullShare d) ∗ (∃ d, owns (c : Thread nD τ) scM1 fullShare d) ∗ restS c)
  | n + 1, hn => iprop(tblPt a c ∗ owns (c : Thread nD τ) scM0 fullShare (outsAt0 a V c n hn).1 ∗ owns (c : Thread nD τ) scM1 fullShare (outsAt0 a V c n hn).2 ∗ restS c)

theorem PhiS_zero (c : Dev nD) (n : ℕ) (h : n ≤ (cfg0 a).N) (hz : n = 0) :
    PhiS a V c n h = iprop(tblPt a c ∗ (∃ d, owns (c : Thread nD τ) scM0 fullShare d) ∗ (∃ d, owns (c : Thread nD τ) scM1 fullShare d) ∗ restS c) := by
  subst hz; rfl

theorem PhiS_succ (c : Dev nD) (n : ℕ) (hn : n < (cfg0 a).N) :
    PhiS a V c (n + 1) hn = iprop(tblPt a c ∗ owns (c : Thread nD τ) scM0 fullShare (outsAt0 a V c n hn).1 ∗ owns (c : Thread nD τ) scM1 fullShare (outsAt0 a V c n hn).2 ∗ restS c) := rfl

theorem PhiS_pos (c : Dev nD) (n : ℕ) (h : n ≤ (cfg0 a).N) (hz : n ≠ 0) :
    PhiS a V c n h = iprop(tblPt a c ∗ owns (c : Thread nD τ) scM0 fullShare (outsAt0 a V c (n - 1) (by omega)).1 ∗ owns (c : Thread nD τ) scM1 fullShare (outsAt0 a V c (n - 1) (by omega)).2 ∗ restS c) := by
  cases n with
  | zero => exact absurd rfl hz
  | succ n => rfl

/-! ## The proof data -/

/-- The pipeline's proof data on core `c`: the arrays as the region finds them; after the body at point `t` each
    input's buffer at its block and the two summaries' buffers at the running sums; the invariant above; nothing
    owed; full shares. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => k0_pay3 (outsAt0 a V c t.val t.isLt).1
    | ⟨4, _⟩ => k0_pay4 (outsAt0 a V c t.val t.isLt).2
  Φ t := PhiS a V c t.val (Nat.le_of_lt_succ t.isLt)
  q _ := fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = k0_pay3 (outsAt0 a V c t.val t.isLt).1 := by dsimp only [dat0]; rfl
theorem after0_4 (c : Dev nD) (t : Fin (cfg0 a).N) : (dat0 a V c).after 4 t = k0_pay4 (outsAt0 a V c t.val t.isLt).2 := by dsimp only [dat0]; rfl

theorem PhiS_castSucc (c : Dev nD) (t : Fin (cfg0 a).N) :
    (dat0 a V c).Φ t.castSucc = PhiS a V c t.val (Nat.le_of_lt t.isLt) := by
  dsimp only [dat0]; simp only [Fin.coe_castSucc]

/-- An input's staging buffer holds its block at every point, whether or not it was fetched there: unfetched, the
    block index has not moved. -/
theorem before0_0 (c : Dev nD) (t : Fin (cfg0 a).N) (d) : (dat0 a V c).before 0 t d = iblk0 a V c 0 t :=
  ((dat0 a V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin (cfg0 a).N) (d) : (dat0 a V c).before 1 t d = iblk0 a V c 1 t :=
  ((dat0 a V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin (cfg0 a).N) (d) : (dat0 a V c).before 2 t d = iblk0 a V c 2 t :=
  ((dat0 a V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

end Cert.Kernel.Hand

end
-- ==== Proof.KB.Oblig0.lean ====
/-
  The key pass's body meets the pipeline's obligation at every grid point: handed the three input blocks, the
  table and the two scratch buffers — at anything at a batch's first tile, at the running sums otherwise — it
  leaves the inputs as they were, the scratch at the sums with this tile added, and both output windows' staging
  buffers at copies of them.
-/
import proofs.«416983_j21775484191371_1_alg».proof.Proof.KB.Region0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Each window's current staging memref at point `t`. -/
abbrev ms0_0 (t : Fin (cfg0 a).N) : Memref sig .tc .vmem S1x1024x256 .f32 := spec0_0.stage ((cfg0 a).slots t 0)
abbrev ms0_1 (t : Fin (cfg0 a).N) : Memref sig .tc .vmem S1x1024x256 .f32 := spec0_1.stage ((cfg0 a).slots t 1)
abbrev ms0_2 (t : Fin (cfg0 a).N) : Memref sig .tc .vmem S256x256 .f32 := spec0_2.stage ((cfg0 a).slots t 2)
abbrev ms0_3 (t : Fin (cfg0 a).N) : Memref sig .tc .vmem S1x256x256 .f32 := spec0_3.stage ((cfg0 a).slots t 3)
abbrev ms0_4 (t : Fin (cfg0 a).N) : Memref sig .tc .vmem S1x1x256 .f32 := spec0_4.stage ((cfg0 a).slots t 4)

/-- The kernel body as the pipeline calls it at point `t`. -/
abbrev bodyAt0 (t : Fin (cfg0 a).N) : Prog (TpuEff nD τ sig (Elt F) Λ₀ .tc) PUnit :=
  cc0__kernel_a (grid0.coords t) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (Memref.whole cc0_scratch0) (Memref.isWhole_whole _) (Memref.whole cc0_scratch1) (Memref.isWhole_whole _)

/-- What the body is called with at point `t`, the windows one by one, -/
def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d))
    ∗ (∃ d, owns (c : Thread nD τ) (ms0_4 a t) fullShare ((dat0 a V c).before 4 t d)))

/-- and what it returns. -/
def bodyPost0 (c : Dev nD) (t : Fin (cfg0 a).N) : sProp 𝕄 :=
  iprop((dat0 a V c).Φ t.succ ∗ (dat0 a V c).owesAt () t.succ
    ∗ owns (c : Thread nD τ) (ms0_0 a t) fullShare ((dat0 a V c).after 0 t)
    ∗ owns (c : Thread nD τ) (ms0_1 a t) fullShare ((dat0 a V c).after 1 t)
    ∗ owns (c : Thread nD τ) (ms0_2 a t) fullShare ((dat0 a V c).after 2 t)
    ∗ owns (c : Thread nD τ) (ms0_3 a t) fullShare ((dat0 a V c).after 3 t)
    ∗ owns (c : Thread nD τ) (ms0_4 a t) fullShare ((dat0 a V c).after 4 t))

set_option maxHeartbeats 4000000 in
/-- The body at any point: a batch's first tile (`t % 4 = 0`) takes the scratch at anything and resets it, any other
    tile takes it at the sums the point before left. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2]
  rw [show (dat0 a V c).owesAt () t.succ = (dat0 a V c).owesAt () t.castSucc from rfl]
  rw [show (dat0 a V c).Φ t.succ = PhiS a V c (t.val + 1) t.isLt from rfl, PhiS_succ]
  rw [after0_0, after0_1, after0_2, after0_3, after0_4]
  by_cases h0 : t.val % 4 = 0
  · rw [outsAt0_A a V c t h0]
    unfold step0; dsimp only
    by_cases hz : t.val = 0
    · rw [PhiS_castSucc a V c t, PhiS_zero a V c _ _ hz]
      unfold tblPt
      iintro ⟨⟨HT, HS0, HS1, Hr⟩, Ho, ⟨%d0, H0⟩, ⟨%d1, H1⟩, ⟨%d2, H2⟩, ⟨%d3, H3⟩, ⟨%d4, H4⟩⟩
      iapply (run0_A c (pt0 a t) ((hcond0 t).mpr h0) _ _ _ _ _ _ _ _ _ _ (tblOf a) (iblk0 a V c 0 t) (iblk0 a V c 1 t) (iblk0 a V c 2 t) _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HT]; · iexact HT
      iintro ⟨H0, H1, H2, H3, H4, HS0, HS1, HT⟩
      isplitl [HT HS0 HS1 Hr]
      · isplitl [HT]; · iexact HT
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · rw [PhiS_castSucc a V c t, PhiS_pos a V c _ _ hz]
      unfold tblPt
      iintro ⟨⟨HT, HS0, HS1, Hr⟩, Ho, ⟨%d0, H0⟩, ⟨%d1, H1⟩, ⟨%d2, H2⟩, ⟨%d3, H3⟩, ⟨%d4, H4⟩⟩
      iapply (run0_A c (pt0 a t) ((hcond0 t).mpr h0) _ _ _ _ _ _ _ _ _ _ (tblOf a) (iblk0 a V c 0 t) (iblk0 a V c 1 t) (iblk0 a V c 2 t) _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HT]; · iexact HT
      iintro ⟨H0, H1, H2, H3, H4, HS0, HS1, HT⟩
      isplitl [HT HS0 HS1 Hr]
      · isplitl [HT]; · iexact HT
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
  · have hz : t.val ≠ 0 := fun e => h0 (by rw [e])
    rw [outsAt0_B a V c t h0]
    unfold step0; dsimp only
    rw [PhiS_castSucc a V c t, PhiS_pos a V c _ _ hz]
    unfold tblPt
    iintro ⟨⟨HT, HS0, HS1, Hr⟩, Ho, ⟨%d0, H0⟩, ⟨%d1, H1⟩, ⟨%d2, H2⟩, ⟨%d3, H3⟩, ⟨%d4, H4⟩⟩
    iapply (run0_B c (pt0 a t) (fun h => h0 ((hcond0 t).mp h)) _ _ _ _ _ _ _ _ _ _ (tblOf a) (iblk0 a V c 0 t) (iblk0 a V c 1 t) (iblk0 a V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HT]; · iexact HT
    iintro ⟨H0, H1, H2, H3, H4, HS0, HS1, HT⟩
    isplitl [HT HS0 HS1 Hr]
    · isplitl [HT]; · iexact HT
      isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    iexact H4

/-- The pipeline library's body obligation, at every point. -/
theorem body_obligation0 (c : Dev nD) : BodyObligation (dat0 (F := F) a V c) (defs₀ (F := F)) Variants.none () Set.univ := fun t => by
  rw [bigSep_W0, bigSep_W0]
  exact sound_body0 a V c t

end Cert.Kernel.Hand

end
-- ==== Proof.KB.Body1.lean ====
import proofs.«416983_j21775484191371_1_alg».proof.Proof.Gen.Kernel.Launch
import proofs.«416983_j21775484191371_1_alg».proof.Proof.Gen.Kernel.Skeleton
import proofs.«416983_j21775484191371_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle at the origin, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The output buffer's one store: the whole shape, at the origin. -/
abbrev rO1 : Rect S1x1024x256 := Rect.unit (s := S1x1024x256) ![0, 0, 0] S1x1024x256.size inb_S1x1024x256_S1x1024x256_0_0_0

/-- The one store tiles the output buffer, so it covers it. -/
theorem coverO1 (p : Vec F S1x1024x256 .f32) (y : S1x1024x256.Idx) :
    ∃ pc ∈ ([⟨rO1, p⟩] : List (View.Piece (Elt F) S1x1024x256 .f32)), y ∈ pc.1.set :=
  ⟨_, List.mem_singleton_self _, View.mem_set_unit_zero (S := S1x1024x256) hz3 inb_S1x1024x256_S1x1024x256_0_0_0 y⟩

set_option maxHeartbeats 4000000 in
/-- The second kernel's body on whole staging buffers: the four inputs at contents `x0 … x3`, the output at anything.
    It loads each input whole (a load through the whole-shape rectangle at the origin reads the contents), loads the
    output (the value is not used), and stores one payload over the whole output. It runs to the continuation holding
    the inputs as they were and the output at `k1_pay1 x0 x1 x2 x3`: one covering store leaves its payload. -/
theorem sound_kernel1 (c : Dev nD) (E : Set ℕ) (i : grid1.Coords)
    (arg2 : Memref sig .tc .vmem S1x1024x256 .f32) (harg2 : arg2.IsWhole) (arg3 : Memref sig .tc .vmem S256x256 .f32) (harg3 : arg3.IsWhole)
    (arg4 : Memref sig .tc .vmem S1x256x256 .f32) (harg4 : arg4.IsWhole) (arg5 : Memref sig .tc .vmem S1x1x256 .f32) (harg5 : arg5.IsWhole)
    (arg6 : Memref sig .tc .vmem S1x1024x256 .f32) (harg6 : arg6.IsWhole)
    (x0 : Vec F S1x1024x256 .f32) (x1 : Vec F S256x256 .f32) (x2 : Vec F S1x256x256 .f32) (x3 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 x0 x1 x2 x3)) -∗ K ⟨⟩))
      ⊢ wp frame (wpE (defs₀ (F := F)) Variants.none c none) E (cc1__kernel_b i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_unfold [cc1__kernel_b, k1_part1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverO1 _), View.canon_unit_zero (S := S1x1024x256) hz3,
    View.readAt_eq_ld, View.readAt_eq_ld, View.readAt_eq_ld, View.readAt_eq_ld,
    View.ld_unit_zero (S := S1x1024x256) hz3, View.ld_unit_zero (S := S256x256) hz2,
    View.ld_unit_zero (S := S1x256x256) hz3, View.ld_unit_zero (S := S1x1x256) hz3]

end Cert.Kernel.Hand

end
-- ==== Proof.KB.Region1.lean ====
import proofs.«416983_j21775484191371_1_alg».proof.Proof.Gen.Kernel.Launch
import proofs.«416983_j21775484191371_1_alg».proof.Proof.Gen.Kernel.Skeleton
import proofs.«416983_j21775484191371_1_alg».proof.Proof.Gen.Kernel.Points
import proofs.«416983_j21775484191371_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved,
    and the buffer still holds the previous point's block, which is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved,
    and the buffer still holds the previous point's block, which is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved,
    and the buffer still holds the previous point's block, which is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved,
    and the buffer still holds the previous point's block, which is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second pipeline on core `c`: the arrays as the region finds them (`V`); after the body at
    point `t` each input's buffer at its block and the output's at the body's payload of the four input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks (`before1_W`), so `sound_kernel1` applies; the
    invariant and the core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program as a run: the host transpose, the key pass, the query pass.

  Between two items every unscoped buffer of the core is held at known contents: the launch memory (`W0`), then
  the transposed projection written (`W1`), then the two key summaries at what the key pass's write-backs leave
  (`W2`), then the output at what the query pass's write-backs leave (`W3`). The key-length table is read by the
  key pass at the contents it has in `W1`, which are the launch contents: no item writes it. Every final state
  holds each unscoped buffer at `W3`; the five arguments are there as launched.
-/
import proofs.«416983_j21775484191371_1_alg».proof.Proof.KB.Oblig0
import proofs.«416983_j21775484191371_1_alg».proof.Proof.KB.Region1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host transpose (the key pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The key-length table as the key pass finds it (the program runs on one core). -/
def tbl0 : pre0.Contents (Elt F) := fun k => V1 m ρ (0 : Dev nD) (pre0.ref k)
/-- Those contents are admissible: the pass's index maps do not read the table. -/
def adm0 : (pcfg0 (F := F)).Adm := ⟨tbl0 m ρ, trivial⟩
/-- Every pipeline's tables: the key pass's one table; the query pass has none. -/
def adm : (p : Fin 2) → (pcfgs (F := F) p).Adm
  | ⟨0, _⟩ => adm0 m ρ
  | ⟨1, _⟩ => cfg1.toPCfg_adm

/-- At the key pass's exit: its arrays at what the pipeline leaves, every other buffer as entered. -/
def W2 (c : Dev nD) : Valuation τ sig (Elt F) :=
  Pipeline.withArrays spec0 c (W1 m ρ c) fun w => (dat0 (adm0 m ρ) (V1 m ρ) c).arrAt w (cfg0 (adm0 m ρ)).N
theorem W2_arr (c : Dev nD) (w : Fin (cfg0 (adm0 m ρ)).W) :
    W2 m ρ c (Proc.devRef .tc (Pipeline.arrRef spec0 w)) = (dat0 (adm0 m ρ) (V1 m ρ) c).arrAt w (cfg0 (adm0 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfg0 (adm0 m ρ)).W) :
    (dat0 (adm0 m ρ) (V1 m ρ) c).arrAt w (cfg0 (adm0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the query pass's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (adm0 m ρ) (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host transpose as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

theorem dev_eq (c : Dev nD) : c = 0 := Subsingleton.elim _ _

/-! ## The regions as segments -/

set_option backward.isDefEq.respectTransparency.types false in
/-- The key pass: entered from every unscoped buffer at `W1`, left at `W2`. Its arrays and its table are split out of
    the unscoped buffers and put back; the table goes through the invariant; the generator register bypasses. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m ρ) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := Pipeline.prefHeld (Ix := Unit) (Name := ℕ) (U := UR sig nD τ) (Lvl := ℕ) pre0 c (fun _ => fullShare) (tbl0 m ρ)
  Z c := iprop(Pipeline.unscopedRestP (Ix := Unit) (Name := ℕ) (U := UR sig nD τ) (Lvl := ℕ) pre0 spec0 c (V1 m ρ c) ∗ ∃ r, prngReg c r)
  hentry c := by
    obtain rfl := dev_eq c
    rw [Pipeline.ownSems0_none]
    have hsplit := Pipeline.arrays_of_unscopedBufs (p := 0) (pcfgs (F := F)) (adm m ρ) (pdats m ρ) (launch0 (F := F)).win (launch0 (F := F)).arr_whole 0
      ((pdats m ρ 0 0).share_full fun _ => rfl) (V1 m ρ 0) fun _ => rfl
    rw [Pipeline.unscopedBufs_held] at hsplit
    have hsp2 := Pipeline.unscopedRest_split (Ix := Unit) (Name := ℕ) (U := UR sig nD τ) (Lvl := ℕ) preFacts0 (0 : Dev nD) (V1 m ρ 0)
    iintro ⟨⟨Hub, Hp, HO⟩, -, -⟩
    ihave H := hsplit $$ Hub
    icases H with ⟨Ha, Hrest⟩
    ihave H2 := (Entails.of_eq hsp2) $$ Hrest
    icases H2 with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = iprop(tblPt (adm0 m ρ) c ∗ (∃ d, owns (c : Thread nD τ) scM0 fullShare d) ∗ (∃ d, owns (c : Thread nD τ) scM1 fullShare d) ∗ restS c) from rfl]
    rw [show Pipeline.scopedRest (Ix := Unit) (Name := ℕ) (U := UR sig nD τ) (Lvl := ℕ) (Val := Elt F) (Pipeline.pin (pcfgs (F := F)) (adm m ρ) 0).spec c = Pipeline.scopedRest spec0 c from rfl, scopedRest0_eq]
    unfold tblPt Pipeline.prefHeld restS
    rw [show (Finset.univ : Finset (Fin pre0.K)) = {0} from rfl, BI.bigSep_singleton]
    simp only [owns_whole]
    iintro ⟨-, HT, HS0, HS1, Hr⟩
    isplitl [HT]; · iexact HT
    isplitl [HS0]; · iexact HS0
    isplitl [HS1]; · iexact HS1
    iexact Hr
  hout c := by
    rw [Pipeline.ownSems0_none,
      show (pdats m ρ 0 c).Φ (Fin.last _) = PhiS (adm0 m ρ) (V1 m ρ) c (cfg0 (adm0 m ρ)).N (le_refl _) from rfl,
      PhiS_pos (adm0 m ρ) (V1 m ρ) c _ _ (by rw [show (cfg0 (adm0 m ρ)).N = 64 from N_0]; decide)]
    rw [show Pipeline.scopedRest (Ix := Unit) (Name := ℕ) (U := UR sig nD τ) (Lvl := ℕ) (Val := Elt F) (Pipeline.pin (pcfgs (F := F)) (adm m ρ) 0).spec c = Pipeline.scopedRest spec0 c from rfl, scopedRest0_eq]
    unfold tblPt Pipeline.prefHeld restS
    rw [show (Finset.univ : Finset (Fin pre0.K)) = {0} from rfl, BI.bigSep_singleton]
    simp only [owns_whole]
    iintro ⟨HT, HS0, HS1, Hr⟩
    isplitl [HT]; · iexact HT
    isplitr; · iempintro
    isplitl [HS0]; · iexists _; iexact HS0
    isplitl [HS1]; · iexists _; iexact HS1
    iexact Hr
  hexit c := by
    obtain rfl := dev_eq c
    have hjoin := Pipeline.unscopedBufs_of_arrays (p := 0) (pcfgs (F := F)) (adm m ρ) (Ix := Unit) (Name := ℕ) (U := UR sig nD τ) (Lvl := ℕ)
      (launch0 (F := F)).win (launch0 (F := F)).arr_whole 0 (pdats m ρ) ((pdats m ρ 0 0).share_full fun _ => rfl)
      (V1 m ρ 0) (V2 m ρ 0) ((pdats m ρ 0 0).arrAt · (cfg0 (adm0 m ρ)).N) (hF0 m ρ 0) (hrest0 m ρ 0)
    rw [Pipeline.unscopedBufs_held] at hjoin
    have hsp2 := Pipeline.unscopedRest_split (Ix := Unit) (Name := ℕ) (U := UR sig nD τ) (Lvl := ℕ) preFacts0 (0 : Dev nD) (V1 m ρ 0)
    iintro ⟨Ha, HO, HY, ⟨Hrest, Hp⟩⟩
    imodintro
    isplitl [Ha HY Hrest]
    · iapply hjoin
      isplitl [Ha]; · iexact Ha
      iapply (Entails.of_eq hsp2.symm)
      isplitl [HY]; · iexact HY
      iexact Hrest
    isplitl [Hp]; · iexact Hp
    unfold Pipeline.Dat.owesAt Pipeline.owesWithin
    icases HO with ⟨%W, -, HO⟩; iexists W; iexact HO

set_option backward.isDefEq.respectTransparency.types false in
/-- The query pass: entered from every unscoped buffer at `W2`, left at `W3`. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) (adm m ρ) (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer at `W3`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KB.Args.lean ====
import proofs.«416983_j21775484191371_1_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What each item leaves unchanged

The host transpose writes the transposed projection only; the key pass writes its two summaries only; the query
pass writes the output only. A buffer an item does not write is, after it, what it was before it. -/

/-- Any buffer but the transposed projection is, after the host transpose, as launched. -/
theorem V1_of_ne (c : Dev nD) (b : Ref sig .tc) (h : b ≠ main_v0) : V1 m ρ c b = m ((c : Thread nD τ).loc b) :=
  (StableHlo.after_of_forall_not_mem (b := Proc.devRef .tc b) _ _ (List.forall_iff_forall_mem.mp (by
    simp only [hostOps0, List.Forall, StableHlo.unary_writes, Finset.mem_singleton]
    exact StableHlo.devRef_ne_of_ne h))).trans rfl

/-- The key pass's three inputs (keys, values, transposed projection) leave it as they entered. -/
theorem V2_main_arg1 (c : Dev nD) : V2 m ρ c main_arg1 = V1 m ρ c main_arg1 :=
  (W2_arr m ρ c 0).trans (((dat0 (adm0 m ρ) (V1 m ρ) c).arrAt_in 0 rfl _).trans (A_eq0 (adm0 m ρ) (V1 m ρ) c 0))
theorem V2_main_arg2 (c : Dev nD) : V2 m ρ c main_arg2 = V1 m ρ c main_arg2 :=
  (W2_arr m ρ c 1).trans (((dat0 (adm0 m ρ) (V1 m ρ) c).arrAt_in 1 rfl _).trans (A_eq0 (adm0 m ρ) (V1 m ρ) c 1))
theorem V2_main_v0 (c : Dev nD) : V2 m ρ c main_v0 = V1 m ρ c main_v0 :=
  (W2_arr m ρ c 2).trans (((dat0 (adm0 m ρ) (V1 m ρ) c).arrAt_in 2 rfl _).trans (A_eq0 (adm0 m ρ) (V1 m ρ) c 2))
/-- The queries, the key-length table and the projection bypass the key pass. -/
theorem V2_main_arg0 (c : Dev nD) : V2 m ρ c main_arg0 = V1 m ρ c main_arg0 := W2_of_ne m ρ c main_arg0 (by decide)
theorem V2_main_arg3 (c : Dev nD) : V2 m ρ c main_arg3 = V1 m ρ c main_arg3 := W2_of_ne m ρ c main_arg3 (by decide)
theorem V2_main_arg4 (c : Dev nD) : V2 m ρ c main_arg4 = V1 m ρ c main_arg4 := W2_of_ne m ρ c main_arg4 (by decide)
/-- The two key summaries after the key pass are what its write-backs leave. -/
theorem V2_main_v1_0 (c : Dev nD) : V2 m ρ c main_v1_0 = (dat0 (adm0 m ρ) (V1 m ρ) c).arrAt 3 (cfg0 (adm0 m ρ)).N := W2_arr m ρ c 3
theorem V2_main_v1_1 (c : Dev nD) : V2 m ρ c main_v1_1 = (dat0 (adm0 m ρ) (V1 m ρ) c).arrAt 4 (cfg0 (adm0 m ρ)).N := W2_arr m ρ c 4

/-- The queries are an input of the query pass: they leave it as they entered. -/
theorem V3_main_arg0' (c : Dev nD) : V3 m ρ c main_arg0 = V2 m ρ c main_arg0 :=
  (W3_arr m ρ c 0).trans (((dat1 (V2 m ρ) c).arrAt_in 0 rfl _).trans (A_eq1 (V2 m ρ) c 0))
/-- The output after the query pass is what its write-backs leave. -/
theorem V3_main_v2 (c : Dev nD) : V3 m ρ c main_v2 = (dat1 (V2 m ρ) c).arrAt 4 cfg1.N := W3_arr m ρ c 4

/-! ## The arguments reach the end as launched -/

theorem V3_main_arg0 (c : Dev nD) : V3 m ρ c main_arg0 = m ((c : Thread nD τ).loc main_arg0) :=
  (V3_main_arg0' m ρ c).trans ((V2_main_arg0 m ρ c).trans (V1_of_ne m ρ c main_arg0 (by decide)))
theorem V3_main_arg1 (c : Dev nD) : V3 m ρ c main_arg1 = m ((c : Thread nD τ).loc main_arg1) :=
  (W3_of_ne m ρ c main_arg1 (by decide)).trans ((V2_main_arg1 m ρ c).trans (V1_of_ne m ρ c main_arg1 (by decide)))
theorem V3_main_arg2 (c : Dev nD) : V3 m ρ c main_arg2 = m ((c : Thread nD τ).loc main_arg2) :=
  (W3_of_ne m ρ c main_arg2 (by decide)).trans ((V2_main_arg2 m ρ c).trans (V1_of_ne m ρ c main_arg2 (by decide)))
theorem V3_main_arg3 (c : Dev nD) : V3 m ρ c main_arg3 = m ((c : Thread nD τ).loc main_arg3) :=
  (W3_of_ne m ρ c main_arg3 (by decide)).trans ((V2_main_arg3 m ρ c).trans (V1_of_ne m ρ c main_arg3 (by decide)))
theorem V3_main_arg4 (c : Dev nD) : V3 m ρ c main_arg4 = m ((c : Thread nD τ).loc main_arg4) :=
  (W3_of_ne m ρ c main_arg4 (by decide)).trans ((V2_main_arg4 m ρ c).trans (V1_of_ne m ρ c main_arg4 (by decide)))

end Cert.Kernel.Hand

end
-- ==== Proof.KI.Body0.lean ====
import proofs.«416983_j21775484191371_1_alg».proof.Proof.Gen.KernelIdeal.Launch
import proofs.«416983_j21775484191371_1_alg».proof.Proof.Gen.KernelIdeal.Skeleton
import proofs.«416983_j21775484191371_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched scalar table, and the two accumulators the kernel carries from one grid point to the next,
    as whole buffers. -/
abbrev tbM : Memref sig .tc .smem S16 .i32 := Memref.whole main_arg3
abbrev scM0 : Memref sig .tc .vmem S256x256 .f32 := Memref.whole cc0_scratch0
abbrev scM1 : Memref sig .tc .vmem S1x256 .f32 := Memref.whole cc0_scratch1

/-- the condition of the body's scf.if: the second grid coordinate is 0 -/
abbrev cond0 (i : grid0.Coords) : Prop := (Scalar.cmpi .ne (Scalar.extui (Scalar.cmpi .eq (BitVec.ofNat 32 (i 1).val) 0#32)) 0#32) = 1#1

/-- It holds at the points whose number is a multiple of 4 (the grid is 16 x 4, the second coordinate the fast one). -/
theorem hcond0 : ∀ t : Fin grid0.N, cond0 (grid0.coords t) ↔ t.val % 4 = 0 := by decide +kernel

/-! ## Whole-buffer loads and stores, read back

Every store of the body writes a whole buffer (the unit-stride rectangle of the buffer's own extents at the
origin) and every load reads one whole: whatever a buffer held, after such a store it reads as the payload; a
load after it reads the payload; a load of untouched contents reads the contents. -/

theorem b0_hz2 : (![0, 0] : Fin 2 → Nat) = fun _ => 0 := funext fun a => by fin_cases a <;> rfl
theorem b0_hz3 : (![0, 0, 0] : Fin 3 → Nat) = fun _ => 0 := funext fun a => by fin_cases a <;> rfl

section Reads
variable {Val : EltTy → Type} [∀ e, Nonempty (Val e)] {sg : RefSig} {κ : Kind} {sp : Space} {S : Shape} {e : EltTy}

/-- A whole-buffer store, last: the buffer reads as its payload, whatever was stored before. -/
theorem b0_read_cons (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-buffer load after it reads the payload. -/
theorem b0_readCov_cons (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A whole-buffer load of contents nothing stored into reads the contents. -/
theorem b0_load (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Reads

/-! ## The word of the table -/

/-- the word the body loads from the table at point `i`: the one-element rectangle at the first grid coordinate -/
def word0 (i : grid0.Coords) (T : (⟨S16, .i32⟩ : BufTy).Contents (Elt F)) : Elt F .i32 :=
  View.readAt (Elt F) tbM.view (Rect.unit (s := S16) (k0_off1 i) S1.size (Gen.k0_off1_inb i)).toLoadRect T
    (Shape.Idx.first (Gen.numel1_S1.symm ▸ Nat.one_pos))

theorem b0_word_at (T : (⟨S16, .i32⟩ : BufTy).Contents (Elt F)) (off : Fin 1 → Nat) (inb : ∀ a, off a + S1.size a ≤ S16.size a)
    (n : Fin 16) (h : off = ![n.val]) (h0 : 0 < (Rect.unit (s := S16) off S1.size inb).toLoadRect.shape.numel) :
    View.readAt (Elt F) tbM.view (Rect.unit (s := S16) off S1.size inb).toLoadRect T (Shape.Idx.first h0) = T (ValueIdx.ix1 n) := by
  subst h
  show T _ = T _
  congr 1
  funext a
  match a with
  | ⟨0, _⟩ => exact Fin.ext (by show n.val + 1 * 0 = n.val; omega)

/-- It is the table read at the first grid coordinate. -/
theorem word0_eq (i : grid0.Coords) (T : (⟨S16, .i32⟩ : BufTy).Contents (Elt F)) :
    word0 i T = T (ValueIdx.ix1 (n := 16) (i 0)) :=
  b0_word_at T _ _ (i 0) (k0_off1_eq i) _

/-! ## What one grid point leaves in the accumulators -/

/-- The matrix accumulator after the point: what it held plus the point's contribution (the masked, weighted keys
    contracted with the values). -/
def newV (i : grid0.Coords) (x0 x1 : Vec F S1x1024x256 .f32) (x2 : Vec F S256x256 .f32) (w : Elt F .i32) (s0 : Vec F S256x256 .f32) : Vec F S256x256 .f32 :=
  k0_pay1 (k0_pay8 i x0 x1 x2 w) s0
/-- The row accumulator after the point: what it held plus the column sums of the point's weights. -/
def newS (i : grid0.Coords) (x0 : Vec F S1x1024x256 .f32) (x2 : Vec F S256x256 .f32) (w : Elt F .i32) (s1 : Vec F S1x256 .f32) : Vec F S1x256 .f32 :=
  k0_pay2 (k0_pay7 i x0 x2 w) s1

/-- The reading lemmas at the body's five shapes. -/
local macro "b0_reads" : tactic => `(tactic| simp only [
  b0_read_cons (S := S1x256x256) _ _ b0_hz3, b0_read_cons (S := S1x1x256) _ _ b0_hz3,
  b0_read_cons (S := S256x256) _ _ b0_hz2, b0_read_cons (S := S1x256) _ _ b0_hz2,
  b0_readCov_cons (S := S256x256) _ b0_hz2, b0_readCov_cons (S := S1x256) _ b0_hz2,
  b0_load (S := S256x256) _ _ b0_hz2, b0_load (S := S1x256) _ _ b0_hz2, b0_load (S := S1x1024x256) _ _ b0_hz3,
  Memref.IsWhole.read_unread])

/-! ## The body's two runs

At a point whose second coordinate is not 0 the body finds the accumulators as the point before left them
(`s0`, `s1`), adds the point's contribution to each, and copies the two sums to the output blocks. At a point
whose second coordinate is 0 it first resets both accumulators to zero, whatever they held. The inputs and the
table are read only. -/

set_option maxHeartbeats 4000000 in
/-- A point inside a row (second coordinate not 0): the accumulators `s0`, `s1` become `newV … s0`, `newS … s1`,
    and the output blocks hold the same two values, reshaped. -/
theorem run0_B (c : Dev nD) (i : grid0.Coords) (hc : ¬ cond0 i)
    (arg3 : Memref sig .tc .vmem S1x1024x256 .f32) (harg3 : arg3.IsWhole) (arg4 : Memref sig .tc .vmem S1x1024x256 .f32) (harg4 : arg4.IsWhole)
    (arg5 : Memref sig .tc .vmem S256x256 .f32) (harg5 : arg5.IsWhole) (arg6 : Memref sig .tc .vmem S1x256x256 .f32) (harg6 : arg6.IsWhole)
    (arg7 : Memref sig .tc .vmem S1x1x256 .f32) (harg7 : arg7.IsWhole)
    (T : (⟨S16, .i32⟩ : BufTy).Contents (Elt F)) (x0 x1 : Vec F S1x1024x256 .f32) (x2 : Vec F S256x256 .f32) (s0 : Vec F S256x256 .f32) (s1 : Vec F S1x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ owns (c : Thread nD τ) scM0 fullShare s0 ∗ owns (c : Thread nD τ) scM1 fullShare s1
        ∗ (tbM.view.loc (c : Thread nD τ) ↦{fullShare} T)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (newV i x0 x1 x2 (word0 i T) s0)) ∗ owns (c : Thread nD τ) arg7 fullShare (k0_pay4 (newS i x0 x2 (word0 i T) s1))
            ∗ owns (c : Thread nD τ) scM0 fullShare (newV i x0 x1 x2 (word0 i T) s0) ∗ owns (c : Thread nD τ) scM1 fullShare (newS i x0 x2 (word0 i T) s1)
            ∗ (tbM.view.loc (c : Thread nD τ) ↦{fullShare} T)) -∗ K ⟨⟩))
      ⊢ wp frame (wpE (defs₀ (F := F)) Variants.none c none) Set.univ
          (cc0__kernel_a i tbM (Memref.isWhole_whole _) arg3 harg3 arg4 harg4 arg5 harg5 arg6 harg6 arg7 harg7 scM0 (Memref.isWhole_whole _) scM1 (Memref.isWhole_whole _)) K := by
  rw [cc0__kernel_a_eq_skeleton]; unfold cc0__kernel_a_skel
  unfold owns
  iintro ⟨⟨%f0, %hf0, H0⟩, ⟨%f1, %hf1, H1⟩, ⟨%f2, %hf2, H2⟩, ⟨%d6, %f6, -, H6⟩, ⟨%d7, %f7, -, H7⟩, ⟨%fs0, %hfs0, HS0⟩, ⟨%fs1, %hfs1, HS1⟩, HT, Hk⟩
  obtain rfl := harg3.eq_unread hf0; obtain rfl := harg4.eq_unread hf1; obtain rfl := harg5.eq_unread hf2
  subst hfs0 hfs1
  have hS0 : scM0.IsWhole := Memref.isWhole_whole _
  have hS1 : scM1.IsWhole := Memref.isWhole_whole _
  have hT0 : tbM.IsWhole := Memref.isWhole_whole _
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; swap; iexact H6
    ipureintro; sl_unfold_run_names
    b0_reads
    rfl
  isplitl [H7]
  · iexists _; isplitr; swap; iexact H7
    ipureintro; sl_unfold_run_names
    b0_reads
    rfl
  isplitl [HS0]
  · iexists _; isplitr; swap; iexact HS0
    ipureintro; sl_unfold_run_names
    b0_reads
    rfl
  isplitl [HS1]
  · iexists _; isplitr; swap; iexact HS1
    ipureintro; sl_unfold_run_names
    b0_reads
    rfl
  iexact HT

set_option maxHeartbeats 4000000 in
/-- A row's first point (second coordinate 0): the accumulators, whatever they held, are reset to zero and then
    accumulated into as at any other point. -/
theorem run0_A (c : Dev nD) (i : grid0.Coords) (hc : cond0 i)
    (arg3 : Memref sig .tc .vmem S1x1024x256 .f32) (harg3 : arg3.IsWhole) (arg4 : Memref sig .tc .vmem S1x1024x256 .f32) (harg4 : arg4.IsWhole)
    (arg5 : Memref sig .tc .vmem S256x256 .f32) (harg5 : arg5.IsWhole) (arg6 : Memref sig .tc .vmem S1x256x256 .f32) (harg6 : arg6.IsWhole)
    (arg7 : Memref sig .tc .vmem S1x1x256 .f32) (harg7 : arg7.IsWhole)
    (T : (⟨S16, .i32⟩ : BufTy).Contents (Elt F)) (x0 x1 : Vec F S1x1024x256 .f32) (x2 : Vec F S256x256 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) scM0 fullShare d) ∗ (∃ d, owns (c : Thread nD τ) scM1 fullShare d)
        ∗ (tbM.view.loc (c : Thread nD τ) ↦{fullShare} T)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (newV i x0 x1 x2 (word0 i T) (k0_pay5 (F := F)))) ∗ owns (c : Thread nD τ) arg7 fullShare (k0_pay4 (newS i x0 x2 (word0 i T) (k0_pay6 (F := F))))
            ∗ owns (c : Thread nD τ) scM0 fullShare (newV i x0 x1 x2 (word0 i T) (k0_pay5 (F := F))) ∗ owns (c : Thread nD τ) scM1 fullShare (newS i x0 x2 (word0 i T) (k0_pay6 (F := F)))
            ∗ (tbM.view.loc (c : Thread nD τ) ↦{fullShare} T)) -∗ K ⟨⟩))
      ⊢ wp frame (wpE (defs₀ (F := F)) Variants.none c none) Set.univ
          (cc0__kernel_a i tbM (Memref.isWhole_whole _) arg3 harg3 arg4 harg4 arg5 harg5 arg6 harg6 arg7 harg7 scM0 (Memref.isWhole_whole _) scM1 (Memref.isWhole_whole _)) K := by
  rw [cc0__kernel_a_eq_skeleton]; unfold cc0__kernel_a_skel
  unfold owns
  iintro ⟨⟨%f0, %hf0, H0⟩, ⟨%f1, %hf1, H1⟩, ⟨%f2, %hf2, H2⟩, ⟨%d6, %f6, -, H6⟩, ⟨%d7, %f7, -, H7⟩, ⟨%ds0, %fs0, -, HS0⟩, ⟨%ds1, %fs1, -, HS1⟩, HT, Hk⟩
  obtain rfl := harg3.eq_unread hf0; obtain rfl := harg4.eq_unread hf1; obtain rfl := harg5.eq_unread hf2
  have hS0 : scM0.IsWhole := Memref.isWhole_whole _
  have hS1 : scM1.IsWhole := Memref.isWhole_whole _
  have hT0 : tbM.IsWhole := Memref.isWhole_whole _
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H6]
  · iexists _; isplitr; swap; iexact H6
    ipureintro; sl_unfold_run_names
    b0_reads
    rfl
  isplitl [H7]
  · iexists _; isplitr; swap; iexact H7
    ipureintro; sl_unfold_run_names
    b0_reads
    rfl
  isplitl [HS0]
  · iexists _; isplitr; swap; iexact HS0
    ipureintro; sl_unfold_run_names
    b0_reads
    rfl
  isplitl [HS1]
  · iexists _; isplitr; swap; iexact HS1
    ipureintro; sl_unfold_run_names
    b0_reads
    rfl
  iexact HT

end Cert.KernelIdeal.Hand

end
-- ==== Proof.KI.Region0.lean ====
/-
  The first pallas_call (the key pass) as a pipeline: what its five windows hold at each grid point.

  The grid is 16 × 4: point `t` is batch `t / 4`, key tile `t % 4` (1024 keys each). Windows 0, 1, 2 are the inputs
  (the key tile, the value tile, the transposed projection); windows 3 and 4 are the two summaries, whose blocks
  are indexed by the batch only. The body keeps the running sums in two scratch buffers that it zeroes at tile 0
  of every batch and copies to the output windows at every point, so after point `t` the scratch — and the output
  windows' staging buffers — hold the sums over the tiles `0 … t % 4` of batch `t / 4` (`outsAt0`, by recursion on
  the point: a reset point starts from zero, any other from what the point before left).
-/
import proofs.«416983_j21775484191371_1_alg».proof.Proof.KI.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## The windows' blocks -/

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The key-length table the region was entered with. -/
abbrev tblOf : (⟨S16, .i32⟩ : BufTy).Contents (Elt F) := a.1 0

/-- The grid point's coordinates. -/
abbrev pt0 (t : Fin (cfg0 a).N) : grid0.Coords := (cfg0 a).grid.coords t

/-! ## The running sums -/

/-- One point's update of the two running sums `s` (the key-value summary and the key summary): the tile's
    contribution added. -/
def step0 (c : Dev nD) (t : Fin (cfg0 a).N) (s : Vec F S256x256 .f32 × Vec F S1x256 .f32) : Vec F S256x256 .f32 × Vec F S1x256 .f32 :=
  (newV (pt0 a t) (iblk0 a V c 0 t) (iblk0 a V c 1 t) (iblk0 a V c 2 t) (word0 (pt0 a t) (tblOf a)) s.1,
   newS (pt0 a t) (iblk0 a V c 0 t) (iblk0 a V c 2 t) (word0 (pt0 a t) (tblOf a)) s.2)

/-- The zero sums a batch starts from. -/
abbrev zero0 : Vec F S256x256 .f32 × Vec F S1x256 .f32 := (k0_pay5 (F := F), k0_pay6 (F := F))

/-- The running sums after point `n`: a batch's first tile starts from zero, every other tile from what the
    point before left. -/
def outsAt0 (c : Dev nD) : (n : ℕ) → n < (cfg0 a).N → Vec F S256x256 .f32 × Vec F S1x256 .f32
  | 0, hn => step0 a V c ⟨0, hn⟩ zero0
  | n + 1, hn =>
    if (n + 1) % 4 = 0 then step0 a V c ⟨n + 1, hn⟩ zero0
    else step0 a V c ⟨n + 1, hn⟩ (outsAt0 c n (Nat.lt_of_succ_lt hn))

theorem outsAt0_A (c : Dev nD) (t : Fin (cfg0 a).N) (h : t.val % 4 = 0) :
    outsAt0 a V c t.val t.isLt = step0 a V c t zero0 := by
  obtain ⟨n, hn⟩ := t
  cases n with
  | zero => rfl
  | succ n => exact (if_pos h)

theorem outsAt0_B (c : Dev nD) (t : Fin (cfg0 a).N) (h : ¬ t.val % 4 = 0) :
    outsAt0 a V c t.val t.isLt = step0 a V c t (outsAt0 a V c (t.val - 1) (Nat.lt_of_le_of_lt (Nat.sub_le _ _) t.isLt)) := by
  obtain ⟨n, hn⟩ := t
  cases n with
  | zero => exact absurd (Nat.zero_mod _) h
  | succ n => exact (if_neg h)

/-! ## The invariant between points -/

/-- The scoped buffers the body never touches (the second call's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The key-length table, held whole at the contents the region was entered with. -/
def tblPt (c : Dev nD) : sProp 𝕄 := iprop(tbM.view.loc (c : Thread nD τ) ↦{fullShare} tblOf a)

/-- The invariant before point `n`: the table; the two scratch buffers at anything before the first point and at
    the running sums the point before left afterwards; the untouched scoped buffers. -/
def PhiS (c : Dev nD) : (n : ℕ) → n ≤ (cfg0 a).N → sProp 𝕄
  | 0, _ => iprop(tblPt a c ∗ (∃ d, owns (c : Thread nD τ) scM0 fullShare d) ∗ (∃ d, owns (c : Thread nD τ) scM1 fullShare d) ∗ restS c)
  | n + 1, hn => iprop(tblPt a c ∗ owns (c : Thread nD τ) scM0 fullShare (outsAt0 a V c n hn).1 ∗ owns (c : Thread nD τ) scM1 fullShare (outsAt0 a V c n hn).2 ∗ restS c)

theorem PhiS_zero (c : Dev nD) (n : ℕ) (h : n ≤ (cfg0 a).N) (hz : n = 0) :
    PhiS a V c n h = iprop(tblPt a c ∗ (∃ d, owns (c : Thread nD τ) scM0 fullShare d) ∗ (∃ d, owns (c : Thread nD τ) scM1 fullShare d) ∗ restS c) := by
  subst hz; rfl

theorem PhiS_succ (c : Dev nD) (n : ℕ) (hn : n < (cfg0 a).N) :
    PhiS a V c (n + 1) hn = iprop(tblPt a c ∗ owns (c : Thread nD τ) scM0 fullShare (outsAt0 a V c n hn).1 ∗ owns (c : Thread nD τ) scM1 fullShare (outsAt0 a V c n hn).2 ∗ restS c) := rfl

theorem PhiS_pos (c : Dev nD) (n : ℕ) (h : n ≤ (cfg0 a).N) (hz : n ≠ 0) :
    PhiS a V c n h = iprop(tblPt a c ∗ owns (c : Thread nD τ) scM0 fullShare (outsAt0 a V c (n - 1) (by omega)).1 ∗ owns (c : Thread nD τ) scM1 fullShare (outsAt0 a V c (n - 1) (by omega)).2 ∗ restS c) := by
  cases n with
  | zero => exact absurd rfl hz
  | succ n => rfl

/-! ## The proof data -/

/-- The pipeline's proof data on core `c`: the arrays as the region finds them; after the body at point `t` each
    input's buffer at its block and the two summaries' buffers at the running sums; the invariant above; nothing
    owed; full shares. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => k0_pay3 (outsAt0 a V c t.val t.isLt).1
    | ⟨4, _⟩ => k0_pay4 (outsAt0 a V c t.val t.isLt).2
  Φ t := PhiS a V c t.val (Nat.le_of_lt_succ t.isLt)
  q _ := fullShare
  owed _ := 0

theorem A_eq0 (c : Dev nD) (w : Fin (cfg0 a).W) : (dat0 a V c).A w = V c (Pipeline.arrRef spec0 w) := by
  dsimp only [dat0]

theorem after0_0 (c : Dev nD) (t : Fin (cfg0 a).N) : (dat0 a V c).after 0 t = iblk0 a V c 0 t := by dsimp only [dat0]; rfl
theorem after0_1 (c : Dev nD) (t : Fin (cfg0 a).N) : (dat0 a V c).after 1 t = iblk0 a V c 1 t := by dsimp only [dat0]; rfl
theorem after0_2 (c : Dev nD) (t : Fin (cfg0 a).N) : (dat0 a V c).after 2 t = iblk0 a V c 2 t := by dsimp only [dat0]; rfl
theorem after0_3 (c : Dev nD) (t : Fin (cfg0 a).N) : (dat0 a V c).after 3 t = k0_pay3 (outsAt0 a V c t.val t.isLt).1 := by dsimp only [dat0]; rfl
theorem after0_4 (c : Dev nD) (t : Fin (cfg0 a).N) : (dat0 a V c).after 4 t = k0_pay4 (outsAt0 a V c t.val t.isLt).2 := by dsimp only [dat0]; rfl

theorem PhiS_castSucc (c : Dev nD) (t : Fin (cfg0 a).N) :
    (dat0 a V c).Φ t.castSucc = PhiS a V c t.val (Nat.le_of_lt t.isLt) := by
  dsimp only [dat0]; simp only [Fin.coe_castSucc]

/-- An input's staging buffer holds its block at every point, whether or not it was fetched there: unfetched, the
    block index has not moved. -/
theorem before0_0 (c : Dev nD) (t : Fin (cfg0 a).N) (d) : (dat0 a V c).before 0 t d = iblk0 a V c 0 t :=
  ((dat0 a V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin (cfg0 a).N) (d) : (dat0 a V c).before 1 t d = iblk0 a V c 1 t :=
  ((dat0 a V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin (cfg0 a).N) (d) : (dat0 a V c).before 2 t d = iblk0 a V c 2 t :=
  ((dat0 a V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

end Cert.KernelIdeal.Hand

end
-- ==== Proof.KI.Oblig0.lean ====
/-
  The key pass's body meets the pipeline's obligation at every grid point: handed the three input blocks, the
  table and the two scratch buffers — at anything at a batch's first tile, at the running sums otherwise — it
  leaves the inputs as they were, the scratch at the sums with this tile added, and both output windows' staging
  buffers at copies of them.
-/
import proofs.«416983_j21775484191371_1_alg».proof.Proof.KI.Region0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Each window's current staging memref at point `t`. -/
abbrev ms0_0 (t : Fin (cfg0 a).N) : Memref sig .tc .vmem S1x1024x256 .f32 := spec0_0.stage ((cfg0 a).slots t 0)
abbrev ms0_1 (t : Fin (cfg0 a).N) : Memref sig .tc .vmem S1x1024x256 .f32 := spec0_1.stage ((cfg0 a).slots t 1)
abbrev ms0_2 (t : Fin (cfg0 a).N) : Memref sig .tc .vmem S256x256 .f32 := spec0_2.stage ((cfg0 a).slots t 2)
abbrev ms0_3 (t : Fin (cfg0 a).N) : Memref sig .tc .vmem S1x256x256 .f32 := spec0_3.stage ((cfg0 a).slots t 3)
abbrev ms0_4 (t : Fin (cfg0 a).N) : Memref sig .tc .vmem S1x1x256 .f32 := spec0_4.stage ((cfg0 a).slots t 4)

/-- The kernel body as the pipeline calls it at point `t`. -/
abbrev bodyAt0 (t : Fin (cfg0 a).N) : Prog (TpuEff nD τ sig (Elt F) Λ₀ .tc) PUnit :=
  cc0__kernel_a (grid0.coords t) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (Memref.whole cc0_scratch0) (Memref.isWhole_whole _) (Memref.whole cc0_scratch1) (Memref.isWhole_whole _)

/-- What the body is called with at point `t`, the windows one by one, -/
def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d))
    ∗ (∃ d, owns (c : Thread nD τ) (ms0_4 a t) fullShare ((dat0 a V c).before 4 t d)))

/-- and what it returns. -/
def bodyPost0 (c : Dev nD) (t : Fin (cfg0 a).N) : sProp 𝕄 :=
  iprop((dat0 a V c).Φ t.succ ∗ (dat0 a V c).owesAt () t.succ
    ∗ owns (c : Thread nD τ) (ms0_0 a t) fullShare ((dat0 a V c).after 0 t)
    ∗ owns (c : Thread nD τ) (ms0_1 a t) fullShare ((dat0 a V c).after 1 t)
    ∗ owns (c : Thread nD τ) (ms0_2 a t) fullShare ((dat0 a V c).after 2 t)
    ∗ owns (c : Thread nD τ) (ms0_3 a t) fullShare ((dat0 a V c).after 3 t)
    ∗ owns (c : Thread nD τ) (ms0_4 a t) fullShare ((dat0 a V c).after 4 t))

set_option maxHeartbeats 4000000 in
/-- The body at any point: a batch's first tile (`t % 4 = 0`) takes the scratch at anything and resets it, any other
    tile takes it at the sums the point before left. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [before0_0, before0_1, before0_2]
  rw [show (dat0 a V c).owesAt () t.succ = (dat0 a V c).owesAt () t.castSucc from rfl]
  rw [show (dat0 a V c).Φ t.succ = PhiS a V c (t.val + 1) t.isLt from rfl, PhiS_succ]
  rw [after0_0, after0_1, after0_2, after0_3, after0_4]
  by_cases h0 : t.val % 4 = 0
  · rw [outsAt0_A a V c t h0]
    unfold step0; dsimp only
    by_cases hz : t.val = 0
    · rw [PhiS_castSucc a V c t, PhiS_zero a V c _ _ hz]
      unfold tblPt
      iintro ⟨⟨HT, HS0, HS1, Hr⟩, Ho, ⟨%d0, H0⟩, ⟨%d1, H1⟩, ⟨%d2, H2⟩, ⟨%d3, H3⟩, ⟨%d4, H4⟩⟩
      iapply (run0_A c (pt0 a t) ((hcond0 t).mpr h0) _ _ _ _ _ _ _ _ _ _ (tblOf a) (iblk0 a V c 0 t) (iblk0 a V c 1 t) (iblk0 a V c 2 t) _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HT]; · iexact HT
      iintro ⟨H0, H1, H2, H3, H4, HS0, HS1, HT⟩
      isplitl [HT HS0 HS1 Hr]
      · isplitl [HT]; · iexact HT
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · rw [PhiS_castSucc a V c t, PhiS_pos a V c _ _ hz]
      unfold tblPt
      iintro ⟨⟨HT, HS0, HS1, Hr⟩, Ho, ⟨%d0, H0⟩, ⟨%d1, H1⟩, ⟨%d2, H2⟩, ⟨%d3, H3⟩, ⟨%d4, H4⟩⟩
      iapply (run0_A c (pt0 a t) ((hcond0 t).mpr h0) _ _ _ _ _ _ _ _ _ _ (tblOf a) (iblk0 a V c 0 t) (iblk0 a V c 1 t) (iblk0 a V c 2 t) _)
      isplitl [H0]; · iexact H0
      isplitl [H1]; · iexact H1
      isplitl [H2]; · iexact H2
      isplitl [H3]; · iexists _; iexact H3
      isplitl [H4]; · iexists _; iexact H4
      isplitl [HS0]; · iexists _; iexact HS0
      isplitl [HS1]; · iexists _; iexact HS1
      isplitl [HT]; · iexact HT
      iintro ⟨H0, H1, H2, H3, H4, HS0, HS1, HT⟩
      isplitl [HT HS0 HS1 Hr]
      · isplitl [HT]; · iexact HT
        isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
  · have hz : t.val ≠ 0 := fun e => h0 (by rw [e])
    rw [outsAt0_B a V c t h0]
    unfold step0; dsimp only
    rw [PhiS_castSucc a V c t, PhiS_pos a V c _ _ hz]
    unfold tblPt
    iintro ⟨⟨HT, HS0, HS1, Hr⟩, Ho, ⟨%d0, H0⟩, ⟨%d1, H1⟩, ⟨%d2, H2⟩, ⟨%d3, H3⟩, ⟨%d4, H4⟩⟩
    iapply (run0_B c (pt0 a t) (fun h => h0 ((hcond0 t).mp h)) _ _ _ _ _ _ _ _ _ _ (tblOf a) (iblk0 a V c 0 t) (iblk0 a V c 1 t) (iblk0 a V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HT]; · iexact HT
    iintro ⟨H0, H1, H2, H3, H4, HS0, HS1, HT⟩
    isplitl [HT HS0 HS1 Hr]
    · isplitl [HT]; · iexact HT
      isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    iexact H4

/-- The pipeline library's body obligation, at every point. -/
theorem body_obligation0 (c : Dev nD) : BodyObligation (dat0 (F := F) a V c) (defs₀ (F := F)) Variants.none () Set.univ := fun t => by
  rw [bigSep_W0, bigSep_W0]
  exact sound_body0 a V c t

end Cert.KernelIdeal.Hand

end
-- ==== Proof.KI.Body1.lean ====
import proofs.«416983_j21775484191371_1_alg».proof.Proof.Gen.KernelIdeal.Launch
import proofs.«416983_j21775484191371_1_alg».proof.Proof.Gen.KernelIdeal.Skeleton
import proofs.«416983_j21775484191371_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle at the origin, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The output buffer's one store: the whole shape, at the origin. -/
abbrev rO1 : Rect S1x1024x256 := Rect.unit (s := S1x1024x256) ![0, 0, 0] S1x1024x256.size inb_S1x1024x256_S1x1024x256_0_0_0

/-- The one store tiles the output buffer, so it covers it. -/
theorem coverO1 (p : Vec F S1x1024x256 .f32) (y : S1x1024x256.Idx) :
    ∃ pc ∈ ([⟨rO1, p⟩] : List (View.Piece (Elt F) S1x1024x256 .f32)), y ∈ pc.1.set :=
  ⟨_, List.mem_singleton_self _, View.mem_set_unit_zero (S := S1x1024x256) hz3 inb_S1x1024x256_S1x1024x256_0_0_0 y⟩

set_option maxHeartbeats 4000000 in
/-- The second kernel's body on whole staging buffers: the four inputs at contents `x0 … x3`, the output at anything.
    It loads each input whole (a load through the whole-shape rectangle at the origin reads the contents), loads the
    output (the value is not used), and stores one payload over the whole output. It runs to the continuation holding
    the inputs as they were and the output at `k1_pay1 x0 x1 x2 x3`: one covering store leaves its payload. -/
theorem sound_kernel1 (c : Dev nD) (E : Set ℕ) (i : grid1.Coords)
    (arg2 : Memref sig .tc .vmem S1x1024x256 .f32) (harg2 : arg2.IsWhole) (arg3 : Memref sig .tc .vmem S256x256 .f32) (harg3 : arg3.IsWhole)
    (arg4 : Memref sig .tc .vmem S1x256x256 .f32) (harg4 : arg4.IsWhole) (arg5 : Memref sig .tc .vmem S1x1x256 .f32) (harg5 : arg5.IsWhole)
    (arg6 : Memref sig .tc .vmem S1x1024x256 .f32) (harg6 : arg6.IsWhole)
    (x0 : Vec F S1x1024x256 .f32) (x1 : Vec F S256x256 .f32) (x2 : Vec F S1x256x256 .f32) (x3 : Vec F S1x1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 x0 x1 x2 x3)) -∗ K ⟨⟩))
      ⊢ wp frame (wpE (defs₀ (F := F)) Variants.none c none) E (cc1__kernel_b i arg2 harg2 arg3 harg3 arg4 harg4 arg5 harg5 arg6 harg6) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_unfold [cc1__kernel_b, k1_part1]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverO1 _), View.canon_unit_zero (S := S1x1024x256) hz3,
    View.readAt_eq_ld, View.readAt_eq_ld, View.readAt_eq_ld, View.readAt_eq_ld,
    View.ld_unit_zero (S := S1x1024x256) hz3, View.ld_unit_zero (S := S256x256) hz2,
    View.ld_unit_zero (S := S1x256x256) hz3, View.ld_unit_zero (S := S1x1x256) hz3]

end Cert.KernelIdeal.Hand

end
-- ==== Proof.KI.Region1.lean ====
import proofs.«416983_j21775484191371_1_alg».proof.Proof.Gen.KernelIdeal.Launch
import proofs.«416983_j21775484191371_1_alg».proof.Proof.Gen.KernelIdeal.Skeleton
import proofs.«416983_j21775484191371_1_alg».proof.Proof.Gen.KernelIdeal.Points
import proofs.«416983_j21775484191371_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved,
    and the buffer still holds the previous point's block, which is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved,
    and the buffer still holds the previous point's block, which is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved,
    and the buffer still holds the previous point's block, which is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved,
    and the buffer still holds the previous point's block, which is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second pipeline on core `c`: the arrays as the region finds them (`V`); after the body at
    point `t` each input's buffer at its block and the output's at the body's payload of the four input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' buffers hold their blocks (`before1_W`), so `sound_kernel1` applies; the
    invariant and the core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as a run: the host transpose, the key pass, the query pass.

  Between two items every unscoped buffer of the core is held at known contents: the launch memory (`W0`), then
  the transposed projection written (`W1`), then the two key summaries at what the key pass's write-backs leave
  (`W2`), then the output at what the query pass's write-backs leave (`W3`). The key-length table is read by the
  key pass at the contents it has in `W1`, which are the launch contents: no item writes it. Every final state
  holds each unscoped buffer at `W3`; the five arguments are there as launched.
-/
import proofs.«416983_j21775484191371_1_alg».proof.Proof.KI.Oblig0
import proofs.«416983_j21775484191371_1_alg».proof.Proof.KI.Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host transpose (the key pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The key-length table as the key pass finds it (the program runs on one core). -/
def tbl0 : pre0.Contents (Elt F) := fun k => V1 m ρ (0 : Dev nD) (pre0.ref k)
/-- Those contents are admissible: the pass's index maps do not read the table. -/
def adm0 : (pcfg0 (F := F)).Adm := ⟨tbl0 m ρ, trivial⟩
/-- Every pipeline's tables: the key pass's one table; the query pass has none. -/
def adm : (p : Fin 2) → (pcfgs (F := F) p).Adm
  | ⟨0, _⟩ => adm0 m ρ
  | ⟨1, _⟩ => cfg1.toPCfg_adm

/-- At the key pass's exit: its arrays at what the pipeline leaves, every other buffer as entered. -/
def W2 (c : Dev nD) : Valuation τ sig (Elt F) :=
  Pipeline.withArrays spec0 c (W1 m ρ c) fun w => (dat0 (adm0 m ρ) (V1 m ρ) c).arrAt w (cfg0 (adm0 m ρ)).N
theorem W2_arr (c : Dev nD) (w : Fin (cfg0 (adm0 m ρ)).W) :
    W2 m ρ c (Proc.devRef .tc (Pipeline.arrRef spec0 w)) = (dat0 (adm0 m ρ) (V1 m ρ) c).arrAt w (cfg0 (adm0 m ρ)).N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfg0 (adm0 m ρ)).W) :
    (dat0 (adm0 m ρ) (V1 m ρ) c).arrAt w (cfg0 (adm0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the query pass's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 winFacts1.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (adm0 m ρ) (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host transpose as a segment over the unscoped buffers. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

theorem dev_eq (c : Dev nD) : c = 0 := Subsingleton.elim _ _

/-! ## The regions as segments -/

set_option backward.isDefEq.respectTransparency.types false in
/-- The key pass: entered from every unscoped buffer at `W1`, left at `W2`. Its arrays and its table are split out of
    the unscoped buffers and put back; the table goes through the invariant; the generator register bypasses. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m ρ) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(emp)
  Y c := Pipeline.prefHeld (Ix := Unit) (Name := ℕ) (U := UR sig nD τ) (Lvl := ℕ) pre0 c (fun _ => fullShare) (tbl0 m ρ)
  Z c := iprop(Pipeline.unscopedRestP (Ix := Unit) (Name := ℕ) (U := UR sig nD τ) (Lvl := ℕ) pre0 spec0 c (V1 m ρ c) ∗ ∃ r, prngReg c r)
  hentry c := by
    obtain rfl := dev_eq c
    rw [Pipeline.ownSems0_none]
    have hsplit := Pipeline.arrays_of_unscopedBufs (p := 0) (pcfgs (F := F)) (adm m ρ) (pdats m ρ) (launch0 (F := F)).win (launch0 (F := F)).arr_whole 0
      ((pdats m ρ 0 0).share_full fun _ => rfl) (V1 m ρ 0) fun _ => rfl
    rw [Pipeline.unscopedBufs_held] at hsplit
    have hsp2 := Pipeline.unscopedRest_split (Ix := Unit) (Name := ℕ) (U := UR sig nD τ) (Lvl := ℕ) preFacts0 (0 : Dev nD) (V1 m ρ 0)
    iintro ⟨⟨Hub, Hp, HO⟩, -, -⟩
    ihave H := hsplit $$ Hub
    icases H with ⟨Ha, Hrest⟩
    ihave H2 := (Entails.of_eq hsp2) $$ Hrest
    icases H2 with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = iprop(tblPt (adm0 m ρ) c ∗ (∃ d, owns (c : Thread nD τ) scM0 fullShare d) ∗ (∃ d, owns (c : Thread nD τ) scM1 fullShare d) ∗ restS c) from rfl]
    rw [show Pipeline.scopedRest (Ix := Unit) (Name := ℕ) (U := UR sig nD τ) (Lvl := ℕ) (Val := Elt F) (Pipeline.pin (pcfgs (F := F)) (adm m ρ) 0).spec c = Pipeline.scopedRest spec0 c from rfl, scopedRest0_eq]
    unfold tblPt Pipeline.prefHeld restS
    rw [show (Finset.univ : Finset (Fin pre0.K)) = {0} from rfl, BI.bigSep_singleton]
    simp only [owns_whole]
    iintro ⟨-, HT, HS0, HS1, Hr⟩
    isplitl [HT]; · iexact HT
    isplitl [HS0]; · iexact HS0
    isplitl [HS1]; · iexact HS1
    iexact Hr
  hout c := by
    rw [Pipeline.ownSems0_none,
      show (pdats m ρ 0 c).Φ (Fin.last _) = PhiS (adm0 m ρ) (V1 m ρ) c (cfg0 (adm0 m ρ)).N (le_refl _) from rfl,
      PhiS_pos (adm0 m ρ) (V1 m ρ) c _ _ (by rw [show (cfg0 (adm0 m ρ)).N = 64 from N_0]; decide)]
    rw [show Pipeline.scopedRest (Ix := Unit) (Name := ℕ) (U := UR sig nD τ) (Lvl := ℕ) (Val := Elt F) (Pipeline.pin (pcfgs (F := F)) (adm m ρ) 0).spec c = Pipeline.scopedRest spec0 c from rfl, scopedRest0_eq]
    unfold tblPt Pipeline.prefHeld restS
    rw [show (Finset.univ : Finset (Fin pre0.K)) = {0} from rfl, BI.bigSep_singleton]
    simp only [owns_whole]
    iintro ⟨HT, HS0, HS1, Hr⟩
    isplitl [HT]; · iexact HT
    isplitr; · iempintro
    isplitl [HS0]; · iexists _; iexact HS0
    isplitl [HS1]; · iexists _; iexact HS1
    iexact Hr
  hexit c := by
    obtain rfl := dev_eq c
    have hjoin := Pipeline.unscopedBufs_of_arrays (p := 0) (pcfgs (F := F)) (adm m ρ) (Ix := Unit) (Name := ℕ) (U := UR sig nD τ) (Lvl := ℕ)
      (launch0 (F := F)).win (launch0 (F := F)).arr_whole 0 (pdats m ρ) ((pdats m ρ 0 0).share_full fun _ => rfl)
      (V1 m ρ 0) (V2 m ρ 0) ((pdats m ρ 0 0).arrAt · (cfg0 (adm0 m ρ)).N) (hF0 m ρ 0) (hrest0 m ρ 0)
    rw [Pipeline.unscopedBufs_held] at hjoin
    have hsp2 := Pipeline.unscopedRest_split (Ix := Unit) (Name := ℕ) (U := UR sig nD τ) (Lvl := ℕ) preFacts0 (0 : Dev nD) (V1 m ρ 0)
    iintro ⟨Ha, HO, HY, ⟨Hrest, Hp⟩⟩
    imodintro
    isplitl [Ha HY Hrest]
    · iapply hjoin
      isplitl [Ha]; · iexact Ha
      iapply (Entails.of_eq hsp2.symm)
      isplitl [HY]; · iexact HY
      iexact Hrest
    isplitl [Hp]; · iexact Hp
    unfold Pipeline.Dat.owesAt Pipeline.owesWithin
    icases HO with ⟨%W, -, HO⟩; iexists W; iexact HO

set_option backward.isDefEq.respectTransparency.types false in
/-- The query pass: entered from every unscoped buffer at `W2`, left at `W3`. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) (adm m ρ) (pdats m ρ) (launch1 (F := F)).win (launch1 (F := F)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) (adm m ρ) (pdats m ρ) () defs₀ 𝒱₀ L lv) :=
  [ .host (hseg0 m ρ), .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer at `W3`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KI.Args.lean ====
import proofs.«416983_j21775484191371_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What each item leaves unchanged

The host transpose writes the transposed projection only; the key pass writes its two summaries only; the query
pass writes the output only. A buffer an item does not write is, after it, what it was before it. -/

/-- Any buffer but the transposed projection is, after the host transpose, as launched. -/
theorem V1_of_ne (c : Dev nD) (b : Ref sig .tc) (h : b ≠ main_v0) : V1 m ρ c b = m ((c : Thread nD τ).loc b) :=
  (StableHlo.after_of_forall_not_mem (b := Proc.devRef .tc b) _ _ (List.forall_iff_forall_mem.mp (by
    simp only [hostOps0, List.Forall, StableHlo.unary_writes, Finset.mem_singleton]
    exact StableHlo.devRef_ne_of_ne h))).trans rfl

/-- The key pass's three inputs (keys, values, transposed projection) leave it as they entered. -/
theorem V2_main_arg1 (c : Dev nD) : V2 m ρ c main_arg1 = V1 m ρ c main_arg1 :=
  (W2_arr m ρ c 0).trans (((dat0 (adm0 m ρ) (V1 m ρ) c).arrAt_in 0 rfl _).trans (A_eq0 (adm0 m ρ) (V1 m ρ) c 0))
theorem V2_main_arg2 (c : Dev nD) : V2 m ρ c main_arg2 = V1 m ρ c main_arg2 :=
  (W2_arr m ρ c 1).trans (((dat0 (adm0 m ρ) (V1 m ρ) c).arrAt_in 1 rfl _).trans (A_eq0 (adm0 m ρ) (V1 m ρ) c 1))
theorem V2_main_v0 (c : Dev nD) : V2 m ρ c main_v0 = V1 m ρ c main_v0 :=
  (W2_arr m ρ c 2).trans (((dat0 (adm0 m ρ) (V1 m ρ) c).arrAt_in 2 rfl _).trans (A_eq0 (adm0 m ρ) (V1 m ρ) c 2))
/-- The queries, the key-length table and the projection bypass the key pass. -/
theorem V2_main_arg0 (c : Dev nD) : V2 m ρ c main_arg0 = V1 m ρ c main_arg0 := W2_of_ne m ρ c main_arg0 (by decide)
theorem V2_main_arg3 (c : Dev nD) : V2 m ρ c main_arg3 = V1 m ρ c main_arg3 := W2_of_ne m ρ c main_arg3 (by decide)
theorem V2_main_arg4 (c : Dev nD) : V2 m ρ c main_arg4 = V1 m ρ c main_arg4 := W2_of_ne m ρ c main_arg4 (by decide)
/-- The two key summaries after the key pass are what its write-backs leave. -/
theorem V2_main_v1_0 (c : Dev nD) : V2 m ρ c main_v1_0 = (dat0 (adm0 m ρ) (V1 m ρ) c).arrAt 3 (cfg0 (adm0 m ρ)).N := W2_arr m ρ c 3
theorem V2_main_v1_1 (c : Dev nD) : V2 m ρ c main_v1_1 = (dat0 (adm0 m ρ) (V1 m ρ) c).arrAt 4 (cfg0 (adm0 m ρ)).N := W2_arr m ρ c 4

/-- The queries are an input of the query pass: they leave it as they entered. -/
theorem V3_main_arg0' (c : Dev nD) : V3 m ρ c main_arg0 = V2 m ρ c main_arg0 :=
  (W3_arr m ρ c 0).trans (((dat1 (V2 m ρ) c).arrAt_in 0 rfl _).trans (A_eq1 (V2 m ρ) c 0))
/-- The output after the query pass is what its write-backs leave. -/
theorem V3_main_v2 (c : Dev nD) : V3 m ρ c main_v2 = (dat1 (V2 m ρ) c).arrAt 4 cfg1.N := W3_arr m ρ c 4

/-! ## The arguments reach the end as launched -/

theorem V3_main_arg0 (c : Dev nD) : V3 m ρ c main_arg0 = m ((c : Thread nD τ).loc main_arg0) :=
  (V3_main_arg0' m ρ c).trans ((V2_main_arg0 m ρ c).trans (V1_of_ne m ρ c main_arg0 (by decide)))
theorem V3_main_arg1 (c : Dev nD) : V3 m ρ c main_arg1 = m ((c : Thread nD τ).loc main_arg1) :=
  (W3_of_ne m ρ c main_arg1 (by decide)).trans ((V2_main_arg1 m ρ c).trans (V1_of_ne m ρ c main_arg1 (by decide)))
theorem V3_main_arg2 (c : Dev nD) : V3 m ρ c main_arg2 = m ((c : Thread nD τ).loc main_arg2) :=
  (W3_of_ne m ρ c main_arg2 (by decide)).trans ((V2_main_arg2 m ρ c).trans (V1_of_ne m ρ c main_arg2 (by decide)))
theorem V3_main_arg3 (c : Dev nD) : V3 m ρ c main_arg3 = m ((c : Thread nD τ).loc main_arg3) :=
  (W3_of_ne m ρ c main_arg3 (by decide)).trans ((V2_main_arg3 m ρ c).trans (V1_of_ne m ρ c main_arg3 (by decide)))
theorem V3_main_arg4 (c : Dev nD) : V3 m ρ c main_arg4 = m ((c : Thread nD τ).loc main_arg4) :=
  (W3_of_ne m ρ c main_arg4 (by decide)).trans ((V2_main_arg4 m ρ c).trans (V1_of_ne m ρ c main_arg4 (by decide)))

end Cert.KernelIdeal.Hand

end
-- ==== Proof.KI.Arr1.lean ====
import proofs.«416983_j21775484191371_1_alg».proof.Proof.Gen.KernelIdeal.Launch
import proofs.«416983_j21775484191371_1_alg».proof.Proof.Gen.KernelIdeal.Skeleton
import proofs.«416983_j21775484191371_1_alg».proof.Proof.Gen.KernelIdeal.Points
import proofs.«416983_j21775484191371_1_alg».proof.Proof.KI.Region1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid and the windows' block indices

The grid is 16 x 4: point `t` is batch `t / 4`, row tile `t % 4`. -/

/-- A point's number is below 64. -/
theorem pt_lt64 (t : Fin cfg1.N) : t.val < 64 := by
  have h := t.isLt
  have hN : cfg1.N = 64 := N_1
  omega

/-- Batch `b`, row `q` of 4096: the point of row tile `q / 1024` of batch `b` is a point of the grid. -/
theorem pt_of_lt (b : Fin 16) (q : Fin 4096) : 4 * b.val + q.val / 1024 < cfg1.N := by
  have hN : cfg1.N = 64 := N_1
  have hb := b.isLt
  have hq := q.isLt
  omega

/-- The five windows' block indices at every point, decided over the grid: windows 0 and 4 sit at (batch, row tile, 0),
    window 1 at the origin, windows 2 and 3 at (batch, 0, 0). -/
theorem idx1 : ∀ t : Fin cfg1.N,
    (win1_0.index t (0 : Fin 3) = t.val / 4 ∧ win1_0.index t (1 : Fin 3) = t.val % 4 ∧ win1_0.index t (2 : Fin 3) = 0)
    ∧ (win1_1.index t (0 : Fin 2) = 0 ∧ win1_1.index t (1 : Fin 2) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = 0 ∧ win1_3.index t (2 : Fin 3) = 0)
    ∧ (win1_4.index t (0 : Fin 3) = t.val / 4 ∧ win1_4.index t (1 : Fin 3) = t.val % 4 ∧ win1_4.index t (2 : Fin 3) = 0) :=
  (by decide +kernel : ∀ t : Fin grid1.N, _)

/-! ## The input blocks, read at an index

A block's coordinate in its array is, on each axis, the block index times the block's size plus the coordinate inside the block. -/

/-- Window 0's block at point `t`: rows `1024 (t % 4) …` of batch `t / 4` of the first argument. -/
theorem iblk1_0_at (c : Dev nD) (t : Fin cfg1.N) (r : Fin 1024) (d : Fin 256) :
    iblk1 V c 0 t (ix3 (0 : Fin 1) r d)
      = V c main_arg0 (ix3 (⟨t.val / 4, by have := pt_lt64 t; omega⟩ : Fin 16) (⟨(t.val % 4) * 1024 + r.val, by have := r.isLt; omega⟩ : Fin 4096) d) := by
  obtain ⟨⟨e0, e1, e2⟩, -⟩ := idx1 t
  show V c main_arg0 (((cfg1.win 0).blk t).view.emb (ix3 (0 : Fin 1) r d)) = V c main_arg0 _
  refine congrArg (V c main_arg0) (funext fun a => Fin.ext ?_)
  match a with
  | ⟨0, _⟩ => show win1_0.index t (0 : Fin 3) * 1 + 1 * 0 = t.val / 4; omega
  | ⟨1, _⟩ => show win1_0.index t (1 : Fin 3) * 1024 + 1 * r.val = (t.val % 4) * 1024 + r.val; omega
  | ⟨2, _⟩ => show win1_0.index t (2 : Fin 3) * 256 + 1 * d.val = d.val; omega

/-- Window 1's block at every point is its whole array. -/
theorem iblk1_1_at (c : Dev nD) (t : Fin cfg1.N) (d j : Fin 256) :
    iblk1 V c 1 t (ix2 d j) = V c main_v0 (ix2 d j) := by
  obtain ⟨-, ⟨e0, e1⟩, -⟩ := idx1 t
  show V c main_v0 (((cfg1.win 1).blk t).view.emb (ix2 d j)) = V c main_v0 _
  refine congrArg (V c main_v0) (funext fun a => Fin.ext ?_)
  match a with
  | ⟨0, _⟩ => show win1_1.index t (0 : Fin 2) * 256 + 1 * d.val = d.val; omega
  | ⟨1, _⟩ => show win1_1.index t (1 : Fin 2) * 256 + 1 * j.val = j.val; omega

/-- Window 2's block at point `t` is batch `t / 4` of its array. -/
theorem iblk1_2_at (c : Dev nD) (t : Fin cfg1.N) (j e : Fin 256) :
    iblk1 V c 2 t (ix3 (0 : Fin 1) j e) = V c main_v1_0 (ix3 (⟨t.val / 4, by have := pt_lt64 t; omega⟩ : Fin 16) j e) := by
  obtain ⟨-, -, ⟨e0, e1, e2⟩, -⟩ := idx1 t
  show V c main_v1_0 (((cfg1.win 2).blk t).view.emb (ix3 (0 : Fin 1) j e)) = V c main_v1_0 _
  refine congrArg (V c main_v1_0) (funext fun a => Fin.ext ?_)
  match a with
  | ⟨0, _⟩ => show win1_2.index t (0 : Fin 3) * 1 + 1 * 0 = t.val / 4; omega
  | ⟨1, _⟩ => show win1_2.index t (1 : Fin 3) * 256 + 1 * j.val = j.val; omega
  | ⟨2, _⟩ => show win1_2.index t (2 : Fin 3) * 256 + 1 * e.val = e.val; omega

/-- Window 3's block at point `t` is batch `t / 4` of its array. -/
theorem iblk1_3_at (c : Dev nD) (t : Fin cfg1.N) (j : Fin 256) :
    iblk1 V c 3 t (ix3 (0 : Fin 1) (0 : Fin 1) j) = V c main_v1_1 (ix3 (⟨t.val / 4, by have := pt_lt64 t; omega⟩ : Fin 16) (0 : Fin 1) j) := by
  obtain ⟨-, -, -, ⟨e0, e1, e2⟩, -⟩ := idx1 t
  show V c main_v1_1 (((cfg1.win 3).blk t).view.emb (ix3 (0 : Fin 1) (0 : Fin 1) j)) = V c main_v1_1 _
  refine congrArg (V c main_v1_1) (funext fun a => Fin.ext ?_)
  match a with
  | ⟨0, _⟩ => show win1_3.index t (0 : Fin 3) * 1 + 1 * 0 = t.val / 4; omega
  | ⟨1, _⟩ => show win1_3.index t (1 : Fin 3) * 1 + 1 * 0 = 0; omega
  | ⟨2, _⟩ => show win1_3.index t (2 : Fin 3) * 256 + 1 * j.val = j.val; omega

/-! ## The output array after the region -/

/-- What the body leaves in the output's buffer at point `t`: its payload of the point's four input blocks. -/
def payAt (c : Dev nD) (t : Fin cfg1.N) : Vec F S1x1024x256 .f32 :=
  k1_pay1 (iblk1 V c 0 t) (iblk1 V c 1 t) (iblk1 V c 2 t) (iblk1 V c 3 t)

/-- The same point and the same place in the block give the same value. -/
theorem payAt_congr (c : Dev nD) {t t' : Fin cfg1.N} (ht : t = t') {y y' : S1x1024x256.Idx} (hy : y = y') :
    payAt V c t y = payAt V c t' y' := by
  subst ht hy; rfl

/-- Entry (b, q, e) of the output array: what the point of row tile `q / 1024` of batch `b` left at row `q % 1024`. -/
def outAt (c : Dev nD) (b : Fin 16) (q : Fin 4096) (e : Fin 256) : Elt F .f32 :=
  payAt V c ⟨4 * b.val + q.val / 1024, pt_of_lt b q⟩ (ix3 (0 : Fin 1) (⟨q.val % 1024, Nat.mod_lt _ (by decide)⟩ : Fin 1024) e)

/-- The output array, entry by entry. -/
def out1G (c : Dev nD) : S16x4096x256.Idx → Elt F .f32 := fun i => outAt V c (i 0) (i 1) (i 2)

/-- What point `t` writes back is block `t` of `out1G`: an index of the block lies in the point's own batch and row
    tile, at the block's own row. -/
theorem flushed1_4_eq (c : Dev nD) (t : Fin cfg1.N) :
    (dat1 V c).flushed 4 t = ((cfg1.win 4).blk t).view.read (Elt F) (out1G V c) := by
  show (cfg1.win 4).cut (grid1.coords t) ((dat1 V c).after 4 t) = _
  rw [after1_4]
  obtain ⟨-, -, -, -, ⟨e0, e1, e2⟩⟩ := idx1 t
  have ht := pt_lt64 t
  funext y
  have h0 : (y 0).val < 1 := (y 0).isLt
  have h1 : (y 1).val < 1024 := (y 1).isLt
  have h2 : (y 2).val < 256 := (y 2).isLt
  show payAt V c t y = outAt V c ((((cfg1.win 4).blk t).view.emb y) 0) ((((cfg1.win 4).blk t).view.emb y) 1) ((((cfg1.win 4).blk t).view.emb y) 2)
  unfold outAt
  refine payAt_congr V c (Fin.ext ?_) (funext fun a => Fin.ext ?_)
  · show t.val = 4 * (win1_4.index t (0 : Fin 3) * 1 + 1 * (y 0).val) + (win1_4.index t (1 : Fin 3) * 1024 + 1 * (y 1).val) / 1024
    omega
  · match a with
    | ⟨0, _⟩ => show (y 0).val = 0; omega
    | ⟨1, _⟩ => show (y 1).val = (win1_4.index t (1 : Fin 3) * 1024 + 1 * (y 1).val) % 1024; omega
    | ⟨2, _⟩ => show (y 2).val = win1_4.index t (2 : Fin 3) * 256 + 1 * (y 2).val; omega

/-- An index of the array is in point `t`'s block iff each coordinate is in the block's range on its axis. -/
theorem mem_blk1_4 (t : Fin cfg1.N) (i : S16x4096x256.Idx) :
    i ∈ ((cfg1.win 4).blk t).view.set ↔ ∀ a : Fin 3, win1_4.index t a * S1x1024x256.size a ≤ (i a).val ∧ (i a).val < win1_4.index t a * S1x1024x256.size a + S1x1024x256.size a := by
  show i ∈ ((View.whole main_v2).slice (win1_4.rect t)).set ↔ _
  rw [View.set_slice_whole, Rect.mem_set_unit]
  exact Iff.rfl

/-- Every index of the array is in the block of a point that writes back: the point of its batch and row tile. -/
theorem cover1_4 (i : S16x4096x256.Idx) :
    ∃ t : Fin cfg1.N, (cfg1.win 4).flush t = true ∧ i ∈ ((cfg1.win 4).blk t).view.set := by
  have h0 : (i 0).val < 16 := (i 0).isLt
  have h1 : (i 1).val < 4096 := (i 1).isLt
  have h2 : (i 2).val < 256 := (i 2).isLt
  obtain ⟨t, ht⟩ : ∃ t : Fin cfg1.N, t.val = 4 * (i 0).val + (i 1).val / 1024 := ⟨⟨_, pt_of_lt (i 0) (i 1)⟩, rfl⟩
  obtain ⟨-, -, -, -, ⟨e0, e1, e2⟩⟩ := idx1 t
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 256 ≤ (i 2).val ∧ (i 2).val < win1_4.index t (2 : Fin 3) * 256 + 256; omega

/-- The output array after the region is `out1G`. -/
theorem arr1_final (c : Dev nD) : (dat1 V c).arrAt 4 cfg1.N = out1G V c :=
  (dat1 V c).arrAt_eq_of_cover 4 (out1G V c) (fun t _ => flushed1_4_eq V c t) (cover1_4)

/-- The output array after the region, entry by entry: entry (b, q, e) is what the point `4 b + q / 1024` wrote at row
    `q % 1024`. -/
theorem arr1_out_at (c : Dev nD) (b : Fin 16) (q : Fin 4096) (e : Fin 256) :
    (dat1 V c).arrAt 4 cfg1.N (ix3 b q e)
      = k1_pay1 (iblk1 V c 0 ⟨4 * b.val + q.val / 1024, pt_of_lt b q⟩) (iblk1 V c 1 ⟨4 * b.val + q.val / 1024, pt_of_lt b q⟩)
          (iblk1 V c 2 ⟨4 * b.val + q.val / 1024, pt_of_lt b q⟩) (iblk1 V c 3 ⟨4 * b.val + q.val / 1024, pt_of_lt b q⟩)
          (ix3 (0 : Fin 1) (⟨q.val % 1024, Nat.mod_lt _ (by decide)⟩ : Fin 1024) e) := by
  rw [arr1_final]
  rfl

end Cert.KernelIdeal.Hand

end
-- ==== Proof.Spec.lean ====
/-
  Positive-random-feature ("FAVOR+") linear attention with a key-length mask, as one function on the
  extended reals.

  For a batch entry `b`, a row `x` of queries or keys is first scaled by ¼ (`sc`). Its feature vector is
  `feat x j = (exp(-½ · Σ_d sc(x)_d²) · 1/16) · exp(Σ_d sc(x)_d · proj_{j,d})`. Key position `k` of batch `b` counts
  only when `k < valid_lens b` as signed 32-bit words (`msk`, the 0/1 indicator), so the masked key feature is
  `kf = feat · msk`. With `S_{j,e} = Σ_k kf_{k,j} · v_{k,e}` and `s_j = Σ_k kf_{k,j}`, the output row of query `q`
  is `(Σ_j feat(q)_j · S_{j,e}) / (Σ_j feat(q)_j · s_j)`: the value rows averaged with weights
  `Σ_j feat(q)_j · kf_{k,j}`, never forming the query-by-key matrix.

  Only commutative-monoid laws of the extended reals relate the programs to this function, so nothing here
  asks the entries to be finite.
-/
import Idealize.ShloMosaic.PureOps.Ideal
import Mathlib.Algebra.BigOperators.Group.Finset.Basic

noncomputable section

namespace Cert.Attn

open Idealize.ShloMosaic

/-- A [16, 4096, 256] array of extended reals, by coordinates. -/
abbrev T3 := Fin 16 → Fin 4096 → Fin 256 → EReal
/-- A [256, 256] array of extended reals, by coordinates. -/
abbrev T2 := Fin 256 → Fin 256 → EReal
/-- The sixteen key lengths, as signed 32-bit words. -/
abbrev TL := Fin 16 → BitVec 32

/-- ¼, the scale 256^(-¼) applied to queries and keys. -/
abbrev quarter : EReal := Ideal.ofBits .f32 0x3E800000#32
/-- -½. -/
abbrev negHalf : EReal := Ideal.ofBits .f32 0xBF000000#32
/-- 1/16 = 1/√256, the feature normaliser. -/
abbrev sixteenth : EReal := Ideal.ofBits .f32 0x3D800000#32

/-- The feature `j` of ONE row `x` (its 256 entries), against the projection matrix read as `pj j d`:
    `(exp(-½ Σ_d (x_d/4)²) · 1/16) · exp(Σ_d (x_d/4) · pj j d)`. -/
def rowFeat (x : Fin 256 → EReal) (pj : Fin 256 → Fin 256 → EReal) (j : Fin 256) : EReal :=
  (Ideal.exp (negHalf * ∑ d : Fin 256, (x d * quarter) * (x d * quarter)) * sixteenth)
    * Ideal.exp (∑ d : Fin 256, (x d * quarter) * pj j d)

/-- The 0/1 indicator that position `n` lies below the signed word `w`. -/
def mskAt (n : Nat) (w : BitVec 32) : EReal := if (BitVec.ofNat 32 n).slt w then 1 else 0

/-- A scaled entry. -/
def sc (x : T3) (b : Fin 16) (s : Fin 4096) (d : Fin 256) : EReal := x b s d * quarter

/-- The Gaussian weight of a scaled row: exp(-½ |row|²). -/
def rowW (x : T3) (b : Fin 16) (s : Fin 4096) : EReal := Ideal.exp (negHalf * ∑ d : Fin 256, sc x b s d * sc x b s d)

/-- The projection of a scaled row on feature direction `j`. -/
def logit (x : T3) (proj : T2) (b : Fin 16) (s : Fin 4096) (j : Fin 256) : EReal := ∑ d : Fin 256, sc x b s d * proj j d

/-- The positive random feature `j` of row `s`. -/
def feat (x : T3) (proj : T2) (b : Fin 16) (s : Fin 4096) (j : Fin 256) : EReal :=
  (rowW x b s * sixteenth) * Ideal.exp (logit x proj b s j)

/-- The key mask: 1 where position `k` is below the batch entry's valid length (signed compare), else 0. -/
def msk (vl : TL) (b : Fin 16) (k : Fin 4096) : EReal := if (BitVec.ofNat 32 k.val).slt (vl b) then 1 else 0

/-- The masked key feature. -/
def kf (ks : T3) (vl : TL) (proj : T2) (b : Fin 16) (k : Fin 4096) (j : Fin 256) : EReal := feat ks proj b k j * msk vl b k

/-- The key-value summary `S_{j,e}`. -/
def kv (ks vs : T3) (vl : TL) (proj : T2) (b : Fin 16) (j e : Fin 256) : EReal := ∑ k : Fin 4096, kf ks vl proj b k j * vs b k e

/-- The key summary `s_j`. -/
def ksum (ks : T3) (vl : TL) (proj : T2) (b : Fin 16) (j : Fin 256) : EReal := ∑ k : Fin 4096, kf ks vl proj b k j

/-- The unnormalised output. -/
def numer (qs ks vs : T3) (vl : TL) (proj : T2) (b : Fin 16) (q : Fin 4096) (e : Fin 256) : EReal :=
  ∑ j : Fin 256, feat qs proj b q j * kv ks vs vl proj b j e

/-- The normaliser of a query row. -/
def denom (qs ks : T3) (vl : TL) (proj : T2) (b : Fin 16) (q : Fin 4096) : EReal :=
  ∑ j : Fin 256, feat qs proj b q j * ksum ks vl proj b j

/-- The attention output, entry by entry. -/
def out (qs ks vs : T3) (vl : TL) (proj : T2) (b : Fin 16) (q : Fin 4096) (e : Fin 256) : EReal :=
  Ideal.div (numer qs ks vs vl proj b q e) (denom qs ks vl proj b q)

/-- The feature of a row of the array is the row-level feature. -/
theorem feat_eq_rowFeat (x : T3) (proj : T2) (b : Fin 16) (s : Fin 4096) (j : Fin 256) :
    feat x proj b s j = rowFeat (x b s) proj j := rfl

/-- The mask of the array is the row-level indicator. -/
theorem msk_eq_mskAt (vl : TL) (b : Fin 16) (k : Fin 4096) : msk vl b k = mskAt k.val (vl b) := rfl

end Cert.Attn

end
-- ==== Proof.KI.PayIdx.lean ====
/-
  The kernels' payload terms read at an index, at the exact instance (floats are the extended reals, every
  operation exact, the format changes the identity), in terms of the row-level functions of the specification:
  the feature of a row, the key mask's indicator, and the plain sums a matrix product and a lane sum are.
-/
import proofs.«416983_j21775484191371_1_alg».proof.Proof.Gen.KernelIdeal.Skeleton
import proofs.«416983_j21775484191371_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Cert.Attn Idealize.ShloMosaic Idealize.ShloMosaic.ValueIdx

/-! ## Rows and the transposed projection -/

/-- row r of a [1,1024,256] block -/
def rowOf (x : Vec Ideal S1x1024x256 .f32) (r : Fin 1024) : Fin 256 → EReal := fun d => x (ValueIdx.ix3 (0 : Fin 1) r d)
/-- the [256,256] block holding the TRANSPOSED projection, read as pj j d = block[d, j] -/
def pjOf (x2 : Vec Ideal S256x256 .f32) : Fin 256 → Fin 256 → EReal := fun j d => x2 (ValueIdx.ix2 d j)

/-! ## The keepdims column forms of a shape cast and a broadcast -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane sums -/

/-- The sum along the lanes of a [1024,256] block, at row `r`: the sum of the row's 256 entries. -/
theorem laneSum_apply (src : FVec Ideal S1024x256 .f32) (h : S1024x256.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ d : Fin 256, src (ix2 r d) := by
  refine (Ideal.multiReduction_add_single src 0x00000000#32 h hφ hacc (ix1 r)).trans ?_
  refine Finset.sum_congr rfl fun d _ => congrArg src (funext fun a => Fin.ext ?_)
  match a with
  | ⟨0, _⟩ => rfl
  | ⟨1, _⟩ => rfl

/-- The sum down the rows of a [1024,256] block, at column `j`: the sum of the column's 1024 entries. -/
theorem rowSum_apply (src : FVec Ideal S1024x256 .f32) (h : S1024x256.Reduces [0] S256) (hφ : FKind.Formats .f32)
    (hacc : (0x00000000#32 : BitVec 32) = 0x00000000#32) (j : Fin 256) :
    multiReduction (F := Ideal) .add [0] S256 src 0x00000000#32 h hφ hacc (ix1 j) = ∑ r : Fin 1024, src (ix2 r j) := by
  refine (Ideal.multiReduction_add_single src 0x00000000#32 h hφ hacc (ix1 j)).trans ?_
  refine Finset.sum_congr rfl fun r _ => congrArg src (funext fun a => Fin.ext ?_)
  match a with
  | ⟨0, _⟩ => rfl
  | ⟨1, _⟩ => rfl

/-! ## The payloads that only move or add -/

theorem pay1_apply (v39 v40 : Vec Ideal S256x256 .f32) (j e : Fin 256) :
    k0_pay1 (F := Ideal) v39 v40 (ValueIdx.ix2 j e) = v40 (ValueIdx.ix2 j e) + v39 (ValueIdx.ix2 j e) := by
  unfold k0_pay1
  simp only [shapeCast_self]
  rfl

theorem pay2_apply (v36 : Vec Ideal S1024x256 .f32) (v45 : Vec Ideal S1x256 .f32) (j : Fin 256) :
    k0_pay2 (F := Ideal) v36 v45 (ValueIdx.ix2 (0 : Fin 1) j)
      = v45 (ValueIdx.ix2 (0 : Fin 1) j) + ∑ r : Fin 1024, v36 (ValueIdx.ix2 r j) := by
  unfold k0_pay2
  simp only [shapeCast_self]
  rw [addf_apply, shapeCast_a_1a_apply, rowSum_apply]

theorem pay3_apply (v : Vec Ideal S256x256 .f32) (j e : Fin 256) :
    k0_pay3 (F := Ideal) v (ValueIdx.ix3 (0 : Fin 1) j e) = v (ValueIdx.ix2 j e) := by
  unfold k0_pay3
  exact shapeCast_ab_1ab_apply v _ 0 j e

theorem pay4_apply (v : Vec Ideal S1x256 .f32) (j : Fin 256) :
    k0_pay4 (F := Ideal) v (ValueIdx.ix3 (0 : Fin 1) (0 : Fin 1) j) = v (ValueIdx.ix2 (0 : Fin 1) j) := by
  unfold k0_pay4
  exact shapeCast_ab_1ab_apply v _ 0 0 j

theorem pay5_apply (y : S256x256.Idx) : k0_pay5 (F := Ideal) y = 0 := by
  unfold k0_pay5
  simp only [shapeCast_self]
  exact Ideal.ofBits_zero_f32

theorem pay6_apply (y : S1x256.Idx) : k0_pay6 (F := Ideal) y = 0 := by
  unfold k0_pay6
  simp only [shapeCast_self]
  exact Ideal.ofBits_zero_f32

/-! ## The two matrix products

The first record contracts the left operand's lanes with the right operand's rows: `out[r, j] = Σ_d l[r, d] · m[d, j]`.
The second contracts the rows of both: `out[j, e] = Σ_r l[r, j] · m[r, e]`. Each operand index is read axis by axis,
then the one-axis contraction index is replaced by its coordinate. -/

theorem lhs_lanes_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_lanes_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_lanes_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_lanes_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product over the lanes into a zero accumulator, at `(r, j)`. -/
theorem matmul_lanes_apply (l : FVec Ideal S1024x256 .bf16) (m : FVec Ideal S256x256 .bf16) (r : Fin 1024) (j : Fin 256) :
    matmul dot_S1024x256_S256x256_S1024x256_1_0_0_1_n_n none l m (constant (F := Ideal) S1024x256 .f32 0x00000000#32) (ix2 r j)
      = ∑ d : Fin 256, l (ix2 r d) * m (ix2 d j) := by
  refine (Ideal.matmul_constant_zero_apply dot_S1024x256_S256x256_S1024x256_1_0_0_1_n_n none l m (ix2 r j)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r j) ((contrEquiv1 dot_S1024x256_S256x256_S1024x256_1_0_0_1_n_n 256 rfl rfl).symm k) = ix2 r k := funext fun a => Fin.ext (by
    match a with
    | ⟨0, _⟩ => exact lhs_lanes_0 _ _
    | ⟨1, _⟩ => exact (lhs_lanes_1 _ _).trans hk)
  have er : dot_S1024x256_S256x256_S1024x256_1_0_0_1_n_n.rhsIdx (ix2 r j) ((contrEquiv1 dot_S1024x256_S256x256_S1024x256_1_0_0_1_n_n 256 rfl rfl).symm k) = ix2 k j := funext fun a => Fin.ext (by
    match a with
    | ⟨0, _⟩ => exact (rhs_lanes_0 _ _).trans hk
    | ⟨1, _⟩ => exact rhs_lanes_1 _ _)
  rw [el, er]

theorem lhs_rows_0 (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem lhs_rows_1 (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem rhs_rows_0 (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem rhs_rows_1 (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- The product over the rows into a zero accumulator, at `(j, e)`. -/
theorem matmul_rows_apply (l m : FVec Ideal S1024x256 .bf16) (j e : Fin 256) :
    matmul dot_S1024x256_S1024x256_S256x256_0_0_1_1_n_n none l m (constant (F := Ideal) S256x256 .f32 0x00000000#32) (ix2 j e)
      = ∑ r : Fin 1024, l (ix2 r j) * m (ix2 r e) := by
  refine (Ideal.matmul_constant_zero_apply dot_S1024x256_S1024x256_S256x256_0_0_1_1_n_n none l m (ix2 j e)).trans ?_
  rw [← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 j e) ((contrEquiv1 dot_S1024x256_S1024x256_S256x256_0_0_1_1_n_n 1024 rfl rfl).symm k) = ix2 k j := funext fun a => Fin.ext (by
    match a with
    | ⟨0, _⟩ => exact (lhs_rows_0 _ _).trans hk
    | ⟨1, _⟩ => exact lhs_rows_1 _ _)
  have er : dot_S1024x256_S1024x256_S256x256_0_0_1_1_n_n.rhsIdx (ix2 j e) ((contrEquiv1 dot_S1024x256_S1024x256_S256x256_0_0_1_1_n_n 1024 rfl rfl).symm k) = ix2 k e := funext fun a => Fin.ext (by
    match a with
    | ⟨0, _⟩ => exact (rhs_rows_0 _ _).trans hk
    | ⟨1, _⟩ => exact rhs_rows_1 _ _)
  rw [el, er]

/-! ## The key mask's indicator as the kernel computes it -/

/-- The position word: block offset times 1024 plus the row, as 32-bit words, is the word of the position. -/
theorem pos_word (n r : Nat) :
    IntOp.addi (Scalar.muli (BitVec.ofNat 32 n) 1024#32) (BitVec.ofNat 32 r) = BitVec.ofNat 32 (n * 1024 + r) := by
  rw [BitVec.ofNat_add, BitVec.ofNat_mul]
  rfl

/-- A one-bit condition widened to 32 bits and converted is the extended real 1 or 0. -/
theorem bit_toReal (b : Bool) : ((((BitVec.ofBool b).setWidth 32).toInt : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- An exponential at an index is the exponential of the element. -/
theorem exp_apply {s : Shape} {φ : FTy} (a : FVec Ideal s φ) (i : s.Idx) : exp a i = Ideal.exp (a i) := rfl
/-- An integer sum at an index adds the elements. -/
theorem addi_apply {s : Shape} {w : Nat} (a b : IVec s w) (i : s.Idx) : addi a b i = IntOp.addi (a i) (b i) := rfl
/-- An integer comparison at an index compares the elements. -/
theorem cmpi_apply {s : Shape} {w : Nat} (p : CmpIPredicate) (a b : IVec s w) (i : s.Idx) : cmpi p a b i = IntOp.cmpi p (a i) (b i) := rfl

/-- The kernel's mask entry of a row: the position word compared signed with the length word, widened and converted. -/
theorem msk_word (n r : Nat) (w : BitVec 32) :
    FloatOps.sitofp (F := Ideal) FTy.f32
        (BitVec.setWidth 32 (IntOp.cmpi CmpIPredicate.slt (IntOp.addi (Scalar.muli (BitVec.ofNat 32 n) 1024#32) (BitVec.ofNat 32 r)) w))
      = mskAt (n * 1024 + r) w := by
  rw [pos_word]
  exact bit_toReal _

/-! ## The masked key features, their product with the values, and the normalised output -/

theorem pay7_apply (i : grid0.Coords) (x0 : Vec Ideal S1x1024x256 .f32) (x2 : Vec Ideal S256x256 .f32) (w : BitVec 32) (r : Fin 1024) (j : Fin 256) :
    k0_pay7 (F := Ideal) i x0 x2 w (ValueIdx.ix2 r j) = rowFeat (rowOf x0 r) (pjOf x2) j * mskAt ((i 1).val * 1024 + r.val) w := by
  unfold k0_pay7
  simp only [shapeCast_self]
  simp only [mulf_apply, broadcastTo_a1_ab_apply, exp_apply, broadcast_apply, shapeCast_a_a1_apply,
    shapeCast_1ab_ab_apply, matmul_lanes_apply, truncf_apply, sitofp_apply, extui_apply, cmpi_apply, addi_apply]
  rw [laneSum_apply, iota_single_apply, msk_word]
  simp only [mulf_apply, broadcast_apply, shapeCast_1ab_ab_apply]
  rfl

theorem pay8_apply (i : grid0.Coords) (x0 x1 : Vec Ideal S1x1024x256 .f32) (x2 : Vec Ideal S256x256 .f32) (w : BitVec 32) (j e : Fin 256) :
    k0_pay8 (F := Ideal) i x0 x1 x2 w (ValueIdx.ix2 j e)
      = ∑ r : Fin 1024, k0_pay7 (F := Ideal) i x0 x2 w (ValueIdx.ix2 r j) * x1 (ValueIdx.ix3 (0 : Fin 1) r e) := by
  unfold k0_pay8
  rw [matmul_rows_apply]
  simp only [truncf_apply, shapeCast_1ab_ab_apply]

theorem k1_pay1_apply (x0 : Vec Ideal S1x1024x256 .f32) (x1 : Vec Ideal S256x256 .f32) (x2 : Vec Ideal S1x256x256 .f32) (x3 : Vec Ideal S1x1x256 .f32) (r : Fin 1024) (e : Fin 256) :
    k1_pay1 (F := Ideal) x0 x1 x2 x3 (ValueIdx.ix3 (0 : Fin 1) r e)
      = Ideal.div (∑ j : Fin 256, rowFeat (rowOf x0 r) (pjOf x1) j * x2 (ValueIdx.ix3 (0 : Fin 1) j e)) (∑ j : Fin 256, rowFeat (rowOf x0 r) (pjOf x1) j * x3 (ValueIdx.ix3 (0 : Fin 1) (0 : Fin 1) j)) := by
  unfold k1_pay1
  simp only [shapeCast_self]
  rw [shapeCast_ab_1ab_apply, divf_apply, matmul_lanes_apply, broadcastTo_a1_ab_apply, shapeCast_a_a1_apply, laneSum_apply]
  simp only [mulf_apply, broadcastTo_a1_ab_apply, broadcastTo_1b_ab_apply, exp_apply, broadcast_apply, shapeCast_a_a1_apply,
    shapeCast_1ab_ab_apply, matmul_lanes_apply, truncf_apply]
  rw [laneSum_apply]
  simp only [mulf_apply, broadcast_apply, shapeCast_1ab_ab_apply]
  rfl

end Cert.KernelIdeal.PayIdx

end
-- ==== Proof.KI.Arr0.lean ====
/-
  The first pallas_call, from blocks to arrays.

  The grid is 16 × 4; point `t` is batch `t / 4`, key tile `t % 4`. A key or value tile read through its window at
  point `t` is rows `(t % 4) · 1024 …` of batch `t / 4` of the array; the projection's one block is the whole
  matrix. The two summaries' blocks are indexed by the batch alone, so each is written back once per batch, at the
  batch's last tile (the points `t` with `t % 4 = 3`), and the sixteen blocks tile the arrays: after the region,
  batch `b` of each summary array is what point `4 b + 3` left in the running sums.
-/
import proofs.«416983_j21775484191371_1_alg».proof.Proof.KI.Region0
import Idealize.ShloMosaic.Lib.Pipeline.Value
import Idealize.ShloMosaic.Lib.ValueIdx
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 eq_ix3)

variable {F : FTy → Type} [FloatOps F]

variable (a : (pcfg0 (F := F)).Adm)
variable (V : (c : Dev nD) → (b : Ref sig .tc) → Buf (Elt F) ((c : Thread nD τ).loc b))

/-! ## The grid and the index maps -/

/-- The grid has 64 points. -/
theorem N0 : (cfg0 a).N = 64 := N_0

/-- A point's batch is below 16. -/
theorem batch_lt (t : Fin (cfg0 a).N) : t.val / 4 < 16 := by
  have h := t.isLt; have hN : (cfg0 a).N = 64 := N_0; omega

/-- A row of a point's key tile is a key position below 4096. -/
theorem key_lt (n : ℕ) (r : Fin 1024) : (n % 4) * 1024 + r.val < 4096 := by
  have h := r.isLt; omega

/-- A batch's last tile is a point of the grid. -/
theorem last_lt (b : Fin 16) : 4 * b.val + 3 < (cfg0 a).N := by
  have h := b.isLt; have hN : (cfg0 a).N = 64 := N_0; omega

/-- The key tiles' block index at point `t`: batch `t / 4`, tile `t % 4`. -/
theorem map0 : ∀ t : Fin grid0.N, cc0_transform_0 (grid0.coords t) 0 = t.val / 4
    ∧ cc0_transform_0 (grid0.coords t) 1 = t.val % 4 ∧ cc0_transform_0 (grid0.coords t) 2 = 0 := by decide +kernel

/-- The value tiles' block index at point `t`: the same. -/
theorem map1 : ∀ t : Fin grid0.N, cc0_transform_1 (grid0.coords t) 0 = t.val / 4
    ∧ cc0_transform_1 (grid0.coords t) 1 = t.val % 4 ∧ cc0_transform_1 (grid0.coords t) 2 = 0 := by decide +kernel

/-- The projection's block index never moves. -/
theorem map2 : ∀ t : Fin grid0.N, cc0_transform_2 (grid0.coords t) 0 = 0 ∧ cc0_transform_2 (grid0.coords t) 1 = 0 := by
  decide +kernel

/-- The key-value summary's block index at point `t`: the batch alone. -/
theorem map3 : ∀ t : Fin grid0.N, cc0_transform_3 (grid0.coords t) 0 = t.val / 4
    ∧ cc0_transform_3 (grid0.coords t) 1 = 0 ∧ cc0_transform_3 (grid0.coords t) 2 = 0 := by decide +kernel

/-- The key summary's block index at point `t`: the batch alone. -/
theorem map4 : ∀ t : Fin grid0.N, cc0_transform_4 (grid0.coords t) 0 = t.val / 4
    ∧ cc0_transform_4 (grid0.coords t) 1 = 0 ∧ cc0_transform_4 (grid0.coords t) 2 = 0 := by decide +kernel

/-- The key-value summary is written back exactly at each batch's last tile: the schedule read off the index map
    alone, which the key-length table does not enter. -/
theorem flushOf3 : ∀ t : Fin grid0.N, Pipeline.Window.flushOf grid0 true cc0_transform_3 t = true ↔ t.val % 4 = 3 := by
  decide +kernel

/-- The key summary likewise. -/
theorem flushOf4 : ∀ t : Fin grid0.N, Pipeline.Window.flushOf grid0 true cc0_transform_4 t = true ↔ t.val % 4 = 3 := by
  decide +kernel

theorem flush0_3 (t : Fin (cfg0 a).N) : ((cfg0 a).win 3).flush t = true ↔ t.val % 4 = 3 := flushOf3 t

theorem flush0_4 (t : Fin (cfg0 a).N) : ((cfg0 a).win 4).flush t = true ↔ t.val % 4 = 3 := flushOf4 t

/-! ## The input blocks -/

/-- The key tile at point `t` is rows `(t % 4) · 1024 …` of batch `t / 4` of the keys. -/
theorem iblk0_0_at (c : Dev nD) (t : Fin (cfg0 a).N) (r : Fin 1024) (d : Fin 256) :
    iblk0 a V c 0 t (ix3 (0 : Fin 1) r d)
      = V c main_arg1 (ix3 (⟨t.val / 4, batch_lt a t⟩ : Fin 16) (⟨(t.val % 4) * 1024 + r.val, key_lt t.val r⟩ : Fin 4096) d) := by
  obtain ⟨e0, e1, e2⟩ := map0 t
  show V c main_arg1 ((((cfg0 a).win 0).blk t).view.emb (ix3 (0 : Fin 1) r d)) = V c main_arg1 _
  congr 1
  funext x; apply Fin.ext
  match x with
  | ⟨0, _⟩ => show cc0_transform_0 (grid0.coords t) 0 * 1 + 1 * (0 : Fin 1).val = t.val / 4; rw [e0]; show _ * 1 + 1 * 0 = _; omega
  | ⟨1, _⟩ => show cc0_transform_0 (grid0.coords t) 1 * 1024 + 1 * r.val = (t.val % 4) * 1024 + r.val; rw [e1]; omega
  | ⟨2, _⟩ => show cc0_transform_0 (grid0.coords t) 2 * 256 + 1 * d.val = d.val; rw [e2]; omega

/-- The value tile at point `t` is rows `(t % 4) · 1024 …` of batch `t / 4` of the values. -/
theorem iblk0_1_at (c : Dev nD) (t : Fin (cfg0 a).N) (r : Fin 1024) (e : Fin 256) :
    iblk0 a V c 1 t (ix3 (0 : Fin 1) r e)
      = V c main_arg2 (ix3 (⟨t.val / 4, batch_lt a t⟩ : Fin 16) (⟨(t.val % 4) * 1024 + r.val, key_lt t.val r⟩ : Fin 4096) e) := by
  obtain ⟨e0, e1, e2⟩ := map1 t
  show V c main_arg2 ((((cfg0 a).win 1).blk t).view.emb (ix3 (0 : Fin 1) r e)) = V c main_arg2 _
  congr 1
  funext x; apply Fin.ext
  match x with
  | ⟨0, _⟩ => show cc0_transform_1 (grid0.coords t) 0 * 1 + 1 * (0 : Fin 1).val = t.val / 4; rw [e0]; show _ * 1 + 1 * 0 = _; omega
  | ⟨1, _⟩ => show cc0_transform_1 (grid0.coords t) 1 * 1024 + 1 * r.val = (t.val % 4) * 1024 + r.val; rw [e1]; omega
  | ⟨2, _⟩ => show cc0_transform_1 (grid0.coords t) 2 * 256 + 1 * e.val = e.val; rw [e2]; omega

/-- The projection's block is the whole matrix at every point. -/
theorem iblk0_2_at (c : Dev nD) (t : Fin (cfg0 a).N) (d j : Fin 256) :
    iblk0 a V c 2 t (ix2 d j) = V c main_v0 (ix2 d j) := by
  obtain ⟨e0, e1⟩ := map2 t
  show V c main_v0 ((((cfg0 a).win 2).blk t).view.emb (ix2 d j)) = V c main_v0 _
  congr 1
  funext x; apply Fin.ext
  match x with
  | ⟨0, _⟩ => show cc0_transform_2 (grid0.coords t) 0 * 256 + 1 * d.val = d.val; rw [e0]; omega
  | ⟨1, _⟩ => show cc0_transform_2 (grid0.coords t) 1 * 256 + 1 * j.val = j.val; rw [e1]; omega

/-! ## The two summaries' staged values, entry by entry -/

/-- The staged key-value summary is the running sum with a leading unit axis. -/
theorem pay3_at (v : Vec F S256x256 .f32) (y : S1x256x256.Idx) : k0_pay3 v y = v (ix2 (y 1) (y 2)) :=
  (congrArg (k0_pay3 v) (eq_ix3 y)).trans (ValueIdx.shapeCast_ab_1ab_apply v shapeCasts_S256x256_S1x256x256 (y 0) (y 1) (y 2))

/-- The staged key summary is the running sum with a leading unit axis. -/
theorem pay4_at (v : Vec F S1x256 .f32) (y : S1x1x256.Idx) : k0_pay4 v y = v (ix2 (y 1) (y 2)) :=
  (congrArg (k0_pay4 v) (eq_ix3 y)).trans (ValueIdx.shapeCast_ab_1ab_apply v shapeCasts_S1x256_S1x1x256 (y 0) (y 1) (y 2))

/-- The running sums depend on the point's number alone. -/
theorem outsAt0_of_eq (c : Dev nD) (n n' : ℕ) (h : n < (cfg0 a).N) (h' : n' < (cfg0 a).N) (e : n = n') :
    outsAt0 a V c n h = outsAt0 a V c n' h' := by
  subst e; rfl

/-! ## The key-value summary array -/

/-- The key-value summaries of the sixteen batches as one array: batch `b`'s is what its last tile left. -/
def sumV (c : Dev nD) : S16x256x256.Idx → Elt F .f32 := fun i =>
  (outsAt0 a V c (4 * (i 0).val + 3) (last_lt a (i 0))).1 (ix2 (i 1) (i 2))

/-- An entry of the array in batch `t / 4`, for a point `t` that is a batch's last tile, is the entry of what `t` left. -/
theorem sumV_at_last (c : Dev nD) (t : Fin (cfg0 a).N) (h3 : t.val % 4 = 3) (i : S16x256x256.Idx) (j : Fin 256) (k : Fin 256)
    (h0 : (i 0).val = t.val / 4) (h1 : (i 1).val = j.val) (h2 : (i 2).val = k.val) :
    (outsAt0 a V c t.val t.isLt).1 (ix2 j k) = sumV a V c i := by
  unfold sumV
  rw [outsAt0_of_eq a V c (4 * (i 0).val + 3) t.val (last_lt a (i 0)) t.isLt (by omega)]
  refine congrArg (outsAt0 a V c t.val t.isLt).1 (funext fun x => Fin.ext ?_)
  match x with
  | ⟨0, _⟩ => exact h1.symm
  | ⟨1, _⟩ => exact h2.symm

/-- What a batch's last tile writes back is the batch's block of that array. -/
theorem flushed0_3 (c : Dev nD) (t : Fin (cfg0 a).N) (hf : ((cfg0 a).win 3).flush t = true) :
    (dat0 a V c).flushed 3 t = (((cfg0 a).win 3).blk t).view.read (Elt F) (sumV a V c) := by
  have h3 : t.val % 4 = 3 := (flush0_3 a t).mp hf
  obtain ⟨e0, e1, e2⟩ := map3 t
  show ((cfg0 a).win 3).cut ((cfg0 a).grid.coords t) ((dat0 a V c).after 3 t) = _
  rw [after0_3]
  refine funext fun (y : S1x256x256.Idx) => ?_
  have hy0 : (y 0).val < 1 := (y 0).isLt
  have hy1 : (y 1).val < 256 := (y 1).isLt
  have hy2 : (y 2).val < 256 := (y 2).isLt
  show k0_pay3 (outsAt0 a V c t.val t.isLt).1 (((cfg0 a).win 3).xinj ((cfg0 a).grid.coords t) y)
    = sumV a V c ((((cfg0 a).win 3).blk t).view.emb y)
  refine (pay3_at _ _).trans ?_
  exact sumV_at_last a V c t h3 _ _ _
    (by show cc0_transform_3 (grid0.coords t) 0 * 1 + 1 * (y 0).val = t.val / 4; rw [e0]; omega)
    (by show cc0_transform_3 (grid0.coords t) 1 * 256 + 1 * (y 1).val = (y 1).val; rw [e1]; omega)
    (by show cc0_transform_3 (grid0.coords t) 2 * 256 + 1 * (y 2).val = (y 2).val; rw [e2]; omega)

/-- An index is in point `t`'s block iff each coordinate is in the block's range on its axis. -/
theorem mem_blk0_3 (t : Fin (cfg0 a).N) (i : S16x256x256.Idx) :
    i ∈ (((cfg0 a).win 3).blk t).view.set ↔ ∀ x : Fin 3, cc0_transform_3 (grid0.coords t) x * S1x256x256.size x ≤ (i x).val
      ∧ (i x).val < cc0_transform_3 (grid0.coords t) x * S1x256x256.size x + S1x256x256.size x := by
  have h : (((cfg0 a).win 3).blk t).view.set = (((cfg0 a).win 3).rect t).set :=
    View.set_slice_whole main_v1_0 (((cfg0 a).win 3).rect t)
  exact (Eq.to_iff (congrArg (fun s => i ∈ s) h)).trans Rect.mem_set_unit

/-- Every index is in the block its batch's last tile writes back. -/
theorem cover0_3 (i : S16x256x256.Idx) :
    ∃ t : Fin (cfg0 a).N, ((cfg0 a).win 3).flush t = true ∧ i ∈ (((cfg0 a).win 3).blk t).view.set := by
  have h0 : (i 0).val < 16 := (i 0).isLt
  have h1 : (i 1).val < 256 := (i 1).isLt
  have h2 : (i 2).val < 256 := (i 2).isLt
  refine ⟨⟨4 * (i 0).val + 3, last_lt a (i 0)⟩, (flush0_3 a _).mpr (by show (4 * (i 0).val + 3) % 4 = 3; omega), ?_⟩
  obtain ⟨e0, e1, e2⟩ := map3 ⟨4 * (i 0).val + 3, last_lt a (i 0)⟩
  have e0' : cc0_transform_3 (grid0.coords ⟨4 * (i 0).val + 3, last_lt a (i 0)⟩) 0 = (4 * (i 0).val + 3) / 4 := e0
  rw [mem_blk0_3]
  intro x
  match x with
  | ⟨0, _⟩ =>
    show cc0_transform_3 (grid0.coords ⟨4 * (i 0).val + 3, last_lt a (i 0)⟩) 0 * 1 ≤ (i 0).val
      ∧ (i 0).val < cc0_transform_3 (grid0.coords ⟨4 * (i 0).val + 3, last_lt a (i 0)⟩) 0 * 1 + 1
    rw [e0']; omega
  | ⟨1, _⟩ =>
    show cc0_transform_3 (grid0.coords ⟨4 * (i 0).val + 3, last_lt a (i 0)⟩) 1 * 256 ≤ (i 1).val
      ∧ (i 1).val < cc0_transform_3 (grid0.coords ⟨4 * (i 0).val + 3, last_lt a (i 0)⟩) 1 * 256 + 256
    rw [e1]; omega
  | ⟨2, _⟩ =>
    show cc0_transform_3 (grid0.coords ⟨4 * (i 0).val + 3, last_lt a (i 0)⟩) 2 * 256 ≤ (i 2).val
      ∧ (i 2).val < cc0_transform_3 (grid0.coords ⟨4 * (i 0).val + 3, last_lt a (i 0)⟩) 2 * 256 + 256
    rw [e2]; omega

/-- The key-value summary array after the region. -/
theorem arr0_v (c : Dev nD) : (dat0 a V c).arrAt 3 (cfg0 a).N = sumV a V c :=
  (dat0 a V c).arrAt_eq_of_cover 3 (sumV a V c) (flushed0_3 a V c) (cover0_3 a)

/-- Batch `b` of the key-value summary array is what point `4 b + 3` left. -/
theorem arr0_v_at (c : Dev nD) (b : Fin 16) (j e : Fin 256) :
    (dat0 a V c).arrAt 3 (cfg0 a).N (ix3 b j e) = (outsAt0 a V c (4 * b.val + 3) (last_lt a b)).1 (ix2 j e) :=
  congrFun (arr0_v a V c) (ix3 b j e)

/-! ## The key summary array -/

/-- The key summaries of the sixteen batches as one array: batch `b`'s is what its last tile left. -/
def sumS (c : Dev nD) : S16x1x256.Idx → Elt F .f32 := fun i =>
  (outsAt0 a V c (4 * (i 0).val + 3) (last_lt a (i 0))).2 (ix2 (i 1) (i 2))

/-- An entry of the array in batch `t / 4`, for a point `t` that is a batch's last tile, is the entry of what `t` left. -/
theorem sumS_at_last (c : Dev nD) (t : Fin (cfg0 a).N) (h3 : t.val % 4 = 3) (i : S16x1x256.Idx) (j : Fin 1) (k : Fin 256)
    (h0 : (i 0).val = t.val / 4) (h1 : (i 1).val = j.val) (h2 : (i 2).val = k.val) :
    (outsAt0 a V c t.val t.isLt).2 (ix2 j k) = sumS a V c i := by
  unfold sumS
  rw [outsAt0_of_eq a V c (4 * (i 0).val + 3) t.val (last_lt a (i 0)) t.isLt (by omega)]
  refine congrArg (outsAt0 a V c t.val t.isLt).2 (funext fun x => Fin.ext ?_)
  match x with
  | ⟨0, _⟩ => exact h1.symm
  | ⟨1, _⟩ => exact h2.symm

/-- What a batch's last tile writes back is the batch's block of that array. -/
theorem flushed0_4 (c : Dev nD) (t : Fin (cfg0 a).N) (hf : ((cfg0 a).win 4).flush t = true) :
    (dat0 a V c).flushed 4 t = (((cfg0 a).win 4).blk t).view.read (Elt F) (sumS a V c) := by
  have h3 : t.val % 4 = 3 := (flush0_4 a t).mp hf
  obtain ⟨e0, e1, e2⟩ := map4 t
  show ((cfg0 a).win 4).cut ((cfg0 a).grid.coords t) ((dat0 a V c).after 4 t) = _
  rw [after0_4]
  refine funext fun (y : S1x1x256.Idx) => ?_
  have hy0 : (y 0).val < 1 := (y 0).isLt
  have hy1 : (y 1).val < 1 := (y 1).isLt
  have hy2 : (y 2).val < 256 := (y 2).isLt
  show k0_pay4 (outsAt0 a V c t.val t.isLt).2 (((cfg0 a).win 4).xinj ((cfg0 a).grid.coords t) y)
    = sumS a V c ((((cfg0 a).win 4).blk t).view.emb y)
  refine (pay4_at _ _).trans ?_
  exact sumS_at_last a V c t h3 _ _ _
    (by show cc0_transform_4 (grid0.coords t) 0 * 1 + 1 * (y 0).val = t.val / 4; rw [e0]; omega)
    (by show cc0_transform_4 (grid0.coords t) 1 * 1 + 1 * (y 1).val = (y 1).val; rw [e1]; omega)
    (by show cc0_transform_4 (grid0.coords t) 2 * 256 + 1 * (y 2).val = (y 2).val; rw [e2]; omega)

/-- An index is in point `t`'s block iff each coordinate is in the block's range on its axis. -/
theorem mem_blk0_4 (t : Fin (cfg0 a).N) (i : S16x1x256.Idx) :
    i ∈ (((cfg0 a).win 4).blk t).view.set ↔ ∀ x : Fin 3, cc0_transform_4 (grid0.coords t) x * S1x1x256.size x ≤ (i x).val
      ∧ (i x).val < cc0_transform_4 (grid0.coords t) x * S1x1x256.size x + S1x1x256.size x := by
  have h : (((cfg0 a).win 4).blk t).view.set = (((cfg0 a).win 4).rect t).set :=
    View.set_slice_whole main_v1_1 (((cfg0 a).win 4).rect t)
  exact (Eq.to_iff (congrArg (fun s => i ∈ s) h)).trans Rect.mem_set_unit

/-- Every index is in the block its batch's last tile writes back. -/
theorem cover0_4 (i : S16x1x256.Idx) :
    ∃ t : Fin (cfg0 a).N, ((cfg0 a).win 4).flush t = true ∧ i ∈ (((cfg0 a).win 4).blk t).view.set := by
  have h0 : (i 0).val < 16 := (i 0).isLt
  have h1 : (i 1).val < 1 := (i 1).isLt
  have h2 : (i 2).val < 256 := (i 2).isLt
  refine ⟨⟨4 * (i 0).val + 3, last_lt a (i 0)⟩, (flush0_4 a _).mpr (by show (4 * (i 0).val + 3) % 4 = 3; omega), ?_⟩
  obtain ⟨e0, e1, e2⟩ := map4 ⟨4 * (i 0).val + 3, last_lt a (i 0)⟩
  have e0' : cc0_transform_4 (grid0.coords ⟨4 * (i 0).val + 3, last_lt a (i 0)⟩) 0 = (4 * (i 0).val + 3) / 4 := e0
  rw [mem_blk0_4]
  intro x
  match x with
  | ⟨0, _⟩ =>
    show cc0_transform_4 (grid0.coords ⟨4 * (i 0).val + 3, last_lt a (i 0)⟩) 0 * 1 ≤ (i 0).val
      ∧ (i 0).val < cc0_transform_4 (grid0.coords ⟨4 * (i 0).val + 3, last_lt a (i 0)⟩) 0 * 1 + 1
    rw [e0']; omega
  | ⟨1, _⟩ =>
    show cc0_transform_4 (grid0.coords ⟨4 * (i 0).val + 3, last_lt a (i 0)⟩) 1 * 1 ≤ (i 1).val
      ∧ (i 1).val < cc0_transform_4 (grid0.coords ⟨4 * (i 0).val + 3, last_lt a (i 0)⟩) 1 * 1 + 1
    rw [e1]; omega
  | ⟨2, _⟩ =>
    show cc0_transform_4 (grid0.coords ⟨4 * (i 0).val + 3, last_lt a (i 0)⟩) 2 * 256 ≤ (i 2).val
      ∧ (i 2).val < cc0_transform_4 (grid0.coords ⟨4 * (i 0).val + 3, last_lt a (i 0)⟩) 2 * 256 + 256
    rw [e2]; omega

/-- The key summary array after the region. -/
theorem arr0_s (c : Dev nD) : (dat0 a V c).arrAt 4 (cfg0 a).N = sumS a V c :=
  (dat0 a V c).arrAt_eq_of_cover 4 (sumS a V c) (flushed0_4 a V c) (cover0_4 a)

/-- Batch `b` of the key summary array is what point `4 b + 3` left. -/
theorem arr0_s_at (c : Dev nD) (b : Fin 16) (j : Fin 256) :
    (dat0 a V c).arrAt 4 (cfg0 a).N (ix3 b (0 : Fin 1) j) = (outsAt0 a V c (4 * b.val + 3) (last_lt a b)).2 (ix2 (0 : Fin 1) j) :=
  congrFun (arr0_s a V c) (ix3 b (0 : Fin 1) j)

end Cert.KernelIdeal.Hand

end
-- ==== Proof.KI.Sums0.lean ====
/-
  The key pass's running sums are partial sums of the specification.

  Point `t` of the 16 × 4 grid is batch `t / 4`, key tile `t % 4`. One point adds to the two running sums the
  tile's 1024 masked key features (times the value rows, for the key-value summary); the sums restart from zero at
  tile 0 of every batch. So after point `t` they are the specification's sums over the key positions below
  `(t % 4 + 1) · 1024` of batch `t / 4`, by induction on the point; after a batch's last tile that is every
  position, and the two output arrays are the specification's key-value summary and key summary.

  The extended reals are an additive commutative monoid: nothing here asks a sum to be finite.
-/
import proofs.«416983_j21775484191371_1_alg».proof.Proof.KI.Region0
import proofs.«416983_j21775484191371_1_alg».proof.Proof.KI.PayIdx
import proofs.«416983_j21775484191371_1_alg».proof.Proof.KI.Arr0
import Mathlib.Algebra.BigOperators.Group.Finset.Basic
import Mathlib.Algebra.BigOperators.Fin
set_option maxRecDepth 16384

noncomputable section

open scoped BigOperators

namespace Cert.KernelIdeal.Hand

open Cert.KernelIdeal Cert.KernelIdeal.Gen Cert.KernelIdeal.PayIdx Cert.Attn
open Idealize.ShloMosaic Idealize.ShloMosaic.TcCoe
open Idealize.SL.Sem
open Idealize.ShloMosaic.Pipeline (Dat Cfg Window)
open Idealize.ShloMosaic.ValueIdx (ix1 ix2 ix3)

/-! ## A sum over the positions below a bound, tile by tile -/

section Tiles
variable {M : Type*} [AddCommMonoid M]

/-- The sum over the positions below `m` (at most 4096) is a sum over the first `m` naturals. -/
theorem sum_below_eq_range (f : Fin 4096 → M) (m : ℕ) (hm : m ≤ 4096) :
    ∑ k ∈ Finset.univ.filter (fun k : Fin 4096 => k.val < m), f k
      = ∑ i ∈ Finset.range m, (if h : i < 4096 then f ⟨i, h⟩ else 0) := by
  refine Finset.sum_bij (fun k _ => k.val) (fun k hk => ?_) (fun k₁ _ k₂ _ h => Fin.ext h) (fun i hi => ?_) (fun k _ => ?_)
  · exact Finset.mem_range.2 (Finset.mem_filter.1 hk).2
  · have hi' : i < m := Finset.mem_range.1 hi
    exact ⟨⟨i, lt_of_lt_of_le hi' hm⟩, Finset.mem_filter.2 ⟨Finset.mem_univ _, hi'⟩, rfl⟩
  · rw [dif_pos k.isLt]

/-- The positions below `(n + 1) · 1024` are those below `n · 1024` and the 1024 of tile `n`. -/
theorem sum_below_succ_tile (f : Fin 4096 → M) (n : ℕ) (hn : n < 4) :
    ∑ k ∈ Finset.univ.filter (fun k : Fin 4096 => k.val < (n + 1) * 1024), f k
      = ∑ k ∈ Finset.univ.filter (fun k : Fin 4096 => k.val < n * 1024), f k
        + ∑ r : Fin 1024, f ⟨n * 1024 + r.val, by have := r.isLt; omega⟩ := by
  rw [sum_below_eq_range f _ (by omega), sum_below_eq_range f _ (by omega),
    show (n + 1) * 1024 = n * 1024 + 1024 by omega, Finset.sum_range_add]
  refine congrArg _ ?_
  rw [Finset.sum_range]
  refine Finset.sum_congr rfl fun r _ => ?_
  rw [dif_pos (by have := r.isLt; omega)]

/-- No position is below `0 · 1024`. -/
theorem sum_below_zero (f : Fin 4096 → M) : ∑ k ∈ Finset.univ.filter (fun k : Fin 4096 => k.val < 0 * 1024), f k = 0 := by
  rw [sum_below_eq_range f _ (by omega), Nat.zero_mul, Finset.sum_range_zero]

/-- Every position is below `4 · 1024`. -/
theorem sum_below_all (f : Fin 4096 → M) : ∑ k ∈ Finset.univ.filter (fun k : Fin 4096 => k.val < 4096), f k = ∑ k, f k := by
  rw [Finset.filter_true_of_mem fun k _ => k.isLt]

end Tiles

/-! ## The arrays by coordinates, and the partial sums -/

section Sums
variable (a : (pcfg0 (F := Ideal)).Adm)
variable (V : (c : Dev nD) → (b : Ref sig .tc) → Buf (Elt Ideal) ((c : Thread nD τ).loc b))
variable (c : Dev nD)

/-- The keys. -/
def KS : Cert.Attn.T3 := fun b s d => V c main_arg1 (ix3 b s d)
/-- The values. -/
def VS : Cert.Attn.T3 := fun b s d => V c main_arg2 (ix3 b s d)
/-- The projection; the array holds it transposed. -/
def PJ : Cert.Attn.T2 := fun j d => V c main_v0 (ix2 d j)
/-- The key-length table. -/
def VL : Cert.Attn.TL := fun b => tblOf a (ix1 b)

/-- The grid point's coordinates: batch and key tile. -/
theorem coords0 : ∀ t : Fin grid0.N, ((grid0.coords t) 0).val = t.val / 4 ∧ ((grid0.coords t) 1).val = t.val % 4 := by
  decide +kernel

/-- The key-value summary's sum over the positions below `m`. -/
def partV (b : Fin 16) (m : ℕ) (j e : Fin 256) : EReal :=
  ∑ k ∈ Finset.univ.filter (fun k : Fin 4096 => k.val < m), kf (KS V c) (VL a) (PJ V c) b k j * VS V c b k e
/-- The key summary's sum over the positions below `m`. -/
def partS (b : Fin 16) (m : ℕ) (j : Fin 256) : EReal :=
  ∑ k ∈ Finset.univ.filter (fun k : Fin 4096 => k.val < m), kf (KS V c) (VL a) (PJ V c) b k j

/-! ## One point's step -/

/-- One point adds, to the key-value summary, the tile's masked features times its value rows. -/
theorem newV_apply (i : grid0.Coords) (x0 x1 : Vec Ideal S1x1024x256 .f32) (x2 : Vec Ideal S256x256 .f32) (w : BitVec 32)
    (s0 : Vec Ideal S256x256 .f32) (j e : Fin 256) :
    newV i x0 x1 x2 w s0 (ix2 j e)
      = s0 (ix2 j e) + ∑ r : Fin 1024, (rowFeat (rowOf x0 r) (pjOf x2) j * mskAt ((i 1).val * 1024 + r.val) w) * x1 (ix3 (0 : Fin 1) r e) := by
  unfold newV
  rw [pay1_apply, pay8_apply]
  simp only [pay7_apply]

/-- One point adds, to the key summary, the tile's masked features. -/
theorem newS_apply (i : grid0.Coords) (x0 : Vec Ideal S1x1024x256 .f32) (x2 : Vec Ideal S256x256 .f32) (w : BitVec 32)
    (s1 : Vec Ideal S1x256 .f32) (j : Fin 256) :
    newS i x0 x2 w s1 (ix2 (0 : Fin 1) j)
      = s1 (ix2 (0 : Fin 1) j) + ∑ r : Fin 1024, rowFeat (rowOf x0 r) (pjOf x2) j * mskAt ((i 1).val * 1024 + r.val) w := by
  unfold newS
  rw [pay2_apply]
  simp only [pay7_apply]

/-- One point's step of the key-value summary, with the tile read off the arrays: the tile's 1024 terms of the
    specification's sum are added. -/
theorem step_v (t : Fin (cfg0 a).N) (s : Vec Ideal S256x256 .f32 × Vec Ideal S1x256 .f32) (j e : Fin 256) :
    (step0 a V c t s).1 (ix2 j e)
      = s.1 (ix2 j e) + ∑ r : Fin 1024,
          kf (KS V c) (VL a) (PJ V c) ⟨t.val / 4, batch_lt a t⟩ ⟨(t.val % 4) * 1024 + r.val, key_lt t.val r⟩ j
            * VS V c ⟨t.val / 4, batch_lt a t⟩ ⟨(t.val % 4) * 1024 + r.val, key_lt t.val r⟩ e := by
  obtain ⟨h0, h1⟩ := coords0 t
  refine (newV_apply (pt0 a t) (iblk0 a V c 0 t) (iblk0 a V c 1 t) (iblk0 a V c 2 t) (word0 (pt0 a t) (tblOf a)) s.1 j e).trans ?_
  refine congrArg _ (Finset.sum_congr rfl fun r _ => ?_)
  have e1 : rowOf (iblk0 a V c 0 t) r = KS V c ⟨t.val / 4, batch_lt a t⟩ ⟨(t.val % 4) * 1024 + r.val, key_lt t.val r⟩ :=
    funext fun d => iblk0_0_at a V c t r d
  have e2 : pjOf (iblk0 a V c 2 t) = PJ V c := funext fun j' => funext fun d => iblk0_2_at a V c t d j'
  have e3 : word0 (pt0 a t) (tblOf a) = VL a ⟨t.val / 4, batch_lt a t⟩ := by
    rw [word0_eq]
    exact congrArg (fun x : Fin 16 => tblOf a (ix1 x)) (Fin.ext h0)
  have e4 : iblk0 a V c 1 t (ix3 (0 : Fin 1) r e)
      = VS V c ⟨t.val / 4, batch_lt a t⟩ ⟨(t.val % 4) * 1024 + r.val, key_lt t.val r⟩ e := iblk0_1_at a V c t r e
  have e5 : ((pt0 a t) 1).val = t.val % 4 := h1
  rw [e1, e2, e3, e4, e5]
  rfl

/-- One point's step of the key summary likewise. -/
theorem step_s (t : Fin (cfg0 a).N) (s : Vec Ideal S256x256 .f32 × Vec Ideal S1x256 .f32) (j : Fin 256) :
    (step0 a V c t s).2 (ix2 (0 : Fin 1) j)
      = s.2 (ix2 (0 : Fin 1) j) + ∑ r : Fin 1024,
          kf (KS V c) (VL a) (PJ V c) ⟨t.val / 4, batch_lt a t⟩ ⟨(t.val % 4) * 1024 + r.val, key_lt t.val r⟩ j := by
  obtain ⟨h0, h1⟩ := coords0 t
  refine (newS_apply (pt0 a t) (iblk0 a V c 0 t) (iblk0 a V c 2 t) (word0 (pt0 a t) (tblOf a)) s.2 j).trans ?_
  refine congrArg _ (Finset.sum_congr rfl fun r _ => ?_)
  have e1 : rowOf (iblk0 a V c 0 t) r = KS V c ⟨t.val / 4, batch_lt a t⟩ ⟨(t.val % 4) * 1024 + r.val, key_lt t.val r⟩ :=
    funext fun d => iblk0_0_at a V c t r d
  have e2 : pjOf (iblk0 a V c 2 t) = PJ V c := funext fun j' => funext fun d => iblk0_2_at a V c t d j'
  have e3 : word0 (pt0 a t) (tblOf a) = VL a ⟨t.val / 4, batch_lt a t⟩ := by
    rw [word0_eq]
    exact congrArg (fun x : Fin 16 => tblOf a (ix1 x)) (Fin.ext h0)
  have e5 : ((pt0 a t) 1).val = t.val % 4 := h1
  rw [e1, e2, e3, e5]
  rfl

/-! ## The induction on the point -/

/-- A step from the sum over the tiles before makes the sum over the tiles so far (key-value summary). -/
theorem step_v_part (n : ℕ) (hn : n < (cfg0 a).N) (s : Vec Ideal S256x256 .f32 × Vec Ideal S1x256 .f32) (j e : Fin 256)
    (hs : s.1 (ix2 j e) = partV a V c ⟨n / 4, batch_lt a ⟨n, hn⟩⟩ ((n % 4) * 1024) j e) :
    (step0 a V c ⟨n, hn⟩ s).1 (ix2 j e) = partV a V c ⟨n / 4, batch_lt a ⟨n, hn⟩⟩ ((n % 4 + 1) * 1024) j e := by
  refine (step_v a V c ⟨n, hn⟩ s j e).trans ?_
  rw [hs]
  unfold partV
  exact (sum_below_succ_tile (fun k => kf (KS V c) (VL a) (PJ V c) ⟨n / 4, batch_lt a ⟨n, hn⟩⟩ k j * VS V c ⟨n / 4, batch_lt a ⟨n, hn⟩⟩ k e)
    (n % 4) (Nat.mod_lt _ (by decide))).symm

/-- The same for the key summary. -/
theorem step_s_part (n : ℕ) (hn : n < (cfg0 a).N) (s : Vec Ideal S256x256 .f32 × Vec Ideal S1x256 .f32) (j : Fin 256)
    (hs : s.2 (ix2 (0 : Fin 1) j) = partS a V c ⟨n / 4, batch_lt a ⟨n, hn⟩⟩ ((n % 4) * 1024) j) :
    (step0 a V c ⟨n, hn⟩ s).2 (ix2 (0 : Fin 1) j) = partS a V c ⟨n / 4, batch_lt a ⟨n, hn⟩⟩ ((n % 4 + 1) * 1024) j := by
  refine (step_s a V c ⟨n, hn⟩ s j).trans ?_
  rw [hs]
  unfold partS
  exact (sum_below_succ_tile (fun k => kf (KS V c) (VL a) (PJ V c) ⟨n / 4, batch_lt a ⟨n, hn⟩⟩ k j)
    (n % 4) (Nat.mod_lt _ (by decide))).symm

/-- After point `n` the running sums are the specification's sums over the positions below `(n % 4 + 1) · 1024` of
    batch `n / 4`. -/
theorem sums_aux (n : ℕ) : ∀ (hn : n < (cfg0 a).N),
    (∀ j e : Fin 256, (outsAt0 a V c n hn).1 (ix2 j e) = partV a V c ⟨n / 4, batch_lt a ⟨n, hn⟩⟩ ((n % 4 + 1) * 1024) j e)
    ∧ (∀ j : Fin 256, (outsAt0 a V c n hn).2 (ix2 (0 : Fin 1) j) = partS a V c ⟨n / 4, batch_lt a ⟨n, hn⟩⟩ ((n % 4 + 1) * 1024) j) := by
  induction n using Nat.strong_induction_on with
  | _ n ih =>
    intro hn
    by_cases h : n % 4 = 0
    · have hA : outsAt0 a V c n hn = step0 a V c ⟨n, hn⟩ zero0 := outsAt0_A a V c ⟨n, hn⟩ h
      rw [hA]
      refine ⟨fun j e => step_v_part a V c n hn _ j e ?_, fun j => step_s_part a V c n hn _ j ?_⟩
      · show k0_pay5 (F := Ideal) (ix2 j e) = _
        rw [pay5_apply, h]
        unfold partV
        exact (sum_below_zero _).symm
      · show k0_pay6 (F := Ideal) (ix2 (0 : Fin 1) j) = _
        rw [pay6_apply, h]
        unfold partS
        exact (sum_below_zero _).symm
    · have hB : outsAt0 a V c n hn = step0 a V c ⟨n, hn⟩ (outsAt0 a V c (n - 1) (Nat.lt_of_le_of_lt (Nat.sub_le _ _) hn)) :=
        outsAt0_B a V c ⟨n, hn⟩ h
      have ih' := ih (n - 1) (by omega) (Nat.lt_of_le_of_lt (Nat.sub_le _ _) hn)
      have hb : (⟨(n - 1) / 4, batch_lt a ⟨n - 1, Nat.lt_of_le_of_lt (Nat.sub_le _ _) hn⟩⟩ : Fin 16) = ⟨n / 4, batch_lt a ⟨n, hn⟩⟩ :=
        Fin.ext (by show (n - 1) / 4 = n / 4; omega)
      have hm : ((n - 1) % 4 + 1) * 1024 = (n % 4) * 1024 := by omega
      rw [hB]
      refine ⟨fun j e => step_v_part a V c n hn _ j e ?_, fun j => step_s_part a V c n hn _ j ?_⟩
      · rw [ih'.1 j e, hb, hm]
      · rw [ih'.2 j, hb, hm]

/-! ## The results -/

theorem sums_v (t : Fin (cfg0 a).N) (j e : Fin 256) :
    (outsAt0 a V c t.val t.isLt).1 (ix2 j e)
      = ∑ k ∈ Finset.univ.filter (fun k : Fin 4096 => k.val < (t.val % 4 + 1) * 1024),
          kf (KS V c) (VL a) (PJ V c) ⟨t.val / 4, batch_lt a t⟩ k j * VS V c ⟨t.val / 4, batch_lt a t⟩ k e :=
  (sums_aux a V c t.val t.isLt).1 j e

theorem sums_s (t : Fin (cfg0 a).N) (j : Fin 256) :
    (outsAt0 a V c t.val t.isLt).2 (ix2 (0 : Fin 1) j)
      = ∑ k ∈ Finset.univ.filter (fun k : Fin 4096 => k.val < (t.val % 4 + 1) * 1024),
          kf (KS V c) (VL a) (PJ V c) ⟨t.val / 4, batch_lt a t⟩ k j :=
  (sums_aux a V c t.val t.isLt).2 j

/-- After the region, batch `b` of the first output array is the specification's key-value summary. -/
theorem buf1v_at (b : Fin 16) (j e : Fin 256) :
    (dat0 a V c).arrAt 3 (cfg0 a).N (ix3 b j e) = kv (KS V c) (VS V c) (VL a) (PJ V c) b j e := by
  have hb : (⟨(4 * b.val + 3) / 4, batch_lt a ⟨4 * b.val + 3, last_lt a b⟩⟩ : Fin 16) = b :=
    Fin.ext (by show (4 * b.val + 3) / 4 = b.val; omega)
  have hm : ((4 * b.val + 3) % 4 + 1) * 1024 = 4096 := by omega
  rw [arr0_v_at, (sums_aux a V c (4 * b.val + 3) (last_lt a b)).1 j e, hb, hm]
  unfold partV kv
  exact sum_below_all (M := EReal) _

/-- After the region, batch `b` of the second output array is the specification's key summary. -/
theorem buf1s_at (b : Fin 16) (j : Fin 256) :
    (dat0 a V c).arrAt 4 (cfg0 a).N (ix3 b (0 : Fin 1) j) = ksum (KS V c) (VL a) (PJ V c) b j := by
  have hb : (⟨(4 * b.val + 3) / 4, batch_lt a ⟨4 * b.val + 3, last_lt a b⟩⟩ : Fin 16) = b :=
    Fin.ext (by show (4 * b.val + 3) / 4 = b.val; omega)
  have hm : ((4 * b.val + 3) % 4 + 1) * 1024 = 4096 := by omega
  rw [arr0_s_at, (sums_aux a V c (4 * b.val + 3) (last_lt a b)).2 j, hb, hm]
  unfold partS ksum
  exact sum_below_all (M := EReal) _

end Sums

end Cert.KernelIdeal.Hand

end
-- ==== Proof.KI.Host.lean ====
/-
  The projection as the two passes read it: the host transposes the argument before either pass runs, so the
  buffer holds, at `(d, j)`, the argument's entry `(j, d)`.
-/
import proofs.«416983_j21775484191371_1_alg».proof.Proof.KI.Run
import Idealize.ShloMosaic.Lib.StableHlo.Run
import Idealize.ShloMosaic.Lib.ValueIdx
import Idealize.ShloMosaic.Lib.ValueLayout
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Idealize.ShloMosaic.ValueIdx (ix1 ix2 ix3)

variable {F : FTy → Type} [FloatOps F]

variable (m : (ℓ : Loc nD τ sig) → Buf (Elt F) ℓ) (ρ : Dev nD → PrngReg)

/-- The buffer the passes read as the projection is the transpose of the argument, as whole arrays. -/
theorem transposed_proj (c : Dev nD) :
    (V1 m ρ c main_v0 : S256x256.Idx → Elt F .f32)
      = transpose S256x256 [1, 0] (m ((c : Thread nD τ).loc main_arg4)) transposes_S256x256_S256x256_1_0 := by
  show StableHlo.after hostOps0 (fun b => m (c, b)) (Proc.devRef .tc main_v0) = _
  dsimp only [hostOps0]
  after_results

/-- Entry `(d, j)` of the buffer the passes read as the projection is entry `(j, d)` of the argument. -/
theorem transposed_proj_at (c : Dev nD) (d j : Fin 256) :
    V1 m ρ c main_v0 (ix2 d j) = m ((c : Thread nD τ).loc main_arg4) (ix2 j d) := by
  rw [transposed_proj m ρ c]
  exact ValueIdx.transpose_ix2_apply _ _ d j

end Cert.KernelIdeal.Hand

end
-- ==== Proof.KI.Value.lean ====
import proofs.«416983_j21775484191371_1_alg».proof.Proof.KI.Args
import proofs.«416983_j21775484191371_1_alg».proof.Proof.KI.Arr1
import proofs.«416983_j21775484191371_1_alg».proof.Proof.KI.PayIdx
import proofs.«416983_j21775484191371_1_alg».proof.Proof.KI.Sums0
import proofs.«416983_j21775484191371_1_alg».proof.Proof.KI.Host
import proofs.«416983_j21775484191371_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

section Exact

open Cert.KernelIdeal.PayIdx (rowOf pjOf k1_pay1_apply)

variable (m : (ℓ : Loc nD τ sig) → Buf (Elt Ideal) ℓ) (ρ : Dev nD → PrngReg)

/-! ## The launch arrays, by coordinates -/

/-- The queries, the keys and the values as launched. -/
abbrev qsL (c : Dev nD) : Cert.Attn.T3 := fun b s d => m ((c : Thread nD τ).loc main_arg0) (ix3 b s d)
abbrev ksL (c : Dev nD) : Cert.Attn.T3 := fun b s d => m ((c : Thread nD τ).loc main_arg1) (ix3 b s d)
abbrev vsL (c : Dev nD) : Cert.Attn.T3 := fun b s d => m ((c : Thread nD τ).loc main_arg2) (ix3 b s d)
/-- The key lengths as launched. -/
abbrev lensL (c : Dev nD) : Cert.Attn.TL := fun b => m ((c : Thread nD τ).loc main_arg3) (ix1 b)
/-- The projection as launched. -/
abbrev projL (c : Dev nD) : Cert.Attn.T2 := fun j d => m ((c : Thread nD τ).loc main_arg4) (ix2 j d)

/-! ## The output, entry by entry

Entry (b, q, e) of the output after the run is what the point of row tile `q / 1024` of batch `b` wrote at row `q % 1024`:
the quotient of two sums over the 256 features of the query row's feature times the batch's key-value summary, and
times its key summary. The query row is the launch array's row; the projection block is the host's transpose of the
launch projection; the two summaries are what the key pass left, which are the specification's sums over the keys. -/

/-- The output entry from the three facts about what comes before the query pass: the transposed projection at an
    index, and the two key summaries the key pass leaves. -/
theorem kernel_out_of (c : Dev nD)
    (hT : ∀ d j : Fin 256, V1 (F := Ideal) m ρ c main_v0 (ix2 d j) = m ((c : Thread nD τ).loc main_arg4) (ix2 j d))
    (hv : ∀ (b : Fin 16) (j e : Fin 256), (dat0 (adm0 m ρ) (V1 m ρ) c).arrAt 3 (cfg0 (adm0 m ρ)).N (ix3 b j e)
        = Cert.Attn.kv (fun b s d => V1 m ρ c main_arg1 (ix3 b s d)) (fun b s d => V1 m ρ c main_arg2 (ix3 b s d))
            (fun b => tblOf (adm0 m ρ) (ix1 b)) (fun j d => V1 m ρ c main_v0 (ix2 d j)) b j e)
    (hs : ∀ (b : Fin 16) (j : Fin 256), (dat0 (adm0 m ρ) (V1 m ρ) c).arrAt 4 (cfg0 (adm0 m ρ)).N (ix3 b (0 : Fin 1) j)
        = Cert.Attn.ksum (fun b s d => V1 m ρ c main_arg1 (ix3 b s d))
            (fun b => tblOf (adm0 m ρ) (ix1 b)) (fun j d => V1 m ρ c main_v0 (ix2 d j)) b j)
    (b : Fin 16) (q : Fin 4096) (e : Fin 256) :
    V3 (F := Ideal) m ρ c main_v2 (ix3 b q e)
      = Cert.Attn.out (qsL m c) (ksL m c) (vsL m c) (lensL m c) (projL m c) b q e := by
  have hq := q.isLt
  have ht4 : (4 * b.val + q.val / 1024) / 4 = b.val := by omega
  have hq4 : ((4 * b.val + q.val / 1024) % 4) * 1024 + q.val % 1024 = q.val := by omega
  -- the arrays the key pass reads are the launch arrays; its table is the launch table
  have e1 : (fun (b : Fin 16) (s : Fin 4096) (d : Fin 256) => V1 m ρ c main_arg1 (ix3 b s d)) = ksL m c :=
    funext fun b => funext fun s => funext fun d => congrFun (V1_of_ne m ρ c main_arg1 (by decide)) _
  have e2 : (fun (b : Fin 16) (s : Fin 4096) (d : Fin 256) => V1 m ρ c main_arg2 (ix3 b s d)) = vsL m c :=
    funext fun b => funext fun s => funext fun d => congrFun (V1_of_ne m ρ c main_arg2 (by decide)) _
  have KL : tblOf (adm0 m ρ) = m ((c : Thread nD τ).loc main_arg3) := by
    obtain rfl := dev_eq c
    exact V1_of_ne m ρ 0 main_arg3 (by decide)
  have e3 : (fun b : Fin 16 => tblOf (adm0 m ρ) (ix1 b)) = lensL m c := funext fun b => congrFun KL _
  have e4 : (fun (j d : Fin 256) => V1 m ρ c main_v0 (ix2 d j)) = projL m c := funext fun j => funext fun d => hT d j
  -- the query pass's four input blocks at the entry's point
  have hrow : rowOf (iblk1 (V2 m ρ) c 0 (⟨4 * b.val + q.val / 1024, pt_of_lt b q⟩ : Fin cfg1.N)) (⟨q.val % 1024, Nat.mod_lt _ (by decide)⟩ : Fin 1024) = qsL m c b q := funext fun d => by
    show (iblk1 (V2 m ρ) c 0 (⟨4 * b.val + q.val / 1024, pt_of_lt b q⟩ : Fin cfg1.N)) (ix3 (0 : Fin 1) (⟨q.val % 1024, Nat.mod_lt _ (by decide)⟩ : Fin 1024) d) = _
    refine (iblk1_0_at (V2 m ρ) c (⟨4 * b.val + q.val / 1024, pt_of_lt b q⟩ : Fin cfg1.N) (⟨q.val % 1024, Nat.mod_lt _ (by decide)⟩ : Fin 1024) d).trans ?_
    refine (congrFun ((V2_main_arg0 m ρ c).trans (V1_of_ne m ρ c main_arg0 (by decide))) _).trans ?_
    refine congrArg (m ((c : Thread nD τ).loc main_arg0)) (funext fun a => Fin.ext ?_)
    match a with
    | ⟨0, _⟩ => exact ht4
    | ⟨1, _⟩ => exact hq4
    | ⟨2, _⟩ => rfl
  have hpj : pjOf (iblk1 (V2 m ρ) c 1 (⟨4 * b.val + q.val / 1024, pt_of_lt b q⟩ : Fin cfg1.N)) = projL m c := funext fun j => funext fun d => by
    show (iblk1 (V2 m ρ) c 1 (⟨4 * b.val + q.val / 1024, pt_of_lt b q⟩ : Fin cfg1.N)) (ix2 d j) = _
    exact (iblk1_1_at (V2 m ρ) c (⟨4 * b.val + q.val / 1024, pt_of_lt b q⟩ : Fin cfg1.N) d j).trans ((congrFun (V2_main_v0 m ρ c) _).trans (hT d j))
  have hx2 : ∀ j : Fin 256, (iblk1 (V2 m ρ) c 2 (⟨4 * b.val + q.val / 1024, pt_of_lt b q⟩ : Fin cfg1.N)) (ix3 (0 : Fin 1) j e) = Cert.Attn.kv (ksL m c) (vsL m c) (lensL m c) (projL m c) b j e := fun j => by
    refine (iblk1_2_at (V2 m ρ) c (⟨4 * b.val + q.val / 1024, pt_of_lt b q⟩ : Fin cfg1.N) j e).trans ?_
    refine (congrFun (V2_main_v1_0 m ρ c) _).trans ?_
    refine (congrArg ((dat0 (adm0 m ρ) (V1 m ρ) c).arrAt 3 (cfg0 (adm0 m ρ)).N) (funext fun a => Fin.ext ?_ : _ = ix3 b j e)).trans ?_
    · match a with
      | ⟨0, _⟩ => exact ht4
      | ⟨1, _⟩ => rfl
      | ⟨2, _⟩ => rfl
    · rw [hv b j e, e1, e2, e3, e4]
  have hx3 : ∀ j : Fin 256, (iblk1 (V2 m ρ) c 3 (⟨4 * b.val + q.val / 1024, pt_of_lt b q⟩ : Fin cfg1.N)) (ix3 (0 : Fin 1) (0 : Fin 1) j) = Cert.Attn.ksum (ksL m c) (lensL m c) (projL m c) b j := fun j => by
    refine (iblk1_3_at (V2 m ρ) c (⟨4 * b.val + q.val / 1024, pt_of_lt b q⟩ : Fin cfg1.N) j).trans ?_
    refine (congrFun (V2_main_v1_1 m ρ c) _).trans ?_
    refine (congrArg ((dat0 (adm0 m ρ) (V1 m ρ) c).arrAt 4 (cfg0 (adm0 m ρ)).N) (funext fun a => Fin.ext ?_ : _ = ix3 b (0 : Fin 1) j)).trans ?_
    · match a with
      | ⟨0, _⟩ => exact ht4
      | ⟨1, _⟩ => rfl
      | ⟨2, _⟩ => rfl
    · rw [hs b j, e1, e3, e4]
  refine (congrFun (V3_main_v2 m ρ c) (ix3 b q e)).trans ?_
  refine (arr1_out_at (V2 m ρ) c b q e).trans ?_
  refine (k1_pay1_apply (iblk1 (V2 m ρ) c 0 (⟨4 * b.val + q.val / 1024, pt_of_lt b q⟩ : Fin cfg1.N)) (iblk1 (V2 m ρ) c 1 (⟨4 * b.val + q.val / 1024, pt_of_lt b q⟩ : Fin cfg1.N)) (iblk1 (V2 m ρ) c 2 (⟨4 * b.val + q.val / 1024, pt_of_lt b q⟩ : Fin cfg1.N)) (iblk1 (V2 m ρ) c 3 (⟨4 * b.val + q.val / 1024, pt_of_lt b q⟩ : Fin cfg1.N)) (⟨q.val % 1024, Nat.mod_lt _ (by decide)⟩ : Fin 1024) e).trans ?_
  rw [hrow, hpj]
  unfold Cert.Attn.out Cert.Attn.numer Cert.Attn.denom
  refine congrArg₂ Ideal.div (Finset.sum_congr rfl fun j _ => ?_) (Finset.sum_congr rfl fun j _ => ?_)
  · rw [hx2 j]; rfl
  · rw [hx3 j]; rfl

/-- The output after the run, entry by entry, is the specification's attention output of the five launch arrays:
    the transposed projection is the host's, and the two key summaries are the key pass's sums over the keys. -/
theorem kernel_out (c : Dev nD) (b : Fin 16) (q : Fin 4096) (e : Fin 256) :
    V3 (F := Ideal) m ρ c main_v2 (ix3 b q e)
      = Cert.Attn.out (fun b s d => m ((c : Thread nD τ).loc main_arg0) (ix3 b s d)) (fun b s d => m ((c : Thread nD τ).loc main_arg1) (ix3 b s d))
          (fun b s d => m ((c : Thread nD τ).loc main_arg2) (ix3 b s d)) (fun b => m ((c : Thread nD τ).loc main_arg3) (ix1 b)) (fun j d => m ((c : Thread nD τ).loc main_arg4) (ix2 j d)) b q e :=
  kernel_out_of m ρ c (transposed_proj_at m ρ c) (buf1v_at (adm0 m ρ) (V1 m ρ) c) (buf1s_at (adm0 m ρ) (V1 m ρ) c) b q e

end Exact

end Cert.KernelIdeal.Hand

end
-- ==== Proof.RefImports.lean ====
/- The reference program's run and its operation-by-operation readings, gathered for the modules that
   compare the reference's result with the kernel's. -/
import proofs.«416983_j21775484191371_1_alg».proof.Proof.Gen.ReferenceIdeal.Read
-- ==== Proof.RefValue.lean ====
/-
  The reference program, read entry by entry, computes the attention function of the specification.

  Each of the reference's array stages is identified, at an index given by its coordinates, with the matching
  quantity of the specification: the scaled entries, the Gaussian weight of a row, its projection on a feature
  direction, the positive feature, the key mask, the masked key feature, the value rows extended by a column of
  ones, the key-value summary together with the key summary (the last column), and the unnormalised output together
  with its normaliser (the last column). Only commutative-monoid laws of the extended reals are used, and three
  evaluated constants: 256, its square root 16, and 1/16.
-/
import proofs.«416983_j21775484191371_1_alg».proof.Proof.RefImports
import proofs.«416983_j21775484191371_1_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2 ix3)

/-- A [16, 4096, 256] array of extended reals. -/
abbrev A3 := (⟨S16x4096x256, .f32⟩ : BufTy).Contents (Elt Ideal)
/-- The sixteen key lengths. -/
abbrev AL := (⟨S16, .i32⟩ : BufTy).Contents (Elt Ideal)
/-- A [256, 256] array of extended reals. -/
abbrev A2 := (⟨S256x256, .f32⟩ : BufTy).Contents (Elt Ideal)

/-- An array by its coordinates. -/
abbrev c3 (x : A3) : Cert.Attn.T3 := fun b s d => x (ix3 b s d)
/-- The key lengths by their coordinate. -/
abbrev cL (x : AL) : Cert.Attn.TL := fun b => x (ix1 b)
/-- The projection matrix by its coordinates. -/
abbrev c2 (x : A2) : Cert.Attn.T2 := fun j d => x (ix2 j d)

/-! ## The constants -/

/-- The pattern of 256.0 denotes the real 256. -/
theorem ofBits_256 : Ideal.ofBits .f32 0x43800000#32 = ((256 : ℝ) : EReal) := by
  simp [Ideal.ofBits, Ideal.ieee, -EReal.coe_mul]; norm_num

/-- The pattern of 0.0625 denotes the real 1/16. -/
theorem ofBits_sixteenth : Ideal.ofBits .f32 0x3D800000#32 = ((1 / 16 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- √256 = 16. -/
theorem sqrt_256 : Ideal.sqrt (Ideal.ofBits .f32 0x43800000#32) = ((16 : ℝ) : EReal) := by
  rw [ofBits_256, Ideal.sqrt_coe, if_neg (by norm_num)]
  congr 1
  rw [show (256 : ℝ) = 16 * 16 by norm_num, Real.sqrt_mul_self (by norm_num)]

/-- Dividing by √256 is multiplying by 1/16. -/
theorem div_sqrt_256 (w : EReal) :
    Ideal.div w (Ideal.sqrt (Ideal.ofBits .f32 0x43800000#32)) = w * Cert.Attn.sixteenth := by
  rw [sqrt_256, Ideal.div_coe (by norm_num), ← ofBits_sixteenth]

/-! ## The query features -/

/-- A scaled query entry. -/
theorem v1_at (x0 : A3) (i : S16x4096x256.Idx) : val_main_v1 (F := Ideal) x0 i = x0 i * Cert.Attn.quarter := by
  rw [val_main_v1_apply, val_main_v0_apply, val_main_cst_apply]; rfl

theorem i3_q (b : Fin 16) (s : Fin 4096) (d : Fin 256) : idx_main_v3 (ix2 b s) d = ix3 b s d :=
  funext fun a => Fin.ext (by match a with | ⟨0, _⟩ => rfl | ⟨1, _⟩ => rfl | ⟨2, _⟩ => rfl)

theorem i4_q (b : Fin 16) (s : Fin 4096) (z : Fin 1) : idx_main_v4 (ix3 b s z) = ix2 b s :=
  funext fun a => Fin.ext (by match a with | ⟨0, _⟩ => rfl | ⟨1, _⟩ => rfl)

/-- The Gaussian weight of a scaled query row. -/
theorem v7_at (x0 : A3) (b : Fin 16) (s : Fin 4096) (z : Fin 1) :
    val_main_v7 (F := Ideal) x0 (ix3 b s z) = Cert.Attn.rowW (c3 x0) b s := by
  rw [val_main_v7_apply, val_main_v6_apply, val_main_v5_apply, val_main_cst_1_apply, val_main_v4_apply, i4_q,
    val_main_v3_apply, val_main_cst_0_apply]
  simp only [val_main_v2_apply, v1_at, i3_q, Ideal.hostUnary_exp_def, Ideal.mulf_def, Ideal.ofBits_def,
    Ideal.ofBits_zero_f32, zero_add]
  rfl

/-- The normalised Gaussian weight of a scaled query row. -/
theorem v10_at (x0 : A3) (b : Fin 16) (s : Fin 4096) (z : Fin 1) :
    val_main_v10 (F := Ideal) x0 (ix3 b s z) = Cert.Attn.rowW (c3 x0) b s * Cert.Attn.sixteenth := by
  rw [val_main_v10_apply, v7_at, val_main_v9_apply, val_main_v8_apply, val_main_cst_2_apply]
  simp only [Ideal.hostDivf_def, Ideal.hostUnary_sqrt_def, Ideal.ofBits_def]
  exact div_sqrt_256 _

theorem il11 (b : Fin 16) (s : Fin 4096) (j d : Fin 256) : lidx_main_v11 (ix3 b s j) d = ix3 b s d :=
  funext fun a => Fin.ext (by match a with | ⟨0, _⟩ => rfl | ⟨1, _⟩ => rfl | ⟨2, _⟩ => rfl)

theorem ir11 (b : Fin 16) (s : Fin 4096) (j d : Fin 256) : ridx_main_v11 (ix3 b s j) d = ix2 j d :=
  funext fun a => Fin.ext (by match a with | ⟨0, _⟩ => rfl | ⟨1, _⟩ => rfl)

/-- The projection of a scaled query row on a feature direction. -/
theorem v11_at (x0 : A3) (x4 : A2) (b : Fin 16) (s : Fin 4096) (j : Fin 256) :
    val_main_v11 (F := Ideal) x0 x4 (ix3 b s j) = Cert.Attn.logit (c3 x0) (c2 x4) b s j := by
  rw [val_main_v11_apply]
  simp only [v1_at, il11, ir11]
  rfl

theorem i13 (b : Fin 16) (s : Fin 4096) (j : Fin 256) : idx_main_v13 (ix3 b s j) = ix3 b s (0 : Fin 1) :=
  funext fun a => Fin.ext (by match a with | ⟨0, _⟩ => rfl | ⟨1, _⟩ => rfl | ⟨2, _⟩ => rfl)

/-- The positive feature of a query row. -/
theorem v14_at (x0 : A3) (x4 : A2) (b : Fin 16) (s : Fin 4096) (j : Fin 256) :
    val_main_v14 (F := Ideal) x0 x4 (ix3 b s j) = Cert.Attn.feat (c3 x0) (c2 x4) b s j := by
  rw [val_main_v14_apply, val_main_v13_apply, i13, v10_at, val_main_v12_apply, v11_at]
  rfl

/-! ## The key features and the mask -/

/-- The keys go through the very stages the queries go through (the same operations on the same constants). -/
theorem v29_eq (x1 : A3) (x4 : A2) : val_main_v29 (F := Ideal) x1 x4 = val_main_v14 (F := Ideal) x1 x4 := rfl

/-- The positive feature of a key row. -/
theorem v29_at (x1 : A3) (x4 : A2) (b : Fin 16) (s : Fin 4096) (j : Fin 256) :
    val_main_v29 (F := Ideal) x1 x4 (ix3 b s j) = Cert.Attn.feat (c3 x1) (c2 x4) b s j := by
  rw [v29_eq, v14_at]

/-- The 0/1 bit of a signed comparison, read as an unsigned number, is the indicator of the comparison. -/
theorem uitofp_slt (a c : BitVec 32) :
    FloatOps.uitofp (F := Ideal) .f32 (IntOp.cmpi .slt a c) = if a.slt c then (1 : EReal) else 0 := by
  show (((BitVec.ofBool (a.slt c)).toNat : ℝ) : EReal) = _
  cases a.slt c <;> simp

theorem i38 (b : Fin 16) (k : Fin 4096) (j : Fin 256) : idx_main_v38 (ix3 b k j) = ix3 b k (0 : Fin 1) :=
  funext fun a => Fin.ext (by match a with | ⟨0, _⟩ => rfl | ⟨1, _⟩ => rfl | ⟨2, _⟩ => rfl)
theorem i36 (b : Fin 16) (k : Fin 4096) (z : Fin 1) : idx_main_v36 (ix3 b k z) = ix2 b k :=
  funext fun a => Fin.ext (by match a with | ⟨0, _⟩ => rfl | ⟨1, _⟩ => rfl)
theorem i33 (b : Fin 16) (k : Fin 4096) : idx_main_v33 (ix2 b k) = ix2 (0 : Fin 1) k :=
  funext fun a => Fin.ext (by match a with | ⟨0, _⟩ => rfl | ⟨1, _⟩ => rfl)
theorem i32 (z : Fin 1) (k : Fin 4096) : idx_main_v32 (ix2 z k) = ix1 k :=
  funext fun a => Fin.ext (by match a with | ⟨0, _⟩ => rfl)
theorem i34 (b : Fin 16) (k : Fin 4096) : idx_main_v34 (ix2 b k) = ix2 b (0 : Fin 1) :=
  funext fun a => Fin.ext (by match a with | ⟨0, _⟩ => rfl | ⟨1, _⟩ => rfl)
theorem i31 (b : Fin 16) (z : Fin 1) : idx_main_v31 (ix2 b z) = ix1 b :=
  funext fun a => Fin.ext (by match a with | ⟨0, _⟩ => rfl)

/-- The key mask: position `k` against the batch entry's valid length. -/
theorem v38_at (x3 : AL) (b : Fin 16) (k : Fin 4096) (j : Fin 256) :
    val_main_v38 (F := Ideal) x3 (ix3 b k j) = Cert.Attn.msk (cL x3) b k := by
  rw [val_main_v38_apply, i38, val_main_v37_apply, val_main_v36_apply, i36, val_main_v35_apply, val_main_v33_apply, i33,
    val_main_v32_apply, i32, val_main_v30_apply, val_main_v34_apply, i34, val_main_v31_apply, i31, uitofp_slt]
  rfl

/-- The masked key feature (the reference multiplies by the mask on the left). -/
theorem v39_at (x1 : A3) (x3 : AL) (x4 : A2) (b : Fin 16) (k : Fin 4096) (j : Fin 256) :
    val_main_v39 (F := Ideal) x1 x3 x4 (ix3 b k j) = Cert.Attn.kf (c3 x1) (cL x3) (c2 x4) b k j := by
  rw [val_main_v39_apply, v38_at, v29_at, Ideal.mulf_def, mul_comm]
  rfl

/-! ## The value rows extended by a column of ones -/

/-- A column below 256, as a column of the extended rows. -/
abbrev lo (e : Fin 256) : Fin 257 := ⟨e.val, Nat.lt_succ_of_lt e.isLt⟩
/-- The last column of the extended rows. -/
abbrev hi : Fin 257 := ⟨256, Nat.lt_succ_self 256⟩

/-- Below column 256 the extended rows are the value rows. -/
theorem v41_lo (x2 : A3) (b : Fin 16) (k : Fin 4096) (e : Fin 256) :
    val_main_v41 (F := Ideal) x2 (ix3 b k (lo e)) = x2 (ix3 b k e) := by
  unfold val_main_v41
  exact concatenate_pair_apply_left 2 x2 (val_main_v40 (F := Ideal)) concatenates_S16x4096x256_S16x4096x1_S16x4096x257_d2
    (ix3 b k (lo e)) rfl (ix3 b k e) (fun a => by match a with | ⟨0, _⟩ => rfl | ⟨1, _⟩ => rfl | ⟨2, _⟩ => rfl)

/-- Column 256 of the extended rows is the column of ones. -/
theorem v41_hi (x2 : A3) (b : Fin 16) (k : Fin 4096) :
    val_main_v41 (F := Ideal) x2 (ix3 b k hi) = 1 := by
  unfold val_main_v41
  rw [concatenate_pair_apply_right 2 x2 (val_main_v40 (F := Ideal)) concatenates_S16x4096x256_S16x4096x1_S16x4096x257_d2
    (ix3 b k hi) rfl rfl (ix3 b k (0 : Fin 1))
    (fun a ha => by
      match a, ha with
      | ⟨0, _⟩, _ => rfl
      | ⟨1, _⟩, _ => rfl
      | ⟨2, _⟩, ha => exact (ha (Fin.ext rfl)).elim)
    rfl]
  rw [val_main_v40_apply, val_main_cst_7_apply]
  exact ofBits_one

/-! ## The two chained products -/

theorem il42 (b : Fin 16) (j : Fin 256) (c : Fin 257) (k : Fin 4096) : lidx_main_v42 (ix3 b j c) k = ix3 b k j :=
  funext fun a => Fin.ext (by match a with | ⟨0, _⟩ => rfl | ⟨1, _⟩ => rfl | ⟨2, _⟩ => rfl)
theorem ir42 (b : Fin 16) (j : Fin 256) (c : Fin 257) (k : Fin 4096) : ridx_main_v42 (ix3 b j c) k = ix3 b k c :=
  funext fun a => Fin.ext (by match a with | ⟨0, _⟩ => rfl | ⟨1, _⟩ => rfl | ⟨2, _⟩ => rfl)

/-- Below column 256 the first product is the key-value summary. -/
theorem v42_lo (x1 x2 : A3) (x3 : AL) (x4 : A2) (b : Fin 16) (j e : Fin 256) :
    val_main_v42 (F := Ideal) x1 x2 x3 x4 (ix3 b j (lo e)) = Cert.Attn.kv (c3 x1) (c3 x2) (cL x3) (c2 x4) b j e := by
  rw [val_main_v42_apply]
  simp only [il42, ir42, v39_at, v41_lo]
  rfl

/-- Its column 256 is the key summary. -/
theorem v42_hi (x1 x2 : A3) (x3 : AL) (x4 : A2) (b : Fin 16) (j : Fin 256) :
    val_main_v42 (F := Ideal) x1 x2 x3 x4 (ix3 b j hi) = Cert.Attn.ksum (c3 x1) (cL x3) (c2 x4) b j := by
  rw [val_main_v42_apply]
  simp only [il42, ir42, v39_at, v41_hi, mul_one]
  rfl

theorem il43 (b : Fin 16) (q : Fin 4096) (c : Fin 257) (j : Fin 256) : lidx_main_v43 (ix3 b q c) j = ix3 b q j :=
  funext fun a => Fin.ext (by match a with | ⟨0, _⟩ => rfl | ⟨1, _⟩ => rfl | ⟨2, _⟩ => rfl)
theorem ir43 (b : Fin 16) (q : Fin 4096) (c : Fin 257) (j : Fin 256) : ridx_main_v43 (ix3 b q c) j = ix3 b j c :=
  funext fun a => Fin.ext (by match a with | ⟨0, _⟩ => rfl | ⟨1, _⟩ => rfl | ⟨2, _⟩ => rfl)

/-- Below column 256 the second product is the unnormalised output. -/
theorem v43_lo (x0 x1 x2 : A3) (x3 : AL) (x4 : A2) (b : Fin 16) (q : Fin 4096) (e : Fin 256) :
    val_main_v43 (F := Ideal) x0 x1 x2 x3 x4 (ix3 b q (lo e))
      = Cert.Attn.numer (c3 x0) (c3 x1) (c3 x2) (cL x3) (c2 x4) b q e := by
  rw [val_main_v43_apply]
  simp only [il43, ir43, v14_at, v42_lo]
  rfl

/-- Its column 256 is the normaliser. -/
theorem v43_hi (x0 x1 x2 : A3) (x3 : AL) (x4 : A2) (b : Fin 16) (q : Fin 4096) :
    val_main_v43 (F := Ideal) x0 x1 x2 x3 x4 (ix3 b q hi) = Cert.Attn.denom (c3 x0) (c3 x1) (cL x3) (c2 x4) b q := by
  rw [val_main_v43_apply]
  simp only [il43, ir43, v14_at, v42_hi]
  rfl

/-! ## The two slices and the quotient -/

theorem i44 (b : Fin 16) (q : Fin 4096) (e : Fin 256) : idx_main_v44 (ix3 b q e) = ix3 b q (lo e) :=
  funext fun a => Fin.ext (by match a with | ⟨0, _⟩ => rfl | ⟨1, _⟩ => rfl | ⟨2, _⟩ => rfl)
theorem i46 (b : Fin 16) (q : Fin 4096) (e : Fin 256) : idx_main_v46 (ix3 b q e) = ix3 b q (0 : Fin 1) :=
  funext fun a => Fin.ext (by match a with | ⟨0, _⟩ => rfl | ⟨1, _⟩ => rfl | ⟨2, _⟩ => rfl)
theorem i45 (b : Fin 16) (q : Fin 4096) : idx_main_v45 (ix3 b q (0 : Fin 1)) = ix3 b q hi :=
  funext fun a => Fin.ext (by match a with | ⟨0, _⟩ => rfl | ⟨1, _⟩ => rfl | ⟨2, _⟩ => rfl)

/-- The reference program computes the attention function, entry by entry. -/
theorem ref_out (x0 x1 x2 : (⟨Cert.ReferenceIdeal.S16x4096x256, .f32⟩ : BufTy).Contents (Elt Ideal))
    (x3 : (⟨Cert.ReferenceIdeal.S16, .i32⟩ : BufTy).Contents (Elt Ideal))
    (x4 : (⟨Cert.ReferenceIdeal.S256x256, .f32⟩ : BufTy).Contents (Elt Ideal))
    (b : Fin 16) (q : Fin 4096) (e : Fin 256) :
    Cert.ReferenceIdeal.Read.val_main_v47 (F := Ideal) x0 x1 x2 x3 x4 (ValueIdx.ix3 b q e)
      = Cert.Attn.out (fun b s d => x0 (ValueIdx.ix3 b s d)) (fun b s d => x1 (ValueIdx.ix3 b s d))
          (fun b s d => x2 (ValueIdx.ix3 b s d)) (fun b => x3 (ValueIdx.ix1 b)) (fun j d => x4 (ValueIdx.ix2 j d)) b q e := by
  rw [val_main_v47_apply, val_main_v44_apply, i44, v43_lo, val_main_v46_apply, i46, val_main_v45_apply, i45, v43_hi]
  rfl

end Cert.RefValue

end
-- ==== Proof.lean ====
/-
  FAVOR+ linear attention with a key-length mask: the two-pass kernel against the one-expression reference.

  The kernel runs a host transpose of the projection matrix and two passes over a 16 × 4 grid. The key pass
  accumulates, per batch entry and over four tiles of 1024 keys, the key-value summary `Σ_k kf_{k,j} · v_{k,e}` and
  the key summary `Σ_k kf_{k,j}` of the masked positive random features `kf`; the query pass forms, per tile of
  1024 queries, the quotient `(Σ_j feat(q)_j · S_{j,e}) / (Σ_j feat(q)_j · s_j)`. The reference computes the same
  quotient from one contraction over all 4096 keys against the value rows extended by a column of ones.

  Both are the function `Cert.Attn.out` (Proof/Spec.lean) on the extended reals: the kernel's by reading what the
  two passes leave in their output arrays (Proof/KI), the reference's by reading its operations one at a time
  (Proof/RefValue.lean). What relates them is the commutative-monoid structure of the extended reals — a sum over
  4096 keys is the sum of its four tiles' sums, `x · 1 = x`, products commute — together with `√256 = 16` and
  `x / 16 = x · 1/16`; no entry needs to be finite, so the precondition is never opened.

  The frames: the word-level and the idealized kernel are one text up to the namespace, and their run
  (`run_main`, Proof/KB/Run.lean and Proof/KI/Run.lean) holds for every float instance; it ends with every
  unscoped buffer at known contents, among them the five arguments as launched. The reference's frame is its
  run with the result dropped.
-/
import proofs.«416983_j21775484191371_1_alg».proof.Defs
import proofs.«416983_j21775484191371_1_alg».proof.Proof.Gen.Kernel
import proofs.«416983_j21775484191371_1_alg».proof.Proof.Gen.KernelIdeal
import proofs.«416983_j21775484191371_1_alg».proof.Proof.Gen.ReferenceIdeal
import proofs.«416983_j21775484191371_1_alg».proof.Proof.Gen.Pre_finite_inputs
import proofs.«416983_j21775484191371_1_alg».proof.Proof.KB.Args
import proofs.«416983_j21775484191371_1_alg».proof.Proof.KI.Value
import proofs.«416983_j21775484191371_1_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx (ix1 ix2 ix3)

/-- The word-level kernel runs, and every argument ends as launched. -/
theorem frame_k [Cert.Kernel.Facts] [Cert.Pre_finite_inputs.Facts] : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.V3_main_arg0 m ρ c),
     (h c _ (Cert.Kernel.Hand.mem_uc Cert.Kernel.main_arg1 (by decide))).trans (Cert.Kernel.Hand.V3_main_arg1 m ρ c),
     (h c _ (Cert.Kernel.Hand.mem_uc Cert.Kernel.main_arg2 (by decide))).trans (Cert.Kernel.Hand.V3_main_arg2 m ρ c),
     (h c _ (Cert.Kernel.Hand.mem_uc Cert.Kernel.main_arg3 (by decide))).trans (Cert.Kernel.Hand.V3_main_arg3 m ρ c),
     (h c _ (Cert.Kernel.Hand.mem_uc Cert.Kernel.main_arg4 (by decide))).trans (Cert.Kernel.Hand.V3_main_arg4 m ρ c)⟩)
    (Cert.Kernel.Hand.run_main (F := Bits) m ρ)

/-- The idealized kernel's run, with the result buffer named: it ends at `V3 … main_v2`, the arguments as launched. -/
theorem run_ki [Cert.KernelIdeal.Facts] (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = Cert.KernelIdeal.Hand.V3 m ρ c Cert.KernelIdeal.main_v2
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c =>
    ⟨h c _ (Cert.KernelIdeal.Hand.mem_uc Cert.KernelIdeal.main_v2 (by decide)),
     (h c _ (Cert.KernelIdeal.Hand.mem_uc Cert.KernelIdeal.main_arg0 (by decide))).trans (Cert.KernelIdeal.Hand.V3_main_arg0 m ρ c),
     (h c _ (Cert.KernelIdeal.Hand.mem_uc Cert.KernelIdeal.main_arg1 (by decide))).trans (Cert.KernelIdeal.Hand.V3_main_arg1 m ρ c),
     (h c _ (Cert.KernelIdeal.Hand.mem_uc Cert.KernelIdeal.main_arg2 (by decide))).trans (Cert.KernelIdeal.Hand.V3_main_arg2 m ρ c),
     (h c _ (Cert.KernelIdeal.Hand.mem_uc Cert.KernelIdeal.main_arg3 (by decide))).trans (Cert.KernelIdeal.Hand.V3_main_arg3 m ρ c),
     (h c _ (Cert.KernelIdeal.Hand.mem_uc Cert.KernelIdeal.main_arg4 (by decide))).trans (Cert.KernelIdeal.Hand.V3_main_arg4 m ρ c)⟩)
    (Cert.KernelIdeal.Hand.run_main (F := Ideal) m ρ)

/-- The idealized kernel runs, and every argument ends as launched. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2) (run_ki m ρ)

/-- The reference runs, and every argument ends as launched: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same array: entry `(b, q, e)` of either
    is `Cert.Attn.out` of the arguments there. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.V3 m ρ c Cert.KernelIdeal.main_v2, run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1, (hagree c).2.2.2.2]
  funext i
  obtain ⟨b, q, e, rfl⟩ : ∃ (b : Fin 16) (q : Fin 4096) (e : Fin 256), i = ix3 b q e := ⟨i 0, i 1, i 2, ValueIdx.eq_ix3 i⟩
  exact (Cert.RefValue.ref_out _ _ _ _ _ b q e).trans (Cert.KernelIdeal.Hand.kernel_out m ρ c b q e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
